-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x8x64 : Shape := ⟨4, ![8, 8192, 8, 64]⟩
abbrev S64 : Shape := ⟨1, ![64]⟩
abbrev S_ : Shape := ⟨0, ![]⟩

class Facts : Prop where
  bcast_S_S8x8192x8x64 : S_.BroadcastsInDim S8x8192x8x64 (![] : Fin 0 → Fin S8x8192x8x64.rank)
  reducesTo_S8x8192x8x64_S_d0_1_2_3 : S8x8192x8x64.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : IVec S64 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S64 32 := broadcastInDim S64 ![] bcast_S_S64 main_c_6
  let main_v20 : IVec S64 1 := cmpi .sge main_arg4 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v18 main_v21
  let main_c_8 : IVec S_ 32 := constantI S_ 32 64#32
  let main_v23 : IVec S64 32 := broadcastInDim S64 ![] bcast_S_S64 main_c_8
  let main_v24 : IVec S64 1 := cmpi .slt main_arg4 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v22 main_v25
  main_v26

def fn {F : FTy → Type} [FloatOps F] (main_arg0 : FVec F S8x8192x8x64 .f32) (main_arg1 : FVec F S64 .f32) (main_arg2 : FVec F S64 .f32) (main_arg3 : FVec F S64 .f32) (main_arg4 : IVec S64 32) : IVec S_ 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_c : IVec S_ 1 := constantI S_ 1 1#1
  let main_v3 : IVec S_ 1 := (fun x v => Host.reduce IntOp.andi x v reducesTo_S8x8192x8x64_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S8x8192x8x64 : Shape := ⟨4, ![8, 8192, 8, 64]⟩
abbrev S64 : Shape := ⟨1, ![64]⟩
abbrev S64x64 : Shape := ⟨2, ![64, 64]⟩
abbrev S64x1 : Shape := ⟨2, ![64, 1]⟩
abbrev S1x64 : Shape := ⟨2, ![1, 64]⟩
abbrev S_ : Shape := ⟨0, ![]⟩
abbrev S524288x64 : Shape := ⟨2, ![524288, 64]⟩
abbrev S16384x64 : Shape := ⟨2, ![16384, 64]⟩

abbrev nBuf : Space → Nat
  | .hbm => 30
  | .vmem => 5
  | .smem => 0
  | _ => 0

abbrev bufTy : (tb : Table) → Fin (tcTables nBuf tb) → BufTy
  | .hbm, ⟨0, _⟩ => ⟨S8x8192x8x64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .i32⟩
  | .hbm, ⟨5, _⟩ => ⟨S64x64, .f32⟩
  | .hbm, ⟨6, _⟩ => ⟨S64x1, .i32⟩
  | .hbm, ⟨7, _⟩ => ⟨S1x64, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S64x64, .f32⟩
  | .hbm, ⟨13, _⟩ => ⟨S64x1, .f32⟩
  | .hbm, ⟨14, _⟩ => ⟨S64x64, .f32⟩
  | .hbm, ⟨15, _⟩ => ⟨S64x64, .f32⟩
  | .hbm, ⟨16, _⟩ => ⟨S1x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S1x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S524288x64, .f32⟩
  | .hbm, ⟨28, _⟩ => ⟨S524288x64, .f32⟩
  | .hbm, ⟨29, _⟩ => ⟨S8x8192x8x64, .f32⟩
  | .local _ .vmem, ⟨0, _⟩ => ⟨S16384x64, .f32⟩
  | .local _ .vmem, ⟨1, _⟩ => ⟨S16384x64, .f32⟩
  | .local _ .vmem, ⟨2, _⟩ => ⟨S64x64, .f32⟩
  | .local _ .vmem, ⟨3, _⟩ => ⟨S16384x64, .f32⟩
  | .local _ .vmem, ⟨4, _⟩ => ⟨S16384x64, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S64x64_S64x64_1_0 : S64x64.Transposes [1, 0] S64x64
  bcast_S64_S1x64_1 : S64.BroadcastsInDim S1x64 (![1] : Fin 1 → Fin S1x64.rank)
  bcast_S_S64x64 : S_.BroadcastsInDim S64x64 (![] : Fin 0 → Fin S64x64.rank)
  shapeCasts_S8x8192x8x64_S524288x64 : S8x8192x8x64.ShapeCasts S524288x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S524288x64_S8x8192x8x64 : S524288x64.ShapeCasts S8x8192x8x64
  dot_S64x64_S64x64_S64x64_1_0_0_1_n_n_wf : DotDims.WF S64x64 S64x64 S64x64 [1] [0] [0] [1] [] []
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S524288x64.size a
  hwx0_0 : ∀ i : grid0.Coords, EltTy.bits .f32 = 32 ∨ (Rect.block (s := S524288x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S524288x64.size a
  hwx0_2 : ∀ i : grid0.Coords, EltTy.bits .f32 = 32 ∨ (Rect.block (s := S524288x64) S16384x64.size (cc0_transform_2 i) (hinb0_2 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_v15) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x8x64 : Shape := ⟨4, ![8, 8192, 8, 64]⟩
abbrev S64 : Shape := ⟨1, ![64]⟩
abbrev S_ : Shape := ⟨0, ![]⟩
abbrev S524288x64 : Shape := ⟨2, ![524288, 64]⟩
abbrev S1x64 : Shape := ⟨2, ![1, 64]⟩
abbrev S524288x32x2x1 : Shape := ⟨4, ![524288, 32, 2, 1]⟩
abbrev S524288x32x1x1 : Shape := ⟨4, ![524288, 32, 1, 1]⟩
abbrev S524288x32x1 : Shape := ⟨3, ![524288, 32, 1]⟩
abbrev S524288x16x2x2 : Shape := ⟨4, ![524288, 16, 2, 2]⟩
abbrev S524288x16x1x2 : Shape := ⟨4, ![524288, 16, 1, 2]⟩
abbrev S524288x16x2 : Shape := ⟨3, ![524288, 16, 2]⟩
abbrev S524288x8x2x4 : Shape := ⟨4, ![524288, 8, 2, 4]⟩
abbrev S524288x8x1x4 : Shape := ⟨4, ![524288, 8, 1, 4]⟩
abbrev S524288x8x4 : Shape := ⟨3, ![524288, 8, 4]⟩
abbrev S524288x4x2x8 : Shape := ⟨4, ![524288, 4, 2, 8]⟩
abbrev S524288x4x1x8 : Shape := ⟨4, ![524288, 4, 1, 8]⟩
abbrev S524288x4x8 : Shape := ⟨3, ![524288, 4, 8]⟩
abbrev S524288x2x2x16 : Shape := ⟨4, ![524288, 2, 2, 16]⟩
abbrev S524288x2x1x16 : Shape := ⟨4, ![524288, 2, 1, 16]⟩
abbrev S524288x2x16 : Shape := ⟨3, ![524288, 2, 16]⟩
abbrev S524288x1x2x32 : Shape := ⟨4, ![524288, 1, 2, 32]⟩
abbrev S524288x1x1x32 : Shape := ⟨4, ![524288, 1, 1, 32]⟩
abbrev S524288x1x32 : Shape := ⟨3, ![524288, 1, 32]⟩
abbrev S64x1 : Shape := ⟨2, ![64, 1]⟩

abbrev nBuf : Space → Nat
  | .hbm => 163
  | .vmem => 0
  | .smem => 0
  | _ => 0

abbrev hbmTy0_0 (i : Nat) : BufTy := match i % 128 with
  | 0 => ⟨S8x8192x8x64, .f32⟩
  | 1 => ⟨S64, .f32⟩
  | 2 => ⟨S64, .f32⟩
  | 3 => ⟨S64, .f32⟩
  | 4 => ⟨S64, .i32⟩
  | 5 => ⟨S_, .f32⟩
  | 6 => ⟨S8x8192x8x64, .f32⟩
  | 7 => ⟨S8x8192x8x64, .f32⟩
  | 8 => ⟨S524288x64, .f32⟩
  | 9 => ⟨S1x64, .f32⟩
  | 10 => ⟨S524288x64, .f32⟩
  | 11 => ⟨S524288x64, .f32⟩
  | 12 => ⟨S524288x32x2x1, .f32⟩
  | 13 => ⟨S524288x32x1x1, .f32⟩
  | 14 => ⟨S524288x32x1, .f32⟩
  | 15 => ⟨S524288x32x1x1, .f32⟩
  | 16 => ⟨S524288x32x1, .f32⟩
  | 17 => ⟨S524288x32x1, .f32⟩
  | 18 => ⟨S524288x32x1, .f32⟩
  | 19 => ⟨S524288x32x1x1, .f32⟩
  | 20 => ⟨S524288x32x1x1, .f32⟩
  | 21 => ⟨S524288x32x2x1, .f32⟩
  | 22 => ⟨S524288x64, .f32⟩
  | 23 => ⟨S524288x16x2x2, .f32⟩
  | 24 => ⟨S524288x16x1x2, .f32⟩
  | 25 => ⟨S524288x16x2, .f32⟩
  | 26 => ⟨S524288x16x1x2, .f32⟩
  | 27 => ⟨S524288x16x2, .f32⟩
  | 28 => ⟨S524288x16x2, .f32⟩
  | 29 => ⟨S524288x16x2, .f32⟩
  | 30 => ⟨S524288x16x1x2, .f32⟩
  | 31 => ⟨S524288x16x1x2, .f32⟩
  | 32 => ⟨S524288x16x2x2, .f32⟩
  | 33 => ⟨S524288x64, .f32⟩
  | 34 => ⟨S524288x8x2x4, .f32⟩
  | 35 => ⟨S524288x8x1x4, .f32⟩
  | 36 => ⟨S524288x8x4, .f32⟩
  | 37 => ⟨S524288x8x1x4, .f32⟩
  | 38 => ⟨S524288x8x4, .f32⟩
  | 39 => ⟨S524288x8x4, .f32⟩
  | 40 => ⟨S524288x8x4, .f32⟩
  | 41 => ⟨S524288x8x1x4, .f32⟩
  | 42 => ⟨S524288x8x1x4, .f32⟩
  | 43 => ⟨S524288x8x2x4, .f32⟩
  | 44 => ⟨S524288x64, .f32⟩
  | 45 => ⟨S524288x4x2x8, .f32⟩
  | 46 => ⟨S524288x4x1x8, .f32⟩
  | 47 => ⟨S524288x4x8, .f32⟩
  | 48 => ⟨S524288x4x1x8, .f32⟩
  | 49 => ⟨S524288x4x8, .f32⟩
  | 50 => ⟨S524288x4x8, .f32⟩
  | 51 => ⟨S524288x4x8, .f32⟩
  | 52 => ⟨S524288x4x1x8, .f32⟩
  | 53 => ⟨S524288x4x1x8, .f32⟩
  | 54 => ⟨S524288x4x2x8, .f32⟩
  | 55 => ⟨S524288x64, .f32⟩
  | 56 => ⟨S524288x2x2x16, .f32⟩
  | 57 => ⟨S524288x2x1x16, .f32⟩
  | 58 => ⟨S524288x2x16, .f32⟩
  | 59 => ⟨S524288x2x1x16, .f32⟩
  | 60 => ⟨S524288x2x16, .f32⟩
  | 61 => ⟨S524288x2x16, .f32⟩
  | 62 => ⟨S524288x2x16, .f32⟩
  | 63 => ⟨S524288x2x1x16, .f32⟩
  | 64 => ⟨S524288x2x1x16, .f32⟩
  | 65 => ⟨S524288x2x2x16, .f32⟩
  | 66 => ⟨S524288x64, .f32⟩
  | 67 => ⟨S524288x1x2x32, .f32⟩
  | 68 => ⟨S524288x1x1x32, .f32⟩
  | 69 => ⟨S524288x1x32, .f32⟩
  | 70 => ⟨S524288x1x1x32, .f32⟩
  | 71 => ⟨S524288x1x32, .f32⟩
  | 72 => ⟨S524288x1x32, .f32⟩
  | 73 => ⟨S524288x1x32, .f32⟩
  | 74 => ⟨S524288x1x1x32, .f32⟩
  | 75 => ⟨S524288x1x1x32, .f32⟩
  | 76 => ⟨S524288x1x2x32, .f32⟩
  | 77 => ⟨S524288x64, .f32⟩
  | 78 => ⟨S_, .i32⟩
  | 79 => ⟨S64, .i32⟩
  | 80 => ⟨S64, .i1⟩
  | 81 => ⟨S_, .i32⟩
  | 82 => ⟨S64, .i32⟩
  | 83 => ⟨S64, .i32⟩
  | 84 => ⟨S64, .i32⟩
  | 85 => ⟨S64x1, .i32⟩
  | 86 => ⟨S524288x64, .f32⟩
  | 87 => ⟨S1x64, .f32⟩
  | 88 => ⟨S524288x64, .f32⟩
  | 89 => ⟨S524288x64, .f32⟩
  | 90 => ⟨S524288x32x2x1, .f32⟩
  | 91 => ⟨S524288x32x1x1, .f32⟩
  | 92 => ⟨S524288x32x1, .f32⟩
  | 93 => ⟨S524288x32x1x1, .f32⟩
  | 94 => ⟨S524288x32x1, .f32⟩
  | 95 => ⟨S524288x32x1, .f32⟩
  | 96 => ⟨S524288x32x1, .f32⟩
  | 97 => ⟨S524288x32x1x1, .f32⟩
  | 98 => ⟨S524288x32x1x1, .f32⟩
  | 99 => ⟨S524288x32x2x1, .f32⟩
  | 100 => ⟨S524288x64, .f32⟩
  | 101 => ⟨S524288x16x2x2, .f32⟩
  | 102 => ⟨S524288x16x1x2, .f32⟩
  | 103 => ⟨S524288x16x2, .f32⟩
  | 104 => ⟨S524288x16x1x2, .f32⟩
  | 105 => ⟨S524288x16x2, .f32⟩
  | 106 => ⟨S524288x16x2, .f32⟩
  | 107 => ⟨S524288x16x2, .f32⟩
  | 108 => ⟨S524288x16x1x2, .f32⟩
  | 109 => ⟨S524288x16x1x2, .f32⟩
  | 110 => ⟨S524288x16x2x2, .f32⟩
  | 111 => ⟨S524288x64, .f32⟩
  | 112 => ⟨S524288x8x2x4, .f32⟩
  | 113 => ⟨S524288x8x1x4, .f32⟩
  | 114 => ⟨S524288x8x4, .f32⟩
  | 115 => ⟨S524288x8x1x4, .f32⟩
  | 116 => ⟨S524288x8x4, .f32⟩
  | 117 => ⟨S524288x8x4, .f32⟩
  | 118 => ⟨S524288x8x4, .f32⟩
  | 119 => ⟨S524288x8x1x4, .f32⟩
  | 120 => ⟨S524288x8x1x4, .f32⟩
  | 121 => ⟨S524288x8x2x4, .f32⟩
  | 122 => ⟨S524288x64, .f32⟩
  | 123 => ⟨S524288x4x2x8, .f32⟩
  | 124 => ⟨S524288x4x1x8, .f32⟩
  | 125 => ⟨S524288x4x8, .f32⟩
  | 126 => ⟨S524288x4x1x8, .f32⟩
  | 127 => ⟨S524288x4x8, .f32⟩
  | _ => ⟨S8x8192x8x64, .f32⟩

abbrev hbmTy0_1 (i : Nat) : BufTy := match i % 128 with
  | 0 => ⟨S524288x4x8, .f32⟩
  | 1 => ⟨S524288x4x8, .f32⟩
  | 2 => ⟨S524288x4x1x8, .f32⟩
  | 3 => ⟨S524288x4x1x8, .f32⟩
  | 4 => ⟨S524288x4x2x8, .f32⟩
  | 5 => ⟨S524288x64, .f32⟩
  | 6 => ⟨S524288x2x2x16, .f32⟩
  | 7 => ⟨S524288x2x1x16, .f32⟩
  | 8 => ⟨S524288x2x16, .f32⟩
  | 9 => ⟨S524288x2x1x16, .f32⟩
  | 10 => ⟨S524288x2x16, .f32⟩
  | 11 => ⟨S524288x2x16, .f32⟩
  | 12 => ⟨S524288x2x16, .f32⟩
  | 13 => ⟨S524288x2x1x16, .f32⟩
  | 14 => ⟨S524288x2x1x16, .f32⟩
  | 15 => ⟨S524288x2x2x16, .f32⟩
  | 16 => ⟨S524288x64, .f32⟩
  | 17 => ⟨S524288x1x2x32, .f32⟩
  | 18 => ⟨S524288x1x1x32, .f32⟩
  | 19 => ⟨S524288x1x32, .f32⟩
  | 20 => ⟨S524288x1x1x32, .f32⟩
  | 21 => ⟨S524288x1x32, .f32⟩
  | 22 => ⟨S524288x1x32, .f32⟩
  | 23 => ⟨S524288x1x32, .f32⟩
  | 24 => ⟨S524288x1x1x32, .f32⟩
  | 25 => ⟨S524288x1x1x32, .f32⟩
  | 26 => ⟨S524288x1x2x32, .f32⟩
  | 27 => ⟨S524288x64, .f32⟩
  | 28 => ⟨S1x64, .f32⟩
  | 29 => ⟨S524288x64, .f32⟩
  | 30 => ⟨S524288x64, .f32⟩
  | 31 => ⟨S_, .f32⟩
  | 32 => ⟨S524288x64, .f32⟩
  | 33 => ⟨S524288x64, .f32⟩
  | 34 => ⟨S8x8192x8x64, .f32⟩
  | _ => ⟨S8x8192x8x64, .f32⟩

abbrev hbmTy (i : Nat) : BufTy := match i / 128 with
  | 0 => hbmTy0_0 i
  | 1 => hbmTy0_1 i
  | _ => ⟨S8x8192x8x64, .f32⟩

abbrev bufTy : (tb : Table) → Fin (tcTables nBuf tb) → BufTy
  | .hbm, ⟨i, _⟩ => hbmTy i
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_c : Ref sig .tc := ⟨.hbm, 78, rfl⟩
abbrev main_v72 : Ref sig .tc := ⟨.hbm, 79, rfl⟩
abbrev main_v73 : Ref sig .tc := ⟨.hbm, 80, rfl⟩
abbrev main_c_0 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_cst_1 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩

abbrev nD : Nat := 1
abbrev τ : Topo := Topo.v7x

variable {F : FTy → Type} [FloatOps F]

class Facts₀ : Prop where
  bcast_S_S8x8192x8x64 : S_.BroadcastsInDim S8x8192x8x64 (![] : Fin 0 → Fin S8x8192x8x64.rank)
  shapeCasts_S8x8192x8x64_S524288x64 : S8x8192x8x64.ShapeCasts S524288x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  shapeCasts_S524288x64_S524288x32x2x1 : S524288x64.ShapeCasts S524288x32x2x1
  slices_S524288x32x2x1_S524288x32x1x1_0_0_0_0 : S524288x32x2x1.Slices ![0, 0, 0, 0] S524288x32x1x1
  shapeCasts_S524288x32x1x1_S524288x32x1 : S524288x32x1x1.ShapeCasts S524288x32x1
  slices_S524288x32x2x1_S524288x32x1x1_0_0_1_0 : S524288x32x2x1.Slices ![0, 0, 1, 0] S524288x32x1x1
  bcast_S524288x32x1_S524288x32x1x1_0_1_3 : S524288x32x1.BroadcastsInDim S524288x32x1x1 (![0, 1, 3] : Fin 3 → Fin S524288x32x1x1.rank)
  concatenates_S524288x32x1x1_S524288x32x1x1_S524288x32x2x1_d2 : Shape.Concatenates [S524288x32x1x1, S524288x32x1x1] S524288x32x2x1 2
  shapeCasts_S524288x32x2x1_S524288x64 : S524288x32x2x1.ShapeCasts S524288x64
  shapeCasts_S524288x64_S524288x16x2x2 : S524288x64.ShapeCasts S524288x16x2x2
  slices_S524288x16x2x2_S524288x16x1x2_0_0_0_0 : S524288x16x2x2.Slices ![0, 0, 0, 0] S524288x16x1x2
  shapeCasts_S524288x16x1x2_S524288x16x2 : S524288x16x1x2.ShapeCasts S524288x16x2
  slices_S524288x16x2x2_S524288x16x1x2_0_0_1_0 : S524288x16x2x2.Slices ![0, 0, 1, 0] S524288x16x1x2
  bcast_S524288x16x2_S524288x16x1x2_0_1_3 : S524288x16x2.BroadcastsInDim S524288x16x1x2 (![0, 1, 3] : Fin 3 → Fin S524288x16x1x2.rank)
  concatenates_S524288x16x1x2_S524288x16x1x2_S524288x16x2x2_d2 : Shape.Concatenates [S524288x16x1x2, S524288x16x1x2] S524288x16x2x2 2
  shapeCasts_S524288x16x2x2_S524288x64 : S524288x16x2x2.ShapeCasts S524288x64
  shapeCasts_S524288x64_S524288x8x2x4 : S524288x64.ShapeCasts S524288x8x2x4
  slices_S524288x8x2x4_S524288x8x1x4_0_0_0_0 : S524288x8x2x4.Slices ![0, 0, 0, 0] S524288x8x1x4
  shapeCasts_S524288x8x1x4_S524288x8x4 : S524288x8x1x4.ShapeCasts S524288x8x4
  slices_S524288x8x2x4_S524288x8x1x4_0_0_1_0 : S524288x8x2x4.Slices ![0, 0, 1, 0] S524288x8x1x4
  bcast_S524288x8x4_S524288x8x1x4_0_1_3 : S524288x8x4.BroadcastsInDim S524288x8x1x4 (![0, 1, 3] : Fin 3 → Fin S524288x8x1x4.rank)
  concatenates_S524288x8x1x4_S524288x8x1x4_S524288x8x2x4_d2 : Shape.Concatenates [S524288x8x1x4, S524288x8x1x4] S524288x8x2x4 2
  shapeCasts_S524288x8x2x4_S524288x64 : S524288x8x2x4.ShapeCasts S524288x64
  shapeCasts_S524288x64_S524288x4x2x8 : S524288x64.ShapeCasts S524288x4x2x8
  slices_S524288x4x2x8_S524288x4x1x8_0_0_0_0 : S524288x4x2x8.Slices ![0, 0, 0, 0] S524288x4x1x8
  shapeCasts_S524288x4x1x8_S524288x4x8 : S524288x4x1x8.ShapeCasts S524288x4x8
  slices_S524288x4x2x8_S524288x4x1x8_0_0_1_0 : S524288x4x2x8.Slices ![0, 0, 1, 0] S524288x4x1x8
  bcast_S524288x4x8_S524288x4x1x8_0_1_3 : S524288x4x8.BroadcastsInDim S524288x4x1x8 (![0, 1, 3] : Fin 3 → Fin S524288x4x1x8.rank)
  concatenates_S524288x4x1x8_S524288x4x1x8_S524288x4x2x8_d2 : Shape.Concatenates [S524288x4x1x8, S524288x4x1x8] S524288x4x2x8 2
  shapeCasts_S524288x4x2x8_S524288x64 : S524288x4x2x8.ShapeCasts S524288x64
  shapeCasts_S524288x64_S524288x2x2x16 : S524288x64.ShapeCasts S524288x2x2x16
  slices_S524288x2x2x16_S524288x2x1x16_0_0_0_0 : S524288x2x2x16.Slices ![0, 0, 0, 0] S524288x2x1x16
  shapeCasts_S524288x2x1x16_S524288x2x16 : S524288x2x1x16.ShapeCasts S524288x2x16
  slices_S524288x2x2x16_S524288x2x1x16_0_0_1_0 : S524288x2x2x16.Slices ![0, 0, 1, 0] S524288x2x1x16
  bcast_S524288x2x16_S524288x2x1x16_0_1_3 : S524288x2x16.BroadcastsInDim S524288x2x1x16 (![0, 1, 3] : Fin 3 → Fin S524288x2x1x16.rank)
  concatenates_S524288x2x1x16_S524288x2x1x16_S524288x2x2x16_d2 : Shape.Concatenates [S524288x2x1x16, S524288x2x1x16] S524288x2x2x16 2
  shapeCasts_S524288x2x2x16_S524288x64 : S524288x2x2x16.ShapeCasts S524288x64
  shapeCasts_S524288x64_S524288x1x2x32 : S524288x64.ShapeCasts S524288x1x2x32
  slices_S524288x1x2x32_S524288x1x1x32_0_0_0_0 : S524288x1x2x32.Slices ![0, 0, 0, 0] S524288x1x1x32
  shapeCasts_S524288x1x1x32_S524288x1x32 : S524288x1x1x32.ShapeCasts S524288x1x32
  slices_S524288x1x2x32_S524288x1x1x32_0_0_1_0 : S524288x1x2x32.Slices ![0, 0, 1, 0] S524288x1x1x32
  bcast_S524288x1x32_S524288x1x1x32_0_1_3 : S524288x1x32.BroadcastsInDim S524288x1x1x32 (![0, 1, 3] : Fin 3 → Fin S524288x1x1x32.rank)
  concatenates_S524288x1x1x32_S524288x1x1x32_S524288x1x2x32_d2 : Shape.Concatenates [S524288x1x1x32, S524288x1x1x32] S524288x1x2x32 2
  shapeCasts_S524288x1x2x32_S524288x64 : S524288x1x2x32.ShapeCasts S524288x64
  bcast_S_S64 : S_.BroadcastsInDim S64 (![] : Fin 0 → Fin S64.rank)
  bcast_S64_S64x1_0 : S64.BroadcastsInDim S64x1 (![0] : Fin 1 → Fin S64x1.rank)
  bcast_S_S524288x64 : S_.BroadcastsInDim S524288x64 (![] : Fin 0 → Fin S524288x64.rank)
  shapeCasts_S524288x64_S8x8192x8x64 : S524288x64.ShapeCasts S8x8192x8x64
  gather_S524288x64_S64x1_S524288x64_0_1_n_n_1_1_5242881_wf : GatherDims.WF S524288x64 S64x1 S524288x64 [0] [1] [] [1] [] 1 ![524288, 1]

variable [Facts₀]

def gather_S524288x64_S64x1_S524288x64_0_1_n_n_1_1_5242881 : GatherDims S524288x64 S64x1 S524288x64 where
  offsetDims := [0]
  collapsedSliceDims := [1]
  operandBatchingDims := []
  startIndicesBatchingDims := []
  startIndexMap := [1]
  indexVectorDim := 1
  sliceSizes := ![524288, 1]
  wf := gather_S524288x64_S64x1_S524288x64_0_1_n_n_1_1_5242881_wf

class Facts : Prop extends Facts₀ where

variable [Facts]
-- ==== Proof.Spec.lean ====
/-
  The mathematics both programs compute, on one row of 64 extended reals.

  A butterfly stage at stride `h` sends a vector `v` of 64 entries to the vector whose entry `j` is
  `v j + v (j + h)` when the bit of weight `h` of `j` is clear and `v (j - h) - v j` when it is set. The six stages at
  strides 1, 2, 4, 8, 16, 32, in that order, are the (unnormalised) Walsh-Hadamard transform `fwht`: a linear map,
  so it is the product with the 64 x 64 matrix whose row `i` is the transform of the unit vector at `i`.

  The reference maps a row `x` to `c8 * (fwht (G * (fwht (x * r * B)) at p) * S)`; the kernel multiplies `x` by the
  matrix `W = c * (((diag B * T) * (Perm p * diag G)) * T) * diag S`, where `T` is a table of +1 / -1 and `Perm p` has
  a one at `(p k, k)`. When `T` is the transform's matrix, `c = r * c8` and every entry is a real number, the two agree:
  both are the same finite sum of products, rearranged (`bridge`).
-/
import Idealize.ShloMosaic.PureOps.Ideal
import Idealize.ShloMosaic.Lib.ValueIdx

noncomputable section

namespace Cert.Fastfood

open scoped BigOperators

/-- The entry `h` places after `j` (wrapping past 63; a butterfly stage reads it only where it does not wrap). -/
def up (h : ℕ) (j : Fin 64) : Fin 64 := ⟨(j.val + h) % 64, Nat.mod_lt _ (by decide)⟩
/-- The entry `h` places before `j` (wrapping; read only where it does not). -/
def down (h : ℕ) (j : Fin 64) : Fin 64 := ⟨(j.val - h) % 64, Nat.mod_lt _ (by decide)⟩

/-- One butterfly stage at stride `h`: sums on the entries whose bit of weight `h` is clear, differences on the others. -/
def bfly {α : Type} [Add α] [Sub α] (h : ℕ) (v : Fin 64 → α) : Fin 64 → α := fun j =>
  if (j.val / h) % 2 = 0 then v j + v (up h j) else v (down h j) - v j

/-- The Walsh-Hadamard transform of a vector of 64: the six butterfly stages, lowest stride first. -/
def fwht {α : Type} [Add α] [Sub α] (v : Fin 64 → α) : Fin 64 → α :=
  bfly 32 (bfly 16 (bfly 8 (bfly 4 (bfly 2 (bfly 1 v)))))

/-- The reference on one row: scale by `r` and the signs `B`, transform, permute by `p`, scale by `G`, transform, scale by `S`
    and by `c8`. -/
def refRow (x B G S : Fin 64 → EReal) (p : Fin 64 → Fin 64) (r c8 : EReal) (j : Fin 64) : EReal :=
  c8 * (fwht (fun k => fwht (fun i => x i * r * B i) (p k) * G k) j * S j)

/-- The kernel's fused matrix, entry `(i, j)`, in the order its host operations build it. -/
def wEntry (T : Fin 64 → Fin 64 → EReal) (B G S : Fin 64 → EReal) (perm : Fin 64 → Fin 64 → EReal) (c : EReal)
    (i j : Fin 64) : EReal :=
  c * ((∑ k, (∑ l, (B i * T i l) * (perm l k * G k)) * T k j) * S j)

/-- The kernel on one row: the row times the matrix. -/
def kerRow (x : Fin 64 → EReal) (W : Fin 64 → Fin 64 → EReal) (j : Fin 64) : EReal := ∑ i, x i * W i j

/-- A butterfly stage commutes with a weighted sum of vectors: it is a linear map. -/
theorem bfly_sum {R : Type} [CommRing R] (h : ℕ) (w : Fin 64 → R) (E : Fin 64 → Fin 64 → R) :
    bfly h (fun k => ∑ i, w i * E i k) = fun j => ∑ i, w i * bfly h (E i) j := by
  funext j
  simp only [bfly]
  split_ifs
  · rw [← Finset.sum_add_distrib]
    exact Finset.sum_congr rfl (fun i _ => (mul_add _ _ _).symm)
  · rw [← Finset.sum_sub_distrib]
    exact Finset.sum_congr rfl (fun i _ => (mul_sub _ _ _).symm)

/-- So does the whole transform, stage after stage. -/
theorem fwht_sum {R : Type} [CommRing R] (w : Fin 64 → R) (E : Fin 64 → Fin 64 → R) :
    fwht (fun k => ∑ i, w i * E i k) = fun j => ∑ i, w i * fwht (E i) j := by
  unfold fwht
  rw [bfly_sum 1 w E, bfly_sum 2 w (fun i => bfly 1 (E i)),
    bfly_sum 4 w (fun i => bfly 2 (bfly 1 (E i))),
    bfly_sum 8 w (fun i => bfly 4 (bfly 2 (bfly 1 (E i)))),
    bfly_sum 16 w (fun i => bfly 8 (bfly 4 (bfly 2 (bfly 1 (E i))))),
    bfly_sum 32 w (fun i => bfly 16 (bfly 8 (bfly 4 (bfly 2 (bfly 1 (E i))))))]

/-- A vector is the weighted sum of the unit vectors, so its transform is the weighted sum of theirs. -/
theorem fwht_unit {R : Type} [CommRing R] (w : Fin 64 → R) (j : Fin 64) :
    fwht w j = ∑ i, w i * fwht (fun k => if k = i then (1 : R) else 0) j := by
  have hw : w = fun k => ∑ i, w i * (if k = i then (1 : R) else 0) := by
    funext k
    simp [Finset.sum_ite_eq]
  conv_lhs => rw [hw]
  rw [fwht_sum w (fun i k => if k = i then (1 : R) else 0)]

/-- A butterfly stage on integers, read in the reals, is the stage on the real copies. -/
theorem bfly_intCast (h : ℕ) (f : Fin 64 → ℤ) :
    bfly h (fun k => ((f k : ℤ) : ℝ)) = fun j => ((bfly h f j : ℤ) : ℝ) := by
  funext j
  simp only [bfly]
  split_ifs
  · rw [Int.cast_add]
  · rw [Int.cast_sub]

theorem fwht_intCast (f : Fin 64 → ℤ) :
    fwht (fun k => ((f k : ℤ) : ℝ)) = fun j => ((fwht f j : ℤ) : ℝ) := by
  unfold fwht
  rw [bfly_intCast 1 f, bfly_intCast 2 (bfly 1 f), bfly_intCast 4 (bfly 2 (bfly 1 f)),
    bfly_intCast 8 (bfly 4 (bfly 2 (bfly 1 f))), bfly_intCast 16 (bfly 8 (bfly 4 (bfly 2 (bfly 1 f)))),
    bfly_intCast 32 (bfly 16 (bfly 8 (bfly 4 (bfly 2 (bfly 1 f)))))]

/-- With the integer table of the unit vectors' transforms, the real transform is the product with the table. -/
theorem fwht_table (T : Fin 64 → Fin 64 → ℤ) (hT : ∀ i j, fwht (fun k => if k = i then (1 : ℤ) else 0) j = T i j)
    (w : Fin 64 → ℝ) (j : Fin 64) : fwht w j = ∑ i, w i * ((T i j : ℤ) : ℝ) := by
  rw [fwht_unit w j]
  refine Finset.sum_congr rfl (fun i _ => ?_)
  have hu : (fun k : Fin 64 => if k = i then (1 : ℝ) else 0)
      = fun k => (((if k = i then (1 : ℤ) else 0 : ℤ)) : ℝ) := by
    funext k
    split_ifs <;> simp
  rw [hu, fwht_intCast]
  beta_reduce
  rw [hT]

/-- A butterfly stage on real numbers, read in the extended reals, is the stage on the extended copies. -/
theorem bfly_coe (h : ℕ) (w : Fin 64 → ℝ) :
    bfly h (fun k => ((w k : ℝ) : EReal)) = fun j => ((bfly h w j : ℝ) : EReal) := by
  funext j
  simp only [bfly]
  split_ifs
  · rw [EReal.coe_add]
  · rw [EReal.coe_sub]

theorem fwht_coe (w : Fin 64 → ℝ) :
    fwht (fun k => ((w k : ℝ) : EReal)) = fun j => ((fwht w j : ℝ) : EReal) := by
  unfold fwht
  rw [bfly_coe 1 w, bfly_coe 2 (bfly 1 w), bfly_coe 4 (bfly 2 (bfly 1 w)),
    bfly_coe 8 (bfly 4 (bfly 2 (bfly 1 w))), bfly_coe 16 (bfly 8 (bfly 4 (bfly 2 (bfly 1 w)))),
    bfly_coe 32 (bfly 16 (bfly 8 (bfly 4 (bfly 2 (bfly 1 w)))))]

/-- The extended copy of a finite sum of reals is the sum of the extended copies. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_ite10 (P : Prop) [Decidable P] :
    (((if P then (1 : ℝ) else 0 : ℝ)) : EReal) = if P then (1 : EReal) else 0 := by
  split_ifs <;> simp

/-- The identity over the reals: both sides are the same double sum of products. -/
theorem bridge_real (T : Fin 64 → Fin 64 → ℝ) (hT : ∀ (w : Fin 64 → ℝ) (j : Fin 64), fwht w j = ∑ i, w i * T i j)
    (x B G S : Fin 64 → ℝ) (p : Fin 64 → Fin 64) (r c8 : ℝ) (j : Fin 64) :
    ∑ i, x i * (r * c8 * ((∑ k, (∑ l, (B i * T i l) * ((if l = p k then (1 : ℝ) else 0) * G k)) * T k j) * S j))
      = c8 * (fwht (fun k => fwht (fun i => x i * r * B i) (p k) * G k) j * S j) := by
  have hin : ∀ i k, (∑ l, (B i * T i l) * ((if l = p k then (1 : ℝ) else 0) * G k)) = B i * T i (p k) * G k := by
    intro i k
    rw [Finset.sum_eq_single (p k)]
    · rw [if_pos rfl, one_mul]
    · intro l _ hl
      rw [if_neg hl, zero_mul, mul_zero]
    · intro hn
      exact absurd (Finset.mem_univ _) hn
  simp only [hin, hT]
  simp only [Finset.mul_sum, Finset.sum_mul]
  rw [Finset.sum_comm]
  refine Finset.sum_congr rfl (fun i _ => Finset.sum_congr rfl (fun k _ => ?_))
  ring

/-- THE BRIDGE. If `T i j` is entry `j` of the transform of the unit vector at `i`, the scale `c` is the product `r * c8`, and
    every entry of `x`, `B`, `G`, `S` is a real number, then the row times the fused matrix is the reference's row. -/
theorem bridge (T : Fin 64 → Fin 64 → ℤ) (hT : ∀ i j, fwht (fun k => if k = i then (1 : ℤ) else 0) j = T i j)
    (x B G S : Fin 64 → EReal) (hx : ∀ i, ∃ a : ℝ, x i = (a : EReal)) (hB : ∀ i, ∃ a : ℝ, B i = (a : EReal))
    (hG : ∀ i, ∃ a : ℝ, G i = (a : EReal)) (hS : ∀ i, ∃ a : ℝ, S i = (a : EReal))
    (p : Fin 64 → Fin 64) (r c8 c : EReal) (r' c8' : ℝ) (hr : r = (r' : EReal)) (hc8 : c8 = (c8' : EReal))
    (hc : c = ((r' * c8' : ℝ) : EReal)) (j : Fin 64) :
    kerRow x (wEntry (fun i j => (((T i j : ℤ) : ℝ) : EReal)) B G S (fun l k => if l = p k then (1 : EReal) else 0) c) j
      = refRow x B G S p r c8 j := by
  choose xa hxa using hx
  choose Ba hBa using hB
  choose Ga hGa using hG
  choose Sa hSa using hS
  obtain rfl : x = fun i => ((xa i : ℝ) : EReal) := funext hxa
  obtain rfl : B = fun i => ((Ba i : ℝ) : EReal) := funext hBa
  obtain rfl : G = fun i => ((Ga i : ℝ) : EReal) := funext hGa
  obtain rfl : S = fun i => ((Sa i : ℝ) : EReal) := funext hSa
  subst hr hc8 hc
  have hR := bridge_real (fun i j => ((T i j : ℤ) : ℝ)) (fwht_table T hT) xa Ba Ga Sa p r' c8' j
  have hL : kerRow (fun i => ((xa i : ℝ) : EReal))
      (wEntry (fun i j => (((T i j : ℤ) : ℝ) : EReal)) (fun i => ((Ba i : ℝ) : EReal)) (fun i => ((Ga i : ℝ) : EReal))
        (fun i => ((Sa i : ℝ) : EReal)) (fun l k => if l = p k then (1 : EReal) else 0) ((r' * c8' : ℝ) : EReal)) j
      = ((∑ i, xa i * (r' * c8' * ((∑ k, (∑ l, (Ba i * ((T i l : ℤ) : ℝ)) * ((if l = p k then (1 : ℝ) else 0) * Ga k))
          * ((T k j : ℤ) : ℝ)) * Sa j)) : ℝ) : EReal) := by
    simp only [kerRow, wEntry, coe_sum, EReal.coe_mul, coe_ite10]
  have hRr : refRow (fun i => ((xa i : ℝ) : EReal)) (fun i => ((Ba i : ℝ) : EReal)) (fun i => ((Ga i : ℝ) : EReal))
        (fun i => ((Sa i : ℝ) : EReal)) p (r' : EReal) (c8' : EReal) j
      = ((c8' * (fwht (fun k => fwht (fun i => xa i * r' * Ba i) (p k) * Ga k) j * Sa j) : ℝ) : EReal) := by
    have h1 : (fun i => ((xa i : ℝ) : EReal) * (r' : EReal) * ((Ba i : ℝ) : EReal))
        = fun i => ((xa i * r' * Ba i : ℝ) : EReal) := by
      funext i
      rw [EReal.coe_mul, EReal.coe_mul]
    have h2 : (fun k => ((fwht (fun i => xa i * r' * Ba i) (p k) : ℝ) : EReal) * ((Ga k : ℝ) : EReal))
        = fun k => ((fwht (fun i => xa i * r' * Ba i) (p k) * Ga k : ℝ) : EReal) := by
      funext k
      rw [EReal.coe_mul]
    simp only [refRow]
    rw [h1, fwht_coe, h2, fwht_coe, EReal.coe_mul, EReal.coe_mul]
  rw [hL, hRr, hR]

end Cert.Fastfood

end
-- ==== Proof.Index.lean ====
/-
  The index vector `P` of 64 words, read as a map of column numbers.

  Where every word of `P`, read unsigned, is below 64 (`InRange`: as a signed word it is then in [0, 64)), `pOf P k` is
  the column number `P k` names. Out of that range the two programs treat `P` differently (one compares it with a column
  counter, the other wraps negatives and clamps), which is why the certificate's precondition keeps `P` in range.
-/
import Idealize.ShloMosaic.PureOps.Ideal
import Idealize.ShloMosaic.Lib.ValueIdx

namespace Cert.Fastfood

open Idealize.ShloMosaic Idealize.ShloMosaic.ValueIdx

/-- Every word of the index vector names a column of a row of 64. -/
def InRange (P : IVec ⟨1, ![64]⟩ 32) : Prop := ∀ k : Fin 64, (P (ix1 k)).toNat < 64

/-- The column the `k`-th word names (reduced mod 64 so that it is total; `InRange` makes the reduction vacuous). -/
def pOf (P : IVec ⟨1, ![64]⟩ 32) (k : Fin 64) : Fin 64 := ⟨(P (ix1 k)).toNat % 64, Nat.mod_lt _ (by decide)⟩

theorem pOf_val (P : IVec ⟨1, ![64]⟩ 32) (hP : InRange P) (k : Fin 64) : (pOf P k).val = (P (ix1 k)).toNat :=
  Nat.mod_eq_of_lt (hP k)

end Cert.Fastfood
-- ==== Proof.Table.lean ====
/-
  The kernel's constants at the ideal instance.

  Its 64 x 64 literal table holds the words of +1.0 and -1.0 only, and entry `(i, j)` is entry `j` of the Walsh-Hadamard
  transform of the unit vector at `i`: checked entry by entry over the integers. Its scale word is the reference's first
  scale word times the reference's second (an eighth): the same 24-bit significand, the exponent three lower.
-/
import proofs.«413175_j7078106103911_1_alg».proof.KernelIdeal
import proofs.«413175_j7078106103911_1_alg».proof.Proof.Spec
import Idealize.ShloMosaic.Lib.ValueIdx

set_option Elab.async false

noncomputable section

namespace Cert.Fastfood

open Idealize.ShloMosaic Idealize.ShloMosaic.ValueIdx

/-- The table as integers: +1 where the word is that of 1.0, -1 elsewhere. -/
def T (i j : Fin 64) : ℤ := if Cert.KernelIdeal.lit0 ⟨i.val * 64 + j.val, by omega⟩ = 0x3F800000#32 then 1 else -1

/- The 4096 equations of `T_spec` below, eight rows at a time. Both sides of each are integers computed from the literals
   `i` and `j` alone: the left by six rounds of sums and differences starting from zeros and a single one, the right by
   reading one word of the table. Each equation is decided by evaluating both sides. -/
theorem rows_0 : ∀ i : Fin 64, i.val / 8 = 0 → ∀ j : Fin 64, fwht (fun k => if k = i then (1 : ℤ) else 0) j = T i j := by
  decide +kernel
theorem rows_1 : ∀ i : Fin 64, i.val / 8 = 1 → ∀ j : Fin 64, fwht (fun k => if k = i then (1 : ℤ) else 0) j = T i j := by
  decide +kernel
theorem rows_2 : ∀ i : Fin 64, i.val / 8 = 2 → ∀ j : Fin 64, fwht (fun k => if k = i then (1 : ℤ) else 0) j = T i j := by
  decide +kernel
theorem rows_3 : ∀ i : Fin 64, i.val / 8 = 3 → ∀ j : Fin 64, fwht (fun k => if k = i then (1 : ℤ) else 0) j = T i j := by
  decide +kernel
theorem rows_4 : ∀ i : Fin 64, i.val / 8 = 4 → ∀ j : Fin 64, fwht (fun k => if k = i then (1 : ℤ) else 0) j = T i j := by
  decide +kernel
theorem rows_5 : ∀ i : Fin 64, i.val / 8 = 5 → ∀ j : Fin 64, fwht (fun k => if k = i then (1 : ℤ) else 0) j = T i j := by
  decide +kernel
theorem rows_6 : ∀ i : Fin 64, i.val / 8 = 6 → ∀ j : Fin 64, fwht (fun k => if k = i then (1 : ℤ) else 0) j = T i j := by
  decide +kernel
theorem rows_7 : ∀ i : Fin 64, i.val / 8 = 7 → ∀ j : Fin 64, fwht (fun k => if k = i then (1 : ℤ) else 0) j = T i j := by
  decide +kernel

/-- Row `i` of the table is the transform of the unit vector at `i`. -/
theorem T_spec : ∀ i j : Fin 64, fwht (fun k => if k = i then (1 : ℤ) else 0) j = T i j := by
  -- the row index lies in one of the eight blocks of eight rows
  intro i j
  have hb : i.val / 8 = 0 ∨ i.val / 8 = 1 ∨ i.val / 8 = 2 ∨ i.val / 8 = 3 ∨ i.val / 8 = 4 ∨ i.val / 8 = 5
      ∨ i.val / 8 = 6 ∨ i.val / 8 = 7 := by omega
  rcases hb with h | h | h | h | h | h | h | h
  · exact rows_0 i h j
  · exact rows_1 i h j
  · exact rows_2 i h j
  · exact rows_3 i h j
  · exact rows_4 i h j
  · exact rows_5 i h j
  · exact rows_6 i h j
  · exact rows_7 i h j

/-- Listed row by row, entry `(i, j)` of a 64 x 64 array sits at position `64 i + j`. -/
theorem rowMajor_ix2 (i j : Fin 64) :
    Cert.KernelIdeal.S64x64.rowMajor (ix2 i j) = (⟨i.val * 64 + j.val, by omega⟩ : Fin 4096) := by
  apply Fin.ext
  show (Cert.KernelIdeal.S64x64.rowMajor (ix2 i j)).val = i.val * 64 + j.val
  rw [Shape.rowMajor_val_two]
  rfl

/-- Every word of the table is the word of 1.0 or the word of -1.0: 4096 comparisons of literals. -/
theorem word_cases : ∀ i j : Fin 64,
    Cert.KernelIdeal.lit0 ⟨i.val * 64 + j.val, by omega⟩ = 0x3F800000#32
      ∨ Cert.KernelIdeal.lit0 ⟨i.val * 64 + j.val, by omega⟩ = 0xBF800000#32 := by
  decide +kernel

/-- The word of 1.0: sign clear, exponent field 127 (the bias), fraction 0, so it denotes `2^23 * 2^(127 - 127 - 23) = 1`. -/
theorem one_eq : Ideal.ofBits .f32 0x3F800000#32 = ((1 : ℝ) : EReal) := by
  simp [Ideal.ofBits, Ideal.ieee, -EReal.coe_mul]; norm_num

/-- The word of -1.0: the same fields with the sign bit set. -/
theorem neg_one_eq : Ideal.ofBits .f32 0xBF800000#32 = ((-1 : ℝ) : EReal) := by
  simp [Ideal.ofBits, Ideal.ieee, -EReal.coe_mul]; norm_num

/-- The table's entry at the ideal instance is that integer. -/
theorem hm_eq (i j : Fin 64) :
    Ideal.ofBits .f32 (Cert.KernelIdeal.lit0 (Cert.KernelIdeal.S64x64.rowMajor (ix2 i j))) = (((T i j : ℤ) : ℝ) : EReal) := by
  rw [rowMajor_ix2]
  rcases word_cases i j with h | h
  · -- the word of 1.0: the integer is 1
    have hT : T i j = 1 := by unfold T; rw [if_pos h]
    rw [h, hT, one_eq]; norm_num
  · -- the word of -1.0, which is not the word of 1.0: the integer is -1
    have hne : Cert.KernelIdeal.lit0 ⟨i.val * 64 + j.val, by omega⟩ ≠ 0x3F800000#32 := by rw [h]; decide
    have hT : T i j = -1 := by unfold T; rw [if_neg hne]
    rw [h, hT, neg_one_eq]; norm_num

/-- The reference's first scale, the f32 nearest the square root of an eighth, as a rational. -/
def rR : ℝ := 11863283 / 33554432
/-- The reference's second scale, an eighth. -/
def c8R : ℝ := 1 / 8

/- The three scale words. A normal f32 word with exponent field `E` and fraction field `F` denotes `(2^23 + F) * 2^(E - 150)`.
   The first and the third share the fraction `0x3504F3`, so the significand `2^23 + 0x3504F3 = 11863283`; their exponent
   fields are 125 and 122, which gives `11863283 / 2^25` and `11863283 / 2^28`. The second has fraction 0 and exponent
   field 124: `2^23 / 2^26 = 1 / 8`. -/

theorem r_eq : Ideal.ofBits .f32 0x3EB504F3#32 = ((rR : ℝ) : EReal) := by
  simp [Ideal.ofBits, Ideal.ieee, -EReal.coe_mul, rR]; norm_num
theorem c8_eq : Ideal.ofBits .f32 0x3E000000#32 = ((c8R : ℝ) : EReal) := by
  simp [Ideal.ofBits, Ideal.ieee, -EReal.coe_mul, c8R]; norm_num
/-- The kernel's one scale is their product, exactly. -/
theorem c_eq : Ideal.ofBits .f32 0x3D3504F3#32 = ((rR * c8R : ℝ) : EReal) := by
  simp [Ideal.ofBits, Ideal.ieee, -EReal.coe_mul, rR, c8R]; norm_num

end Cert.Fastfood

end
-- ==== Proof.Pre.lean ====
/-
  What the precondition says: every entry of the four float inputs is a real number (its absolute value is below +∞), and
  every word of the index input is in [0, 64).

  The precondition is a conjunction of six "for all entries" statements, each a reduction by "and" of a pointwise
  comparison. A conjunction that is one makes each conjunct one, and a reduction by "and" that is one makes every compared
  bit one. For a float entry v the bit says max(v, -v) < +∞, which fails at both infinities, so v is real. For an index
  word w the two bits say 0 ≤ w and w < 64 as signed numbers; a non-negative signed word reads the same unsigned, so its
  unsigned value is below 64.
-/
import proofs.«413175_j7078106103911_1_alg».proof.Pre_finite_inputs
import proofs.«413175_j7078106103911_1_alg».proof.Proof.Gen.Pre_finite_inputs
import proofs.«413175_j7078106103911_1_alg».proof.Proof.Index
import Idealize.ShloMosaic.Lib.ReduceAll
import Idealize.ShloMosaic.Lib.StableHlo.Predicate

noncomputable section

namespace Cert.Fastfood

open Idealize.ShloMosaic Idealize.ShloMosaic.ValueIdx

instance pre_scalarIdx_subsingleton : Subsingleton (⟨0, ![]⟩ : Shape).Idx := ⟨fun a b => funext fun d => d.elim0⟩

/-- An extended real whose absolute value is strictly below +∞ is a real number: the comparison fails at both infinities. -/
theorem real_of_abs_lt_top (v : Ideal .f32)
    (h : FloatOps.cmpf (F := Ideal) .olt (FloatOps.hostAbsf v) (FloatOps.ofBits (F := Ideal) .f32 0x7F800000#32) = 1#1) :
    ∃ a : ℝ, v = (a : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  induction v using EReal.rec with
  | bot => simp at h
  | coe a => exact ⟨a, rfl⟩
  | top => simp at h

/-- One float conjunct of the precondition, at any shape: if the conjunction over all entries of "|v| < +∞" is one,
    every entry of v is a real number. -/
theorem reals_of_all_finite {s : Shape} {axes : List (Fin s.rank)} (v : FVec Ideal s .f32)
    (hb : (⟨0, ![]⟩ : Shape).BroadcastsInDim s ![]) (hr : s.ReducesTo axes ⟨0, ![]⟩) (h0 : 0 < (⟨0, ![]⟩ : Shape).numel)
    (e : Host.reduce IntOp.andi (cmpf .olt (Host.absf v) (broadcastInDim s ![] hb (constant (⟨0, ![]⟩ : Shape) .f32 0x7F800000#32)))
          (constantI (⟨0, ![]⟩ : Shape) 1 1#1) hr h0 ix0 = 1#1) :
    ∀ i, ∃ a : ℝ, v i = (a : EReal) := by
  intro i
  have hi := Host.reduce_andi_all _ _ hr h0 ix0 e i
  exact real_of_abs_lt_top (v i) hi

/-- A 32-bit word that is at least 0 and below 64 as a signed number is below 64 as an unsigned one. -/
theorem toNat_lt_of_signed_range (w : BitVec 32) (hge : IntOp.cmpi .sge w 0#32 = 1#1) (hlt : IntOp.cmpi .slt w 64#32 = 1#1) :
    w.toNat < 64 := by
  rw [IntOp.cmpi_sge, show (0#32 : BitVec 32).toInt = 0 from by decide] at hge
  rw [IntOp.cmpi_slt, show (64#32 : BitVec 32).toInt = 64 from by decide] at hlt
  have hpos : 2 * w.toNat < 2 ^ 32 := BitVec.toInt_pos_iff.mp hge
  rw [BitVec.toInt_eq_toNat_of_lt hpos] at hlt
  omega

/-- THE PRECONDITION DECODED: all ones means finite float inputs and an index vector in range. -/
theorem pre_decode (x : FVec Ideal Cert.Pre_finite_inputs.S8x8192x8x64 .f32) (B G S : FVec Ideal Cert.Pre_finite_inputs.S64 .f32)
    (P : IVec Cert.Pre_finite_inputs.S64 32)
    (h : Cert.Pre_finite_inputs.fn (F := Ideal) x B G S P = fun _ => 1#1) :
    (∀ i, ∃ a : ℝ, x i = (a : EReal)) ∧ (∀ i, ∃ a : ℝ, B i = (a : EReal)) ∧ (∀ i, ∃ a : ℝ, G i = (a : EReal))
      ∧ (∀ i, ∃ a : ℝ, S i = (a : EReal)) ∧ InRange P := by
  have h0 := congrFun h ix0
  dsimp only [Cert.Pre_finite_inputs.fn, Cert.Pre_finite_inputs.fn_part1] at h0
  -- the result is a nest of five bitwise ands of six conjuncts: each conjunct is one
  change IntOp.andi (IntOp.andi (IntOp.andi (IntOp.andi (IntOp.andi _ _) _) _) _) _ = 1#1 at h0
  obtain ⟨h0, hlt⟩ := IntOp.andi_eq_one.mp h0
  obtain ⟨h0, hge⟩ := IntOp.andi_eq_one.mp h0
  obtain ⟨h0, hS⟩ := IntOp.andi_eq_one.mp h0
  obtain ⟨h0, hG⟩ := IntOp.andi_eq_one.mp h0
  obtain ⟨hx, hB⟩ := IntOp.andi_eq_one.mp h0
  refine ⟨reals_of_all_finite x _ _ _ hx, reals_of_all_finite B _ _ _ hB, reals_of_all_finite G _ _ _ hG,
    reals_of_all_finite S _ _ _ hS, ?_⟩
  intro k
  have hge' := Host.reduce_andi_all _ _ _ _ ix0 hge (ix1 k)
  have hlt' := Host.reduce_andi_all _ _ _ _ ix0 hlt (ix1 k)
  exact toNat_lt_of_signed_range (P (ix1 k)) hge' hlt'

end Cert.Fastfood

end
-- ==== Proof.KNames.lean ====
/-
  Names for the arrays the kernel's region finds when it is entered, and for the argument arrays, at the ideal instance,
  each with its literal type, so that arithmetic on their entries elaborates.
-/
import proofs.«413175_j7078106103911_1_alg».proof.Proof.Gen.KernelIdeal.Frame
import Idealize.ShloMosaic.Lib.ValueIdx

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The first window's array: the input recast to [524288, 64]. -/
abbrev Xarr (c : Dev nD) : FVec Ideal S524288x64 .f32 := V m c main_v15
/-- The second window's array: the fused 64 x 64 matrix the host operations build. -/
abbrev Warr (c : Dev nD) : FVec Ideal S64x64 .f32 := V m c main_v14

/-- The argument arrays as launched. -/
abbrev a0 (c : Dev nD) : FVec Ideal S8x8192x8x64 .f32 := m ((c.tc : Thread nD τ).loc main_arg0)
abbrev a1 (c : Dev nD) : FVec Ideal S64 .f32 := m ((c.tc : Thread nD τ).loc main_arg1)
abbrev a2 (c : Dev nD) : FVec Ideal S64 .f32 := m ((c.tc : Thread nD τ).loc main_arg2)
abbrev a3 (c : Dev nD) : FVec Ideal S64 .f32 := m ((c.tc : Thread nD τ).loc main_arg3)
abbrev a4 (c : Dev nD) : IVec S64 32 := m ((c.tc : Thread nD τ).loc main_arg4)

/-- The literal table's entry `(i, j)` at the ideal instance. -/
def hmE (i j : Fin 64) : EReal := Ideal.ofBits .f32 (lit0 (S64x64.rowMajor (ix2 i j)))

/-- What the region leaves in its output array, as one function of the two input arrays: each row times the matrix. -/
def kerOut2 (c : Dev nD) : FVec Ideal S524288x64 .f32 := fun idx =>
  ∑ i : Fin 64, Xarr m c (ix2 ⟨(idx 0).val, idx2_lt0 idx⟩ i) * Warr m c (ix2 i ⟨(idx 1).val, idx2_lt1 idx⟩)

theorem kerOut2_apply (c : Dev nD) (row : Fin 524288) (j : Fin 64) :
    kerOut2 m c (ix2 row j) = ∑ i : Fin 64, Xarr m c (ix2 row i) * Warr m c (ix2 i j) := rfl

end Cert.KernelIdeal.KValue

end
-- ==== Proof.KernelW.lean ====
/-
  The two arrays the kernel's region reads, as functions of the arguments.

  The first is the input recast to [524288, 64]. The second is the fused matrix: entry `(i, j)` is the scale times
  `((sum over k of (sum over l of (B i * T i l) * (Perm l k * G k)) * T k j) * S j)`, where `T` is the literal table, and
  `Perm l k` is one when the `k`-th index word equals `l` and zero otherwise (the comparison of the index vector with a column
  counter, transposed); with the index vector in range that is "`l` is the column the `k`-th word names".
-/
import proofs.«413175_j7078106103911_1_alg».proof.Proof.KNames
import proofs.«413175_j7078106103911_1_alg».proof.Proof.Spec
import proofs.«413175_j7078106103911_1_alg».proof.Proof.Index
import Idealize.ShloMosaic.Lib.StableHlo.Run
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KValue

open Idealize.ShloMosaic Idealize.ShloMosaic.TcCoe Idealize.ShloMosaic.ValueIdx Idealize.SL.Sem
open Cert.KernelIdeal Cert.KernelIdeal.Gen Cert.Fastfood

/-! ### The operations that build the two arrays, as terms -/

/-- The literal table, as an array. -/
def tblT : FVec Ideal S64x64 .f32 := fun i => FloatOps.ofBits .f32 (lit0 (S64x64.rowMajor i))

/-- The comparison of the index vector (down the rows) with the column counter, as zeros and ones. -/
def hotT (P : IVec S64 32) : FVec Ideal S64x64 .f32 :=
  uitofp .f32 (cmpi .eq
    (broadcastInDim S64x64 ![0, 1] bcast_S64x1_S64x64_0_1 (broadcastInDim S64x1 ![0] bcast_S64_S64x1_0 P))
    (broadcastInDim S64x64 ![0, 1] bcast_S1x64_S64x64_0_1 (iotaInDim S1x64 32 1)))

/-- A vector laid down the rows of a square: constant along each row. -/
def rowsT (v : FVec Ideal S64 .f32) : FVec Ideal S64x64 .f32 :=
  broadcastInDim S64x64 ![0, 1] bcast_S64x1_S64x64_0_1 (broadcastInDim S64x1 ![0] bcast_S64_S64x1_0 v)

/-- A vector laid along the columns of a square: constant down each column. -/
def colsT (v : FVec Ideal S64 .f32) : FVec Ideal S64x64 .f32 :=
  broadcastInDim S64x64 ![0, 1] bcast_S1x64_S64x64_0_1 (broadcastInDim S1x64 ![1] bcast_S64_S1x64_1 v)

/-- The product of two 64 x 64 matrices. -/
def mmT (L R : FVec Ideal S64x64 .f32) : FVec Ideal S64x64 .f32 :=
  Host.dotGeneral (F := Ideal) dot_S64x64_S64x64_S64x64_1_0_0_1_n_n none L R

/-- The fused matrix as the operations build it. -/
def fusedT (B G S : FVec Ideal S64 .f32) (P : IVec S64 32) : FVec Ideal S64x64 .f32 :=
  mulf (broadcastInDim S64x64 ![] bcast_S_S64x64 (constant (F := Ideal) S_ .f32 0x3D3504F3#32))
    (mulf (mmT (mmT (mulf (rowsT B) tblT)
                    (mulf (transpose S64x64 [1, 0] (hotT P) transposes_S64x64_S64x64_1_0) (colsT G)))
               tblT)
          (colsT S))

/-! ### The terms read at an index -/

/-- A vector laid down the rows reads, at `(p, q)`, its entry `p`. -/
theorem rows_apply {α : Type} (v : S64.Idx → α) (p q : Fin 64) :
    broadcastInDim S64x64 ![0, 1] bcast_S64x1_S64x64_0_1 (broadcastInDim S64x1 ![0] bcast_S64_S64x1_0 v) (ix2 p q) = v (ix1 p) :=
  (broadcastInDim_apply (s := S64x1) (t := S64x64) ![0, 1] bcast_S64x1_S64x64_0_1 _ (ix2 p q) (ix2 p (0 : Fin 1))
    (fun a => match a with | ⟨0, _⟩ => rfl | ⟨1, _⟩ => rfl)).trans
  (broadcastInDim_apply (s := S64) (t := S64x1) ![0] bcast_S64_S64x1_0 v (ix2 p (0 : Fin 1)) (ix1 p)
    (fun a => match a with | ⟨0, _⟩ => rfl))

/-- A vector laid along the columns reads, at `(p, q)`, its entry `q`. -/
theorem cols_apply {α : Type} (v : S64.Idx → α) (p q : Fin 64) :
    broadcastInDim S64x64 ![0, 1] bcast_S1x64_S64x64_0_1 (broadcastInDim S1x64 ![1] bcast_S64_S1x64_1 v) (ix2 p q) = v (ix1 q) :=
  (broadcastInDim_apply (s := S1x64) (t := S64x64) ![0, 1] bcast_S1x64_S64x64_0_1 _ (ix2 p q) (ix2 (0 : Fin 1) q)
    (fun a => match a with | ⟨0, _⟩ => rfl | ⟨1, _⟩ => rfl)).trans
  (broadcastInDim_apply (s := S64) (t := S1x64) ![1] bcast_S64_S1x64_1 v (ix2 (0 : Fin 1) q) (ix1 q)
    (fun a => match a with | ⟨0, _⟩ => rfl))

/-- The column counter reads, at `(p, q)`, the word `q`. -/
theorem counter_apply (p q : Fin 64) :
    broadcastInDim S64x64 ![0, 1] bcast_S1x64_S64x64_0_1 (iotaInDim S1x64 32 1) (ix2 p q) = BitVec.ofNat 32 q.val :=
  (broadcastInDim_apply (s := S1x64) (t := S64x64) ![0, 1] bcast_S1x64_S64x64_0_1 _ (ix2 p q) (ix2 (0 : Fin 1) q)
    (fun a => match a with | ⟨0, _⟩ => rfl | ⟨1, _⟩ => rfl)).trans rfl

theorem rowsT_apply (v : FVec Ideal S64 .f32) (p q : Fin 64) : rowsT v (ix2 p q) = v (ix1 p) := rows_apply v p q
theorem colsT_apply (v : FVec Ideal S64 .f32) (p q : Fin 64) : colsT v (ix2 p q) = v (ix1 q) := cols_apply v p q

/-- The table's entry. -/
theorem tblT_apply (i j : Fin 64) : tblT (ix2 i j) = hmE i j := rfl

/-- A word below 64 equals the word of a column number exactly when it names that column. -/
theorem word_eq_iff (w : BitVec 32) (hw : w.toNat < 64) (l : Fin 64) : w = BitVec.ofNat 32 l.val ↔ l.val = w.toNat := by
  constructor
  · intro h
    have := congrArg BitVec.toNat h
    rw [BitVec.toNat_ofNat, Nat.mod_eq_of_lt (by have := l.isLt; omega)] at this
    exact this.symm
  · intro h
    apply BitVec.eq_of_toNat_eq
    rw [BitVec.toNat_ofNat, Nat.mod_eq_of_lt (by have := l.isLt; omega)]
    exact h.symm

/-- The comparison read at `(k, l)`: one when the `k`-th index word names column `l`, zero otherwise. -/
theorem hotT_apply (P : IVec S64 32) (hP : InRange P) (k l : Fin 64) :
    hotT P (ix2 k l) = if l = pOf P k then (1 : EReal) else 0 := by
  have e : hotT P (ix2 k l)
      = (((IntOp.cmpi .eq (P (ix1 k)) (BitVec.ofNat 32 l.val)).toNat : ℝ) : EReal) := by
    unfold hotT
    show (((IntOp.cmpi .eq (_ : BitVec 32) (_ : BitVec 32)).toNat : ℝ) : EReal) = _
    rw [rows_apply, counter_apply]
  rw [e]
  have hl : (l = pOf P k) ↔ (P (ix1 k) = BitVec.ofNat 32 l.val) := by
    rw [word_eq_iff _ (hP k) l, ← pOf_val P hP k]
    exact ⟨fun h => congrArg Fin.val h, fun h => Fin.ext h⟩
  by_cases h : l = pOf P k
  · rw [if_pos h]
    have hc : IntOp.cmpi .eq (P (ix1 k)) (BitVec.ofNat 32 l.val) = 1#1 := by
      unfold IntOp.cmpi
      simp only [hl.mp h, beq_self_eq_true]; rfl
    rw [hc]; simp
  · rw [if_neg h]
    have hc : IntOp.cmpi .eq (P (ix1 k)) (BitVec.ofNat 32 l.val) = 0#1 := by
      unfold IntOp.cmpi
      have : (P (ix1 k) == BitVec.ofNat 32 l.val) = false := by
        rw [beq_eq_false_iff_ne]; exact fun e => h (hl.mpr e)
      simp only [this]; rfl
    rw [hc]; simp

/-- The product of two 64 x 64 matrices read at an entry. -/
theorem mmT_apply (L R : FVec Ideal S64x64 .f32) (i j : Fin 64) :
    mmT L R (ix2 i j) = ∑ k : Fin 64, L (ix2 i k) * R (ix2 k j) := by
  unfold mmT
  show FloatOps.dotGeneral _ none _ L R (ix2 i j) = _
  rw [Ideal.dotGeneral_apply, ← Equiv.sum_comp (contrEquiv1 dot_S64x64_S64x64_S64x64_1_0_0_1_n_n 64 rfl rfl).symm]
  refine Finset.sum_congr rfl fun k _ => ?_
  have ck := contrEquiv1_symm_val dot_S64x64_S64x64_S64x64_1_0_0_1_n_n 64 rfl rfl k
  have hl : (dot_S64x64_S64x64_S64x64_1_0_0_1_n_n).lhsIdx (ix2 i j) ((contrEquiv1 dot_S64x64_S64x64_S64x64_1_0_0_1_n_n 64 rfl rfl).symm k) = ix2 i k := by
    funext ax; apply Fin.ext
    match ax with
    | ⟨0, _⟩ => simp [DotDims.lhsIdx, dot_S64x64_S64x64_S64x64_1_0_0_1_n_n]; rfl
    | ⟨1, _⟩ => simp [DotDims.lhsIdx, dot_S64x64_S64x64_S64x64_1_0_0_1_n_n]; exact ck
  have hr : (dot_S64x64_S64x64_S64x64_1_0_0_1_n_n).rhsIdx (ix2 i j) ((contrEquiv1 dot_S64x64_S64x64_S64x64_1_0_0_1_n_n 64 rfl rfl).symm k) = ix2 k j := by
    funext ax; apply Fin.ext
    match ax with
    | ⟨0, _⟩ => simp [DotDims.rhsIdx, dot_S64x64_S64x64_S64x64_1_0_0_1_n_n]; exact ck
    | ⟨1, _⟩ => simp [DotDims.rhsIdx, dot_S64x64_S64x64_S64x64_1_0_0_1_n_n]; rfl
  rw [hl, hr]

/-- The fused matrix read at an entry is the specification's. -/
theorem fusedT_apply (B G S : FVec Ideal S64 .f32) (P : IVec S64 32) (hP : InRange P) (i j : Fin 64) :
    fusedT B G S P (ix2 i j)
      = wEntry hmE (fun a => B (ix1 a)) (fun a => G (ix1 a)) (fun a => S (ix1 a))
          (fun l k => if l = pOf P k then (1 : EReal) else 0) (Ideal.ofBits .f32 0x3D3504F3#32) i j := by
  unfold fusedT wEntry
  rw [mulf_apply, mulf_apply, broadcastInDim_scalar_apply, constant_apply, colsT_apply, mmT_apply]
  refine congrArg (fun z => Ideal.ofBits .f32 0x3D3504F3#32 * (z * S (ix1 j))) ?_
  refine Finset.sum_congr rfl fun k _ => ?_
  rw [mmT_apply, tblT_apply]
  refine congrArg (fun z => z * hmE k j) ?_
  refine Finset.sum_congr rfl fun l _ => ?_
  rw [mulf_apply, mulf_apply, rowsT_apply, tblT_apply, colsT_apply, transpose_ix2_apply, hotT_apply P hP]

variable (m : (ℓ : Loc nD τ sig) → Buf (Elt Ideal) ℓ)

/-! ### The two arrays -/

/-- The first window's array is the input, recast. -/
theorem Xarr_eq (c : Dev nD) : Xarr m c = shapeCast S524288x64 (a0 m c) shapeCasts_S8x8192x8x64_S524288x64 := by
  show (V m c main_v15 : S524288x64.Idx → EReal) = _
  dsimp only [Gen.V, Gen.V0]
  simp only [Gen.hostOps0, Gen.hostOps0_1, Gen.hostOps0_2, List.flatten_cons, List.flatten_nil, List.append_nil,
    List.cons_append, List.nil_append]
  after_results
  rfl

/-- The second window's array is the fused matrix the operations build from the four argument vectors. -/
theorem Warr_term (c : Dev nD) :
    (Warr m c : S64x64.Idx → EReal) = fusedT (a1 m c) (a2 m c) (a3 m c) (a4 m c) := by
  show (V m c main_v14 : S64x64.Idx → EReal) = _
  dsimp only [Gen.V, Gen.V0]
  simp only [Gen.hostOps0, Gen.hostOps0_1, Gen.hostOps0_2, List.flatten_cons, List.flatten_nil, List.append_nil,
    List.cons_append, List.nil_append]
  after_results_simp
  rfl

/-- The second window's array, entry by entry, is the fused matrix of the specification. -/
theorem W_entry (c : Dev nD) (hP : InRange (a4 m c)) (i j : Fin 64) :
    Warr m c (ix2 i j)
      = wEntry hmE (fun a => a1 m c (ix1 a)) (fun a => a2 m c (ix1 a)) (fun a => a3 m c (ix1 a))
          (fun l k => if l = pOf (a4 m c) k then (1 : EReal) else 0) (Ideal.ofBits .f32 0x3D3504F3#32) i j := by
  rw [show (Warr m c : S64x64.Idx → EReal) = _ from Warr_term m c]
  exact fusedT_apply (a1 m c) (a2 m c) (a3 m c) (a4 m c) hP i j

end Cert.KernelIdeal.KValue

end
-- ==== Proof.KernelBlocks.lean ====
/-
  The kernel's run with its result named.

  At each of the 32 grid points the body stores the product of the point's block of 16384 rows with the whole 64 x 64
  matrix into the point's block of the output; the blocks tile the output's rows, so after the region the output array is,
  entry `(row, j)`, the sum over `i` of `X (row, i) * W (i, j)`. The one host operation after the region recasts it to the
  result's shape.
-/
import proofs.«413175_j7078106103911_1_alg».proof.Proof.KNames
import Idealize.ShloMosaic.Lib.StableHlo.Run
import Idealize.ShloMosaic.Lib.Pipeline.Value
import Idealize.ShloMosaic.PureOps.Ideal.Laws

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The body's product at an index -/

/-- Offsets zero on both axes, however written. -/
theorem zero_offsets : (![0, 0] : Fin 2 → Nat) = fun _ => 0 := funext fun a => by fin_cases a <;> rfl

/-- The product's left factor is read at the output's row … -/
theorem lhs_row (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl
/-- … and at the summation index on its second axis; -/
theorem lhs_contr (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
/-- the right factor at the summation index on its first axis … -/
theorem rhs_contr (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
/-- … and at the output's column. -/
theorem rhs_col (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl

/-- What the body leaves in the output's block, entry `(p, q)`: the sum over `i` of the row block's `(p, i)` times the
    matrix's `(i, q)` — the product accumulated onto zero, the summation index renamed to its one coordinate. -/
theorem block_product_apply (x0 : Vec Ideal S16384x64 .f32) (x1 : Vec Ideal S64x64 .f32) (p : Fin 16384) (q : Fin 64) :
    out0_2 x0 x1 (ix2 p q) = ∑ i : Fin 64, x0 (ix2 p i) * x1 (ix2 i q) := by
  unfold out0_2
  rw [View.canon_unit_zero zero_offsets]
  simp only [View.ld_unit_zero (S := S16384x64) zero_offsets, View.ld_unit_zero (S := S64x64) zero_offsets]
  unfold k0_pay1
  simp only [shapeCast_self]
  refine (Ideal.matmul_constant_zero_apply (φ₁ := .f32) (φ₂ := .f32) dot_S16384x64_S64x64_S16384x64_1_0_0_1_n_n none x0 x1 (ix2 p q)).trans ?_
  rw [← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 p q) ((contrEquiv1 dot_S16384x64_S64x64_S16384x64_1_0_0_1_n_n 64 rfl rfl).symm k) = ix2 p k :=
    funext fun a => Fin.ext (by
      match a with
      | ⟨0, _⟩ => exact lhs_row _ _
      | ⟨1, _⟩ => exact (lhs_contr _ _).trans hk)
  have er : dot_S16384x64_S64x64_S16384x64_1_0_0_1_n_n.rhsIdx (ix2 p q) ((contrEquiv1 dot_S16384x64_S64x64_S16384x64_1_0_0_1_n_n 64 rfl rfl).symm k) = ix2 k q :=
    funext fun a => Fin.ext (by
      match a with
      | ⟨0, _⟩ => exact (rhs_contr _ _).trans hk
      | ⟨1, _⟩ => exact rhs_col _ _)
  rw [el, er]

/-! ## The blocks the body reads -/

/-- The block indices over the grid: at point `t` the input rows' block and the output's block are both block `t` along
    the rows and block 0 along the columns; the matrix's block is always block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of the rows, entry `x`, is the array's entry at row `16384 t + x₀`, column `x₁`. -/
theorem rows_block_apply (c : Dev nD) (t : Fin cfg0.N) (x : S16384x64.Idx) (k : S524288x64.Idx)
    (hk0 : (k 0).val = t.val * 16384 + (x 0).val) (hk1 : (k 1).val = (x 1).val) :
    (iblk m c 0 t : Vec Ideal S16384x64 .f32) x = Xarr m c k := by
  obtain ⟨e0, e1, -⟩ := block_indices t
  unfold iblk
  rw [View.read_apply]
  show V m c main_v15 _ = V m c main_v15 _
  congr 1
  funext a
  apply Fin.ext
  match a with
  | ⟨0, _⟩ => show win0_0.index t (0 : Fin 2) * 16384 + 1 * (x 0).val = (k 0).val; rw [e0, hk0]; omega
  | ⟨1, _⟩ => show win0_0.index t (1 : Fin 2) * 64 + 1 * (x 1).val = (k 1).val; rw [e1, hk1]; omega

/-- Every point's block of the matrix is the whole matrix. -/
theorem matrix_block_apply (c : Dev nD) (t : Fin cfg0.N) (x : S64x64.Idx) :
    (iblk m c 1 t : Vec Ideal S64x64 .f32) x = Warr m c x := by
  obtain ⟨-, -, e2, e3, -⟩ := block_indices t
  unfold iblk
  rw [View.read_apply]
  show V m c main_v14 _ = V m c main_v14 _
  congr 1
  funext a
  apply Fin.ext
  match a with
  | ⟨0, _⟩ => show win0_1.index t (0 : Fin 2) * 64 + 1 * (x 0).val = (x 0).val; rw [e2]; omega
  | ⟨1, _⟩ => show win0_1.index t (1 : Fin 2) * 64 + 1 * (x 1).val = (x 1).val; rw [e3]; omega

/-! ## From the blocks to the array -/

/-- For any two blocks that are rows `16384 t …` of `X` and the whole of `W`, the body's block at entry `j` is `kerOut2` at
    row `16384 t + j₀`, column `j₁`: both are the same sum, term by term. -/
theorem block_of_kerOut2 (c : Dev nD) (t : Fin cfg0.N) (x0 : Vec Ideal S16384x64 .f32) (x1 : Vec Ideal S64x64 .f32)
    (hx0 : ∀ (x : S16384x64.Idx) (k : S524288x64.Idx), (k 0).val = t.val * 16384 + (x 0).val → (k 1).val = (x 1).val → x0 x = Xarr m c k)
    (hx1 : ∀ x : S64x64.Idx, x1 x = Warr m c x)
    (j : S16384x64.Idx) (k : S524288x64.Idx) (hk0 : (k 0).val = t.val * 16384 + (j 0).val) (hk1 : (k 1).val = (j 1).val) :
    out0_2 x0 x1 j = kerOut2 m c k := by
  obtain ⟨p, q, rfl⟩ : ∃ (p : Fin 16384) (q : Fin 64), j = ix2 p q := ⟨j 0, j 1, eq_ix2 j⟩
  obtain ⟨r, s, rfl⟩ : ∃ (r : Fin 524288) (s : Fin 64), k = ix2 r s := ⟨k 0, k 1, eq_ix2 k⟩
  have hs : s = q := Fin.ext hk1
  subst hs
  rw [block_product_apply, kerOut2_apply]
  refine Finset.sum_congr rfl fun i _ => ?_
  rw [hx0 (ix2 p i) (ix2 r i) hk0 rfl, hx1]

/-- What point `t` writes back to the output is block `t` of `kerOut2`. -/
theorem written_back_eq (c : Dev nD) (t : Fin cfg0.N) :
    (dats m 0 c).flushed 2 t = ((cfg0.win 2).blk t).view.read (Elt Ideal) (kerOut2 m c) := by
  show (cfg0.win 2).cut (grid0.coords t) ((dats m 0 c).after 2 t) = _
  rw [after0_2]
  obtain ⟨-, -, -, -, e4, e5⟩ := block_indices t
  funext j
  show out0_2 (iblk m c 0 t) (iblk m c 1 t) j = kerOut2 m c (((cfg0.win 2).blk t).view.emb j)
  refine block_of_kerOut2 m c t (iblk m c 0 t) (iblk m c 1 t) (fun x k h0 h1 => rows_block_apply m c t x k h0 h1)
    (fun x => matrix_block_apply m c t x) j (((cfg0.win 2).blk t).view.emb j) ?_ ?_
  · show win0_2.index t (0 : Fin 2) * 16384 + 1 * (j 0).val = t.val * 16384 + (j 0).val
    rw [e4]; omega
  · show win0_2.index t (1 : Fin 2) * 64 + 1 * (j 1).val = (j 1).val
    rw [e5]; omega

/-- An index of the output array is in point `t`'s block iff each coordinate is in the block's range on its axis. -/
theorem mem_row_block (t : Fin cfg0.N) (i : S524288x64.Idx) :
    i ∈ ((cfg0.win 2).blk t).view.set ↔ ∀ a : Fin 2, win0_2.index t a * S16384x64.size a ≤ (i a).val ∧ (i a).val < win0_2.index t a * S16384x64.size a + S16384x64.size a := by
  show i ∈ ((View.whole main_v16).slice (win0_2.rect t)).set ↔ _
  rw [View.set_slice_whole, Rect.mem_set_unit]
  exact Iff.rfl

/-- The 32 row blocks tile the output: row `r` lies in the block of point `r / 16384`. -/
theorem row_blocks_cover (i : S524288x64.Idx) :
    ∃ t : Fin cfg0.N, (cfg0.win 2).flush t = true ∧ i ∈ ((cfg0.win 2).blk t).view.set := by
  have h0 : (i 0).val < 524288 := idx2_lt0 i
  have h1 : (i 1).val < 64 := idx2_lt1 i
  have hN : cfg0.N = 32 := N_0
  obtain ⟨t, ht⟩ : ∃ t : Fin cfg0.N, t.val = (i 0).val / 16384 := ⟨⟨(i 0).val / 16384, by omega⟩, rfl⟩
  obtain ⟨-, -, -, -, e4, e5⟩ := block_indices t
  refine ⟨t, flush0_2 t, ?_⟩
  rw [mem_row_block]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 64 ≤ (i 1).val ∧ (i 1).val < win0_2.index t (1 : Fin 2) * 64 + 64; omega

/-- So after the last point the output array is `kerOut2`. -/
theorem output_array_eq (c : Dev nD) : (dats m 0 c).arrAt 2 cfg0.N = kerOut2 m c :=
  (dats m 0 c).arrAt_eq_of_cover 2 (kerOut2 m c) (fun t _ => written_back_eq m c t) row_blocks_cover

/-! ## The host operation after the region, and the run -/

/-- The result buffer after the region's tail: the output array, which is `kerOut2`, recast to the result's shape. -/
theorem result_eq_recast (c : Dev nD) :
    Pipeline.afterTail₀ cfgs (dats m) 0 (V0 m) [hostOps1] c main_v17
      = shapeCast S8x8192x8x64 (kerOut2 m c) shapeCasts_S524288x64_S8x8192x8x64 := by
  have hA : Pipeline.withArrays (cfgs 0).spec c (V0 m c) (fun w => (dats m 0 c).arrAt w (cfgs 0).N) (Proc.devRef .tc main_v16) = kerOut2 m c :=
    (Pipeline.withArrays_arr spec0 launch0.win.arr_inj c _ _ 2).trans (output_array_eq m c)
  unfold Pipeline.afterTail₀
  show StableHlo.after hostOps1 _ (Proc.devRef .tc main_v17) = _
  after_results
  rw [hA]
  rfl

/-- THE KERNEL'S RUN: every weakly fair execution ends with the result the recast of `kerOut2` and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17) = shapeCast S8x8192x8x64 (kerOut2 m c) shapeCasts_S524288x64_S8x8192x8x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v17 (Pipeline.mem_restRefs_of main_v17 (by decide) (by decide))).trans (result_eq_recast m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefStage.lean ====
/-
  One butterfly stage as the reference spells it on the whole [R, 64] array, read at an index.

  The stage at stride `H` views each row of 64 as `Q` groups of two halves of `H` entries (`Q * 2 * H = 64`): the array is
  recast to [R, Q, 2, H]; the two halves are cut out (a slice at offset 0 and one at offset 1 of the third axis, each
  squeezed to [R, Q, H]); their sum and their difference are put back side by side along the third axis; the result is
  recast to [R, 64]. Entry `(row, col)` of the result is therefore the butterfly stage at stride `H` of row `row`, at `col`.
-/
import Idealize.ShloMosaic.PureOps.Ideal
import Idealize.ShloMosaic.Lib.ValueIdx
import Idealize.ShloMosaic.Lib.Pipeline.Value
import proofs.«413175_j7078106103911_1_alg».proof.Proof.Spec

noncomputable section

namespace Cert.Fastfood

open Idealize.ShloMosaic Idealize.ShloMosaic.ValueIdx

/-- The chain of layout operations, sum and difference that is one butterfly stage of the reference at group count `Q` and
    stride `H`, on an [R, 64] array `u`. -/
def stageOp (R Q H : ℕ) (u : FVec Ideal ⟨2, ![R, 64]⟩ .f32)
    (h1 : (⟨2, ![R, 64]⟩ : Shape).ShapeCasts ⟨4, ![R, Q, 2, H]⟩)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (h3 : (⟨4, ![R, Q, 1, H]⟩ : Shape).ShapeCasts ⟨3, ![R, Q, H]⟩)
    (hb : (⟨3, ![R, Q, H]⟩ : Shape).BroadcastsInDim ⟨4, ![R, Q, 1, H]⟩ ![0, 1, 3])
    (hc : Shape.Concatenates [⟨4, ![R, Q, 1, H]⟩, ⟨4, ![R, Q, 1, H]⟩] ⟨4, ![R, Q, 2, H]⟩ 2)
    (h2 : (⟨4, ![R, Q, 2, H]⟩ : Shape).ShapeCasts ⟨2, ![R, 64]⟩) : FVec Ideal ⟨2, ![R, 64]⟩ .f32 :=
  shapeCast ⟨2, ![R, 64]⟩
    (concatenate ⟨4, ![R, Q, 2, H]⟩ 2
      [⟨⟨4, ![R, Q, 1, H]⟩, broadcastInDim ⟨4, ![R, Q, 1, H]⟩ ![0, 1, 3] hb
          (addf (shapeCast ⟨3, ![R, Q, H]⟩ (extractStridedSlice ⟨4, ![R, Q, 1, H]⟩ ![0, 0, 0, 0] (shapeCast ⟨4, ![R, Q, 2, H]⟩ u h1) hs0) h3)
                (shapeCast ⟨3, ![R, Q, H]⟩ (extractStridedSlice ⟨4, ![R, Q, 1, H]⟩ ![0, 0, 1, 0] (shapeCast ⟨4, ![R, Q, 2, H]⟩ u h1) hs1) h3))⟩,
       ⟨⟨4, ![R, Q, 1, H]⟩, broadcastInDim ⟨4, ![R, Q, 1, H]⟩ ![0, 1, 3] hb
          (subf (shapeCast ⟨3, ![R, Q, H]⟩ (extractStridedSlice ⟨4, ![R, Q, 1, H]⟩ ![0, 0, 0, 0] (shapeCast ⟨4, ![R, Q, 2, H]⟩ u h1) hs0) h3)
                (shapeCast ⟨3, ![R, Q, H]⟩ (extractStridedSlice ⟨4, ![R, Q, 1, H]⟩ ![0, 0, 1, 0] (shapeCast ⟨4, ![R, Q, 2, H]⟩ u h1) hs1) h3))⟩]
      hc) h2

/-! ## The layout operations of a stage, each read at an index given by its coordinates

Every lemma below names the index it reads by its coordinates and takes the one piece of coordinate arithmetic it needs as a
hypothesis, so that each holds for every group count `Q` and stride `H`; the six literal cases only enter at the end. -/

namespace RefStage

section Layout
variable {α : Type}

/-- The recast of an [R, 64] array to [R, Q, 2, H] reads, at `(r, q, b, p)`, the array at `(r, c)` whenever the two entries sit at
    the same row-major position. -/
theorem cast_in_apply {R Q H : ℕ} (u : (⟨2, ![R, 64]⟩ : Shape).Idx → α)
    (h1 : (⟨2, ![R, 64]⟩ : Shape).ShapeCasts ⟨4, ![R, Q, 2, H]⟩)
    (r : Fin R) (q : Fin Q) (b : Fin 2) (p : Fin H) (c : Fin 64)
    (e : r.val * 64 + c.val = ((r.val * Q + q.val) * 2 + b.val) * H + p.val) :
    shapeCast ⟨4, ![R, Q, 2, H]⟩ u h1 (ix4 r q b p) = u (ix2 r c) :=
  shapeCast_apply u h1 _ _ (by
    rw [Shape.rowMajor_val_two, Shape.rowMajor_val_four]
    exact e)

/-- The recast of an [R, Q, 2, H] array back to [R, 64] reads, at `(r, c)`, the array at `(r, q, b, p)` whenever the two entries
    sit at the same row-major position. -/
theorem cast_out_apply {R Q H : ℕ} (x : (⟨4, ![R, Q, 2, H]⟩ : Shape).Idx → α)
    (h2 : (⟨4, ![R, Q, 2, H]⟩ : Shape).ShapeCasts ⟨2, ![R, 64]⟩)
    (r : Fin R) (q : Fin Q) (b : Fin 2) (p : Fin H) (c : Fin 64)
    (e : r.val * 64 + c.val = ((r.val * Q + q.val) * 2 + b.val) * H + p.val) :
    shapeCast ⟨2, ![R, 64]⟩ x h2 (ix2 r c) = x (ix4 r q b p) :=
  shapeCast_apply x h2 _ _ (by
    rw [Shape.rowMajor_val_two, Shape.rowMajor_val_four]
    exact e.symm)

/-- Dropping the unit third axis: the recast of an [R, Q, 1, H] array to [R, Q, H] reads, at `(r, q, p)`, the array at
    `(r, q, 0, p)`. -/
theorem squeeze_apply {R Q H : ℕ} (x : (⟨4, ![R, Q, 1, H]⟩ : Shape).Idx → α)
    (h3 : (⟨4, ![R, Q, 1, H]⟩ : Shape).ShapeCasts ⟨3, ![R, Q, H]⟩)
    (r : Fin R) (q : Fin Q) (p : Fin H) :
    shapeCast ⟨3, ![R, Q, H]⟩ x h3 (ix3 r q p) = x (ix4 r q (0 : Fin 1) p) :=
  shapeCast_apply x h3 _ _ (by
    rw [Shape.rowMajor_val_three, Shape.rowMajor_val_four]
    show ((r.val * Q + q.val) * 1 + 0) * H + p.val = (r.val * Q + q.val) * H + p.val
    rw [Nat.mul_one, Nat.add_zero])

/-- The slice of the lower half: at `(r, q, 0, p)` it reads the [R, Q, 2, H] array at `(r, q, 0, p)`. -/
theorem slice_lo_apply {R Q H : ℕ} (x : (⟨4, ![R, Q, 2, H]⟩ : Shape).Idx → α)
    (hs0 : (⟨4, ![R, Q, 2, H]⟩ : Shape).Slices ![0, 0, 0, 0] ⟨4, ![R, Q, 1, H]⟩)
    (r : Fin R) (q : Fin Q) (p : Fin H) :
    extractStridedSlice ⟨4, ![R, Q, 1, H]⟩ ![0, 0, 0, 0] x hs0 (ix4 r q (0 : Fin 1) p) = x (ix4 r q (0 : Fin 2) p) :=
  extractStridedSlice_apply _ x hs0 _ _ fun a =>
    match a with
    | ⟨0, _⟩ => (Nat.zero_add _).symm
    | ⟨1, _⟩ => (Nat.zero_add _).symm
    | ⟨2, _⟩ => rfl
    | ⟨3, _⟩ => (Nat.zero_add _).symm

/-- The slice of the upper half: at `(r, q, 0, p)` it reads the [R, Q, 2, H] array at `(r, q, 1, p)`. -/
theorem slice_hi_apply {R Q H : ℕ} (x : (⟨4, ![R, Q, 2, H]⟩ : Shape).Idx → α)
    (hs1 : (⟨4, ![R, Q, 2, H]⟩ : Shape).Slices ![0, 0, 1, 0] ⟨4, ![R, Q, 1, H]⟩)
    (r : Fin R) (q : Fin Q) (p : Fin H) :
    extractStridedSlice ⟨4, ![R, Q, 1, H]⟩ ![0, 0, 1, 0] x hs1 (ix4 r q (0 : Fin 1) p) = x (ix4 r q (1 : Fin 2) p) :=
  extractStridedSlice_apply _ x hs1 _ _ fun a =>
    match a with
    | ⟨0, _⟩ => (Nat.zero_add _).symm
    | ⟨1, _⟩ => (Nat.zero_add _).symm
    | ⟨2, _⟩ => rfl
    | ⟨3, _⟩ => (Nat.zero_add _).symm

/-- Putting the unit third axis back: the [R, Q, H] array laid out as [R, Q, 1, H] reads, at `(r, q, 0, p)`, the array at
    `(r, q, p)`. (An axis of extent one of the operand is read at `0`, which is the only coordinate it has.) -/
theorem unsqueeze_apply {R Q H : ℕ} (x : (⟨3, ![R, Q, H]⟩ : Shape).Idx → α)
    (hb : (⟨3, ![R, Q, H]⟩ : Shape).BroadcastsInDim ⟨4, ![R, Q, 1, H]⟩ ![0, 1, 3])
    (r : Fin R) (q : Fin Q) (p : Fin H) :
    broadcastInDim ⟨4, ![R, Q, 1, H]⟩ ![0, 1, 3] hb x (ix4 r q (0 : Fin 1) p) = x (ix3 r q p) :=
  broadcastInDim_apply _ hb x _ _ fun a => by
    match a with
    | ⟨0, _⟩ =>
      show r.val = if R = 1 then 0 else r.val
      split
      · have := r.isLt; omega
      · rfl
    | ⟨1, _⟩ =>
      show q.val = if Q = 1 then 0 else q.val
      split
      · have := q.isLt; omega
      · rfl
    | ⟨2, _⟩ =>
      show p.val = if H = 1 then 0 else p.val
      split
      · have := p.isLt; omega
      · rfl

/-- The two [R, Q, 1, H] pieces side by side along the third axis read, at `(r, q, 0, p)`, the first piece at `(r, q, 0, p)`. -/
theorem concat_lo_apply {R Q H : ℕ} (x₁ x₂ : (⟨4, ![R, Q, 1, H]⟩ : Shape).Idx → α)
    (hc : Shape.Concatenates [⟨4, ![R, Q, 1, H]⟩, ⟨4, ![R, Q, 1, H]⟩] ⟨4, ![R, Q, 2, H]⟩ 2)
    (r : Fin R) (q : Fin Q) (p : Fin H) :
    concatenate ⟨4, ![R, Q, 2, H]⟩ 2 [⟨⟨4, ![R, Q, 1, H]⟩, x₁⟩, ⟨⟨4, ![R, Q, 1, H]⟩, x₂⟩] hc (ix4 r q (0 : Fin 2) p)
      = x₁ (ix4 r q (0 : Fin 1) p) :=
  concatenate_pair_apply_left _ x₁ x₂ hc _ rfl _ fun b =>
    match b with
    | ⟨0, _⟩ => rfl
    | ⟨1, _⟩ => rfl
    | ⟨2, _⟩ => rfl
    | ⟨3, _⟩ => rfl

/-- … and, at `(r, q, 1, p)`, the second piece at `(r, q, 0, p)`. -/
theorem concat_hi_apply {R Q H : ℕ} (x₁ x₂ : (⟨4, ![R, Q, 1, H]⟩ : Shape).Idx → α)
    (hc : Shape.Concatenates [⟨4, ![R, Q, 1, H]⟩, ⟨4, ![R, Q, 1, H]⟩] ⟨4, ![R, Q, 2, H]⟩ 2)
    (r : Fin R) (q : Fin Q) (p : Fin H) :
    concatenate ⟨4, ![R, Q, 2, H]⟩ 2 [⟨⟨4, ![R, Q, 1, H]⟩, x₁⟩, ⟨⟨4, ![R, Q, 1, H]⟩, x₂⟩] hc (ix4 r q (1 : Fin 2) p)
      = x₂ (ix4 r q (0 : Fin 1) p) :=
  concatenate_pair_apply_right _ x₁ x₂ hc _ rfl rfl _
    (fun b hne =>
      match b, hne with
      | ⟨0, _⟩, _ => rfl
      | ⟨1, _⟩, _ => rfl
      | ⟨2, _⟩, hne => absurd rfl hne
      | ⟨3, _⟩, _ => rfl)
    rfl

end Layout

/-! ## The whole stage at an entry of a lower half and of an upper half -/

/-- At a column `c` in the lower half of its group (position `(q, 0, p)`), whose partner `c'` sits at `(q, 1, p)`, the stage's result
    is the sum of the two entries: the recast back reads the concatenation in its first piece, the sum, which reads the two
    slices at `(q, p)`, and these are the array at `c` and at `c'`. -/
theorem stage_lo {R Q H : ℕ} (u : FVec Ideal ⟨2, ![R, 64]⟩ .f32)
    (h1 : (⟨2, ![R, 64]⟩ : Shape).ShapeCasts ⟨4, ![R, Q, 2, H]⟩)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (h3 : (⟨4, ![R, Q, 1, H]⟩ : Shape).ShapeCasts ⟨3, ![R, Q, H]⟩)
    (hb : (⟨3, ![R, Q, H]⟩ : Shape).BroadcastsInDim ⟨4, ![R, Q, 1, H]⟩ ![0, 1, 3])
    (hc : Shape.Concatenates [⟨4, ![R, Q, 1, H]⟩, ⟨4, ![R, Q, 1, H]⟩] ⟨4, ![R, Q, 2, H]⟩ 2)
    (h2 : (⟨4, ![R, Q, 2, H]⟩ : Shape).ShapeCasts ⟨2, ![R, 64]⟩)
    (row : Fin R) (q : Fin Q) (p : Fin H) (c c' : Fin 64)
    (e0 : row.val * 64 + c.val = ((row.val * Q + q.val) * 2 + 0) * H + p.val)
    (e1 : row.val * 64 + c'.val = ((row.val * Q + q.val) * 2 + 1) * H + p.val) :
    stageOp R Q H u h1 hs0 hs1 h3 hb hc h2 (ix2 row c) = u (ix2 row c) + u (ix2 row c') := by
  unfold stageOp
  rw [cast_out_apply _ h2 row q 0 p c e0, concat_lo_apply, unsqueeze_apply, addf_apply, squeeze_apply, squeeze_apply,
    slice_lo_apply, slice_hi_apply, cast_in_apply u h1 row q 0 p c e0, cast_in_apply u h1 row q 1 p c' e1]

/-- At a column `c` in the upper half of its group (position `(q, 1, p)`), whose partner `c'` sits at `(q, 0, p)`, the stage's result
    is the partner's entry minus the column's own: the same reading through the second piece, the difference. -/
theorem stage_hi {R Q H : ℕ} (u : FVec Ideal ⟨2, ![R, 64]⟩ .f32)
    (h1 : (⟨2, ![R, 64]⟩ : Shape).ShapeCasts ⟨4, ![R, Q, 2, H]⟩)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (h3 : (⟨4, ![R, Q, 1, H]⟩ : Shape).ShapeCasts ⟨3, ![R, Q, H]⟩)
    (hb : (⟨3, ![R, Q, H]⟩ : Shape).BroadcastsInDim ⟨4, ![R, Q, 1, H]⟩ ![0, 1, 3])
    (hc : Shape.Concatenates [⟨4, ![R, Q, 1, H]⟩, ⟨4, ![R, Q, 1, H]⟩] ⟨4, ![R, Q, 2, H]⟩ 2)
    (h2 : (⟨4, ![R, Q, 2, H]⟩ : Shape).ShapeCasts ⟨2, ![R, 64]⟩)
    (row : Fin R) (q : Fin Q) (p : Fin H) (c c' : Fin 64)
    (e1 : row.val * 64 + c.val = ((row.val * Q + q.val) * 2 + 1) * H + p.val)
    (e0 : row.val * 64 + c'.val = ((row.val * Q + q.val) * 2 + 0) * H + p.val) :
    stageOp R Q H u h1 hs0 hs1 h3 hb hc h2 (ix2 row c) = u (ix2 row c') - u (ix2 row c) := by
  unfold stageOp
  rw [cast_out_apply _ h2 row q 1 p c e1, concat_hi_apply, unsqueeze_apply, subf_apply, squeeze_apply, squeeze_apply,
    slice_lo_apply, slice_hi_apply, cast_in_apply u h1 row q 0 p c' e0, cast_in_apply u h1 row q 1 p c e1]

end RefStage

set_option hygiene false in
/-- The six group counts and strides of a row of 64, each substituted as literals. -/
local macro "six_cases " h:ident : tactic =>
  `(tactic| rcases $h:ident with ⟨rfl, rfl⟩ | ⟨rfl, rfl⟩ | ⟨rfl, rfl⟩ | ⟨rfl, rfl⟩ | ⟨rfl, rfl⟩ | ⟨rfl, rfl⟩)

/-- THE STAGE READ AT AN INDEX: for the six group counts and strides of a row of 64, entry `(row, col)` of the stage's result is the
    butterfly stage at stride `H` of row `row` of `u`, at `col`. -/
theorem stage_apply (R Q H : ℕ)
    (hQH : (Q = 32 ∧ H = 1) ∨ (Q = 16 ∧ H = 2) ∨ (Q = 8 ∧ H = 4) ∨ (Q = 4 ∧ H = 8) ∨ (Q = 2 ∧ H = 16) ∨ (Q = 1 ∧ H = 32))
    (u : FVec Ideal ⟨2, ![R, 64]⟩ .f32)
    (h1 : (⟨2, ![R, 64]⟩ : Shape).ShapeCasts ⟨4, ![R, Q, 2, H]⟩)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (h3 : (⟨4, ![R, Q, 1, H]⟩ : Shape).ShapeCasts ⟨3, ![R, Q, H]⟩)
    (hb : (⟨3, ![R, Q, H]⟩ : Shape).BroadcastsInDim ⟨4, ![R, Q, 1, H]⟩ ![0, 1, 3])
    (hc : Shape.Concatenates [⟨4, ![R, Q, 1, H]⟩, ⟨4, ![R, Q, 1, H]⟩] ⟨4, ![R, Q, 2, H]⟩ 2)
    (h2 : (⟨4, ![R, Q, 2, H]⟩ : Shape).ShapeCasts ⟨2, ![R, 64]⟩)
    (row : Fin R) (col : Fin 64) :
    stageOp R Q H u h1 hs0 hs1 h3 hb hc h2 (ix2 row col) = bfly H (fun i : Fin 64 => u (ix2 row i)) col := by
  -- column `col` sits in group `col / (2 H)`, in the half `(col / H) % 2`, at place `col % H` within the half
  have hcol := col.isLt
  have hq : col.val / (2 * H) < Q := by six_cases hQH <;> omega
  have hp : col.val % H < H := by six_cases hQH <;> omega
  by_cases hbit : (col.val / H) % 2 = 0
  · -- lower half: the partner is `H` columns up, and `col + H` stays below 64
    have hup : (up H col).val = col.val + H := by
      show (col.val + H) % 64 = col.val + H
      six_cases hQH <;> omega
    rw [show bfly H (fun i : Fin 64 => u (ix2 row i)) col = u (ix2 row col) + u (ix2 row (up H col)) from if_pos hbit]
    refine RefStage.stage_lo u h1 hs0 hs1 h3 hb hc h2 row ⟨col.val / (2 * H), hq⟩ ⟨col.val % H, hp⟩ col (up H col) ?_ ?_
    · show row.val * 64 + col.val = ((row.val * Q + col.val / (2 * H)) * 2 + 0) * H + col.val % H
      six_cases hQH <;> omega
    · show row.val * 64 + (up H col).val = ((row.val * Q + col.val / (2 * H)) * 2 + 1) * H + col.val % H
      rw [hup]
      six_cases hQH <;> omega
  · -- upper half: the partner is `H` columns down, and `col - H` does not wrap
    have hdown : (down H col).val = col.val - H := by
      show (col.val - H) % 64 = col.val - H
      six_cases hQH <;> omega
    rw [show bfly H (fun i : Fin 64 => u (ix2 row i)) col = u (ix2 row (down H col)) - u (ix2 row col) from if_neg hbit]
    refine RefStage.stage_hi u h1 hs0 hs1 h3 hb hc h2 row ⟨col.val / (2 * H), hq⟩ ⟨col.val % H, hp⟩ col (down H col) ?_ ?_
    · show row.val * 64 + col.val = ((row.val * Q + col.val / (2 * H)) * 2 + 1) * H + col.val % H
      six_cases hQH <;> omega
    · show row.val * 64 + (down H col).val = ((row.val * Q + col.val / (2 * H)) * 2 + 0) * H + col.val % H
      rw [hdown]
      six_cases hQH <;> omega

end Cert.Fastfood

end
-- ==== Proof.RefRun.lean ====
/-
  The reference's run, read chunk by chunk.

  @main of the reference is a straight line of 158 host operations. Cut before every butterfly stage it is fifteen chunks: seven
  opening operations (the input scaled by the first constant, recast to [524288, 64], times `B` down the rows), six stages of
  eleven operations, twelve middle operations (the index vector with negatives wrapped, the column gather, times `G`), six stages
  again, and seven closing operations (times `S`, times the second constant, the recast to the result's shape). Each chunk
  leaves in its last buffer one named map of what the chunk before left, and writes none of the five argument buffers; so after
  the whole line the result buffer holds the composition of the named maps applied to the launch contents of the arguments, and
  the arguments are unchanged.
-/
import proofs.«413175_j7078106103911_1_alg».proof.ReferenceIdeal
import proofs.«413175_j7078106103911_1_alg».proof.Proof.Gen.ReferenceIdeal
import proofs.«413175_j7078106103911_1_alg».proof.Proof.RefStage
import Idealize.ShloMosaic.Lib.StableHlo.Run

set_option maxRecDepth 8192

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.Fastfood

/-! ## The six butterfly stages of the reference, each as one named map on [524288, 64] arrays -/

/-- The stage at stride 1 (32 groups of two halves of one entry). -/
def st1 (u : FVec Ideal S524288x64 .f32) : FVec Ideal S524288x64 .f32 :=
  stageOp 524288 32 1 u shapeCasts_S524288x64_S524288x32x2x1 slices_S524288x32x2x1_S524288x32x1x1_0_0_0_0
    slices_S524288x32x2x1_S524288x32x1x1_0_0_1_0 shapeCasts_S524288x32x1x1_S524288x32x1
    bcast_S524288x32x1_S524288x32x1x1_0_1_3 concatenates_S524288x32x1x1_S524288x32x1x1_S524288x32x2x1_d2
    shapeCasts_S524288x32x2x1_S524288x64

/-- The stage at stride 2. -/
def st2 (u : FVec Ideal S524288x64 .f32) : FVec Ideal S524288x64 .f32 :=
  stageOp 524288 16 2 u shapeCasts_S524288x64_S524288x16x2x2 slices_S524288x16x2x2_S524288x16x1x2_0_0_0_0
    slices_S524288x16x2x2_S524288x16x1x2_0_0_1_0 shapeCasts_S524288x16x1x2_S524288x16x2
    bcast_S524288x16x2_S524288x16x1x2_0_1_3 concatenates_S524288x16x1x2_S524288x16x1x2_S524288x16x2x2_d2
    shapeCasts_S524288x16x2x2_S524288x64

/-- The stage at stride 4. -/
def st4 (u : FVec Ideal S524288x64 .f32) : FVec Ideal S524288x64 .f32 :=
  stageOp 524288 8 4 u shapeCasts_S524288x64_S524288x8x2x4 slices_S524288x8x2x4_S524288x8x1x4_0_0_0_0
    slices_S524288x8x2x4_S524288x8x1x4_0_0_1_0 shapeCasts_S524288x8x1x4_S524288x8x4
    bcast_S524288x8x4_S524288x8x1x4_0_1_3 concatenates_S524288x8x1x4_S524288x8x1x4_S524288x8x2x4_d2
    shapeCasts_S524288x8x2x4_S524288x64

/-- The stage at stride 8. -/
def st8 (u : FVec Ideal S524288x64 .f32) : FVec Ideal S524288x64 .f32 :=
  stageOp 524288 4 8 u shapeCasts_S524288x64_S524288x4x2x8 slices_S524288x4x2x8_S524288x4x1x8_0_0_0_0
    slices_S524288x4x2x8_S524288x4x1x8_0_0_1_0 shapeCasts_S524288x4x1x8_S524288x4x8
    bcast_S524288x4x8_S524288x4x1x8_0_1_3 concatenates_S524288x4x1x8_S524288x4x1x8_S524288x4x2x8_d2
    shapeCasts_S524288x4x2x8_S524288x64

/-- The stage at stride 16. -/
def st16 (u : FVec Ideal S524288x64 .f32) : FVec Ideal S524288x64 .f32 :=
  stageOp 524288 2 16 u shapeCasts_S524288x64_S524288x2x2x16 slices_S524288x2x2x16_S524288x2x1x16_0_0_0_0
    slices_S524288x2x2x16_S524288x2x1x16_0_0_1_0 shapeCasts_S524288x2x1x16_S524288x2x16
    bcast_S524288x2x16_S524288x2x1x16_0_1_3 concatenates_S524288x2x1x16_S524288x2x1x16_S524288x2x2x16_d2
    shapeCasts_S524288x2x2x16_S524288x64

/-- The stage at stride 32. -/
def st32 (u : FVec Ideal S524288x64 .f32) : FVec Ideal S524288x64 .f32 :=
  stageOp 524288 1 32 u shapeCasts_S524288x64_S524288x1x2x32 slices_S524288x1x2x32_S524288x1x1x32_0_0_0_0
    slices_S524288x1x2x32_S524288x1x1x32_0_0_1_0 shapeCasts_S524288x1x1x32_S524288x1x32
    bcast_S524288x1x32_S524288x1x1x32_0_1_3 concatenates_S524288x1x1x32_S524288x1x1x32_S524288x1x2x32_d2
    shapeCasts_S524288x1x2x32_S524288x64

/-- The six stages in the reference's order. -/
def six (u : FVec Ideal S524288x64 .f32) : FVec Ideal S524288x64 .f32 := st32 (st16 (st8 (st4 (st2 (st1 u)))))

/-! ## The three maps around the transforms -/

/-- The input scaled by the first constant, recast to [524288, 64], times `B` down the rows. -/
def scaleIn (x : FVec Ideal S8x8192x8x64 .f32) (B : FVec Ideal S64 .f32) : FVec Ideal S524288x64 .f32 :=
  mulf (shapeCast S524288x64 (mulf x (broadcastInDim S8x8192x8x64 ![] bcast_S_S8x8192x8x64 (constant S_ .f32 0x3EB504F3#32))) shapeCasts_S8x8192x8x64_S524288x64)
    (broadcastInDim S524288x64 ![0, 1] bcast_S1x64_S524288x64_0_1 (broadcastInDim S1x64 ![1] bcast_S64_S1x64_1 B))

/-- The columns of `y` gathered by the index vector `P` (a negative word wrapped by 64), times `G` down the rows. -/
def gatherMul (y : FVec Ideal S524288x64 .f32) (P : IVec S64 32) (G : FVec Ideal S64 .f32) : FVec Ideal S524288x64 .f32 :=
  mulf (Host.gather gather_S524288x64_S64x1_S524288x64_0_1_n_n_1_1_5242881 y
      (broadcastInDim S64x1 ![0] bcast_S64_S64x1_0
        (select (cmpi .slt P (broadcastInDim S64 ![] bcast_S_S64 (constantI S_ 32 0#32)))
          (addi P (broadcastInDim S64 ![] bcast_S_S64 (constantI S_ 32 64#32))) P)))
    (broadcastInDim S524288x64 ![0, 1] bcast_S1x64_S524288x64_0_1 (broadcastInDim S1x64 ![1] bcast_S64_S1x64_1 G))

/-- The second constant times (`y` times `S` down the rows). -/
def scaleOut (y : FVec Ideal S524288x64 .f32) (S : FVec Ideal S64 .f32) : FVec Ideal S524288x64 .f32 :=
  mulf (broadcastInDim S524288x64 ![] bcast_S_S524288x64 (constant S_ .f32 0x3E000000#32))
    (mulf y (broadcastInDim S524288x64 ![0, 1] bcast_S1x64_S524288x64_0_1 (broadcastInDim S1x64 ![1] bcast_S64_S1x64_1 S)))

/-- The reference as one map of its five arguments, up to the last recast. -/
def refFun (x : FVec Ideal S8x8192x8x64 .f32) (B G S : FVec Ideal S64 .f32) (P : IVec S64 32) : FVec Ideal S524288x64 .f32 :=
  scaleOut (six (gatherMul (six (scaleIn x B)) P G)) S

/-! ## The operations, chunk by chunk -/

section Lists

variable {F : FTy → Type} [FloatOps F]

/-- The opening operations: the first constant copied over the input's shape, the product, the recast to [524288, 64], `B` copied down the rows, the product. -/
abbrev opsIn : List (HloOp τ sig (Elt F)) :=
  [ nullary main_cst (constant S_ .f32 0x3EB504F3#32),
    unary main_cst main_v0 (broadcastInDim S8x8192x8x64 ![] bcast_S_S8x8192x8x64 : (⟨S_, .f32⟩ : BufTy).Contents (Elt F) → (⟨S8x8192x8x64, .f32⟩ : BufTy).Contents (Elt F)),
    binary main_arg0 main_v0 main_v1 (mulf : (⟨S8x8192x8x64, .f32⟩ : BufTy).Contents (Elt F) → (⟨S8x8192x8x64, .f32⟩ : BufTy).Contents (Elt F) → (⟨S8x8192x8x64, .f32⟩ : BufTy).Contents (Elt F)),
    reshape main_v1 main_v2 rfl shapeCasts_S8x8192x8x64_S524288x64,
    unary main_arg1 main_v3 (broadcastInDim S1x64 ![1] bcast_S64_S1x64_1 : (⟨S64, .f32⟩ : BufTy).Contents (Elt F) → (⟨S1x64, .f32⟩ : BufTy).Contents (Elt F)),
    unary main_v3 main_v4 (broadcastInDim S524288x64 ![0, 1] bcast_S1x64_S524288x64_0_1 : (⟨S1x64, .f32⟩ : BufTy).Contents (Elt F) → (⟨S524288x64, .f32⟩ : BufTy).Contents (Elt F)),
    binary main_v2 main_v4 main_v5 (mulf : (⟨S524288x64, .f32⟩ : BufTy).Contents (Elt F) → (⟨S524288x64, .f32⟩ : BufTy).Contents (Elt F) → (⟨S524288x64, .f32⟩ : BufTy).Contents (Elt F)) ]

/-- The first transform's stage at stride 1: recast, the two halves cut out, their sum and difference, put side by side, recast back. -/
abbrev opsA1 : List (HloOp τ sig (Elt F)) :=
  [ reshape main_v5 main_v6 rfl shapeCasts_S524288x64_S524288x32x2x1,
    unary main_v6 main_v7 ((extractStridedSlice S524288x32x1x1 ![0, 0, 0, 0] · slices_S524288x32x2x1_S524288x32x1x1_0_0_0_0) : (⟨S524288x32x2x1, .f32⟩ : BufTy).Contents (Elt F) → (⟨S524288x32x1x1, .f32⟩ : BufTy).Contents (Elt F)),
    reshape main_v7 main_v8 rfl shapeCasts_S524288x32x1x1_S524288x32x1,
    unary main_v6 main_v9 ((extractStridedSlice S524288x32x1x1 ![0, 0, 1, 0] · slices_S524288x32x2x1_S524288x32x1x1_0_0_1_0) : (⟨S524288x32x2x1, .f32⟩ : BufTy).Contents (Elt F) → (⟨S524288x32x1x1, .f32⟩ : BufTy).Contents (Elt F)),
    reshape main_v9 main_v10 rfl shapeCasts_S524288x32x1x1_S524288x32x1,
    binary main_v8 main_v10 main_v11 (addf : (⟨S524288x32x1, .f32⟩ : BufTy).Contents (Elt F) → (⟨S524288x32x1, .f32⟩ : BufTy).Contents (Elt F) → (⟨S524288x32x1, .f32⟩ : BufTy).Contents (Elt F)),
    binary main_v8 main_v10 main_v12 (subf : (⟨S524288x32x1, .f32⟩ : BufTy).Contents (Elt F) → (⟨S524288x32x1, .f32⟩ : BufTy).Contents (Elt F) → (⟨S524288x32x1, .f32⟩ : BufTy).Contents (Elt F)),
    unary main_v11 main_v13 (broadcastInDim S524288x32x1x1 ![0, 1, 3] bcast_S524288x32x1_S524288x32x1x1_0_1_3 : (⟨S524288x32x1, .f32⟩ : BufTy).Contents (Elt F) → (⟨S524288x32x1x1, .f32⟩ : BufTy).Contents (Elt F)),
    unary main_v12 main_v14 (broadcastInDim S524288x32x1x1 ![0, 1, 3] bcast_S524288x32x1_S524288x32x1x1_0_1_3 : (⟨S524288x32x1, .f32⟩ : BufTy).Contents (Elt F) → (⟨S524288x32x1x1, .f32⟩ : BufTy).Contents (Elt F)),
    binary main_v13 main_v14 main_v15 ((fun a b => concatenate S524288x32x2x1 2 [⟨S524288x32x1x1, a⟩, ⟨S524288x32x1x1, b⟩] concatenates_S524288x32x1x1_S524288x32x1x1_S524288x32x2x1_d2) : (⟨S524288x32x1x1, .f32⟩ : BufTy).Contents (Elt F) → (⟨S524288x32x1x1, .f32⟩ : BufTy).Contents (Elt F) → (⟨S524288x32x2x1, .f32⟩ : BufTy).Contents (Elt F)),
    reshape main_v15 main_v16 rfl shapeCasts_S524288x32x2x1_S524288x64 ]

/-- The first transform's stage at stride 2: recast, the two halves cut out, their sum and difference, put side by side, recast back. -/
abbrev opsA2 : List (HloOp τ sig (Elt F)) :=
  [ reshape main_v16 main_v17 rfl shapeCasts_S524288x64_S524288x16x2x2,
    unary main_v17 main_v18 ((extractStridedSlice S524288x16x1x2 ![0, 0, 0, 0] · slices_S524288x16x2x2_S524288x16x1x2_0_0_0_0) : (⟨S524288x16x2x2, .f32⟩ : BufTy).Contents (Elt F) → (⟨S524288x16x1x2, .f32⟩ : BufTy).Contents (Elt F)),
    reshape main_v18 main_v19 rfl shapeCasts_S524288x16x1x2_S524288x16x2,
    unary main_v17 main_v20 ((extractStridedSlice S524288x16x1x2 ![0, 0, 1, 0] · slices_S524288x16x2x2_S524288x16x1x2_0_0_1_0) : (⟨S524288x16x2x2, .f32⟩ : BufTy).Contents (Elt F) → (⟨S524288x16x1x2, .f32⟩ : BufTy).Contents (Elt F)),
    reshape main_v20 main_v21 rfl shapeCasts_S524288x16x1x2_S524288x16x2,
    binary main_v19 main_v21 main_v22 (addf : (⟨S524288x16x2, .f32⟩ : BufTy).Contents (Elt F) → (⟨S524288x16x2, .f32⟩ : BufTy).Contents (Elt F) → (⟨S524288x16x2, .f32⟩ : BufTy).Contents (Elt F)),
    binary main_v19 main_v21 main_v23 (subf : (⟨S524288x16x2, .f32⟩ : BufTy).Contents (Elt F) → (⟨S524288x16x2, .f32⟩ : BufTy).Contents (Elt F) → (⟨S524288x16x2, .f32⟩ : BufTy).Contents (Elt F)),
    unary main_v22 main_v24 (broadcastInDim S524288x16x1x2 ![0, 1, 3] bcast_S524288x16x2_S524288x16x1x2_0_1_3 : (⟨S524288x16x2, .f32⟩ : BufTy).Contents (Elt F) → (⟨S524288x16x1x2, .f32⟩ : BufTy).Contents (Elt F)),
    unary main_v23 main_v25 (broadcastInDim S524288x16x1x2 ![0, 1, 3] bcast_S524288x16x2_S524288x16x1x2_0_1_3 : (⟨S524288x16x2, .f32⟩ : BufTy).Contents (Elt F) → (⟨S524288x16x1x2, .f32⟩ : BufTy).Contents (Elt F)),
    binary main_v24 main_v25 main_v26 ((fun a b => concatenate S524288x16x2x2 2 [⟨S524288x16x1x2, a⟩, ⟨S524288x16x1x2, b⟩] concatenates_S524288x16x1x2_S524288x16x1x2_S524288x16x2x2_d2) : (⟨S524288x16x1x2, .f32⟩ : BufTy).Contents (Elt F) → (⟨S524288x16x1x2, .f32⟩ : BufTy).Contents (Elt F) → (⟨S524288x16x2x2, .f32⟩ : BufTy).Contents (Elt F)),
    reshape main_v26 main_v27 rfl shapeCasts_S524288x16x2x2_S524288x64 ]

/-- The first transform's stage at stride 4: recast, the two halves cut out, their sum and difference, put side by side, recast back. -/
abbrev opsA3 : List (HloOp τ sig (Elt F)) :=
  [ reshape main_v27 main_v28 rfl shapeCasts_S524288x64_S524288x8x2x4,
    unary main_v28 main_v29 ((extractStridedSlice S524288x8x1x4 ![0, 0, 0, 0] · slices_S524288x8x2x4_S524288x8x1x4_0_0_0_0) : (⟨S524288x8x2x4, .f32⟩ : BufTy).Contents (Elt F) → (⟨S524288x8x1x4, .f32⟩ : BufTy).Contents (Elt F)),
    reshape main_v29 main_v30 rfl shapeCasts_S524288x8x1x4_S524288x8x4,
    unary main_v28 main_v31 ((extractStridedSlice S524288x8x1x4 ![0, 0, 1, 0] · slices_S524288x8x2x4_S524288x8x1x4_0_0_1_0) : (⟨S524288x8x2x4, .f32⟩ : BufTy).Contents (Elt F) → (⟨S524288x8x1x4, .f32⟩ : BufTy).Contents (Elt F)),
    reshape main_v31 main_v32 rfl shapeCasts_S524288x8x1x4_S524288x8x4,
    binary main_v30 main_v32 main_v33 (addf : (⟨S524288x8x4, .f32⟩ : BufTy).Contents (Elt F) → (⟨S524288x8x4, .f32⟩ : BufTy).Contents (Elt F) → (⟨S524288x8x4, .f32⟩ : BufTy).Contents (Elt F)),
    binary main_v30 main_v32 main_v34 (subf : (⟨S524288x8x4, .f32⟩ : BufTy).Contents (Elt F) → (⟨S524288x8x4, .f32⟩ : BufTy).Contents (Elt F) → (⟨S524288x8x4, .f32⟩ : BufTy).Contents (Elt F)),
    unary main_v33 main_v35 (broadcastInDim S524288x8x1x4 ![0, 1, 3] bcast_S524288x8x4_S524288x8x1x4_0_1_3 : (⟨S524288x8x4, .f32⟩ : BufTy).Contents (Elt F) → (⟨S524288x8x1x4, .f32⟩ : BufTy).Contents (Elt F)),
    unary main_v34 main_v36 (broadcastInDim S524288x8x1x4 ![0, 1, 3] bcast_S524288x8x4_S524288x8x1x4_0_1_3 : (⟨S524288x8x4, .f32⟩ : BufTy).Contents (Elt F) → (⟨S524288x8x1x4, .f32⟩ : BufTy).Contents (Elt F)),
    binary main_v35 main_v36 main_v37 ((fun a b => concatenate S524288x8x2x4 2 [⟨S524288x8x1x4, a⟩, ⟨S524288x8x1x4, b⟩] concatenates_S524288x8x1x4_S524288x8x1x4_S524288x8x2x4_d2) : (⟨S524288x8x1x4, .f32⟩ : BufTy).Contents (Elt F) → (⟨S524288x8x1x4, .f32⟩ : BufTy).Contents (Elt F) → (⟨S524288x8x2x4, .f32⟩ : BufTy).Contents (Elt F)),
    reshape main_v37 main_v38 rfl shapeCasts_S524288x8x2x4_S524288x64 ]

/-- The first transform's stage at stride 8: recast, the two halves cut out, their sum and difference, put side by side, recast back. -/
abbrev opsA4 : List (HloOp τ sig (Elt F)) :=
  [ reshape main_v38 main_v39 rfl shapeCasts_S524288x64_S524288x4x2x8,
    unary main_v39 main_v40 ((extractStridedSlice S524288x4x1x8 ![0, 0, 0, 0] · slices_S524288x4x2x8_S524288x4x1x8_0_0_0_0) : (⟨S524288x4x2x8, .f32⟩ : BufTy).Contents (Elt F) → (⟨S524288x4x1x8, .f32⟩ : BufTy).Contents (Elt F)),
    reshape main_v40 main_v41 rfl shapeCasts_S524288x4x1x8_S524288x4x8,
    unary main_v39 main_v42 ((extractStridedSlice S524288x4x1x8 ![0, 0, 1, 0] · slices_S524288x4x2x8_S524288x4x1x8_0_0_1_0) : (⟨S524288x4x2x8, .f32⟩ : BufTy).Contents (Elt F) → (⟨S524288x4x1x8, .f32⟩ : BufTy).Contents (Elt F)),
    reshape main_v42 main_v43 rfl shapeCasts_S524288x4x1x8_S524288x4x8,
    binary main_v41 main_v43 main_v44 (addf : (⟨S524288x4x8, .f32⟩ : BufTy).Contents (Elt F) → (⟨S524288x4x8, .f32⟩ : BufTy).Contents (Elt F) → (⟨S524288x4x8, .f32⟩ : BufTy).Contents (Elt F)),
    binary main_v41 main_v43 main_v45 (subf : (⟨S524288x4x8, .f32⟩ : BufTy).Contents (Elt F) → (⟨S524288x4x8, .f32⟩ : BufTy).Contents (Elt F) → (⟨S524288x4x8, .f32⟩ : BufTy).Contents (Elt F)),
    unary main_v44 main_v46 (broadcastInDim S524288x4x1x8 ![0, 1, 3] bcast_S524288x4x8_S524288x4x1x8_0_1_3 : (⟨S524288x4x8, .f32⟩ : BufTy).Contents (Elt F) → (⟨S524288x4x1x8, .f32⟩ : BufTy).Contents (Elt F)),
    unary main_v45 main_v47 (broadcastInDim S524288x4x1x8 ![0, 1, 3] bcast_S524288x4x8_S524288x4x1x8_0_1_3 : (⟨S524288x4x8, .f32⟩ : BufTy).Contents (Elt F) → (⟨S524288x4x1x8, .f32⟩ : BufTy).Contents (Elt F)),
    binary main_v46 main_v47 main_v48 ((fun a b => concatenate S524288x4x2x8 2 [⟨S524288x4x1x8, a⟩, ⟨S524288x4x1x8, b⟩] concatenates_S524288x4x1x8_S524288x4x1x8_S524288x4x2x8_d2) : (⟨S524288x4x1x8, .f32⟩ : BufTy).Contents (Elt F) → (⟨S524288x4x1x8, .f32⟩ : BufTy).Contents (Elt F) → (⟨S524288x4x2x8, .f32⟩ : BufTy).Contents (Elt F)),
    reshape main_v48 main_v49 rfl shapeCasts_S524288x4x2x8_S524288x64 ]

/-- The first transform's stage at stride 16: recast, the two halves cut out, their sum and difference, put side by side, recast back. -/
abbrev opsA5 : List (HloOp τ sig (Elt F)) :=
  [ reshape main_v49 main_v50 rfl shapeCasts_S524288x64_S524288x2x2x16,
    unary main_v50 main_v51 ((extractStridedSlice S524288x2x1x16 ![0, 0, 0, 0] · slices_S524288x2x2x16_S524288x2x1x16_0_0_0_0) : (⟨S524288x2x2x16, .f32⟩ : BufTy).Contents (Elt F) → (⟨S524288x2x1x16, .f32⟩ : BufTy).Contents (Elt F)),
    reshape main_v51 main_v52 rfl shapeCasts_S524288x2x1x16_S524288x2x16,
    unary main_v50 main_v53 ((extractStridedSlice S524288x2x1x16 ![0, 0, 1, 0] · slices_S524288x2x2x16_S524288x2x1x16_0_0_1_0) : (⟨S524288x2x2x16, .f32⟩ : BufTy).Contents (Elt F) → (⟨S524288x2x1x16, .f32⟩ : BufTy).Contents (Elt F)),
    reshape main_v53 main_v54 rfl shapeCasts_S524288x2x1x16_S524288x2x16,
    binary main_v52 main_v54 main_v55 (addf : (⟨S524288x2x16, .f32⟩ : BufTy).Contents (Elt F) → (⟨S524288x2x16, .f32⟩ : BufTy).Contents (Elt F) → (⟨S524288x2x16, .f32⟩ : BufTy).Contents (Elt F)),
    binary main_v52 main_v54 main_v56 (subf : (⟨S524288x2x16, .f32⟩ : BufTy).Contents (Elt F) → (⟨S524288x2x16, .f32⟩ : BufTy).Contents (Elt F) → (⟨S524288x2x16, .f32⟩ : BufTy).Contents (Elt F)),
    unary main_v55 main_v57 (broadcastInDim S524288x2x1x16 ![0, 1, 3] bcast_S524288x2x16_S524288x2x1x16_0_1_3 : (⟨S524288x2x16, .f32⟩ : BufTy).Contents (Elt F) → (⟨S524288x2x1x16, .f32⟩ : BufTy).Contents (Elt F)),
    unary main_v56 main_v58 (broadcastInDim S524288x2x1x16 ![0, 1, 3] bcast_S524288x2x16_S524288x2x1x16_0_1_3 : (⟨S524288x2x16, .f32⟩ : BufTy).Contents (Elt F) → (⟨S524288x2x1x16, .f32⟩ : BufTy).Contents (Elt F)),
    binary main_v57 main_v58 main_v59 ((fun a b => concatenate S524288x2x2x16 2 [⟨S524288x2x1x16, a⟩, ⟨S524288x2x1x16, b⟩] concatenates_S524288x2x1x16_S524288x2x1x16_S524288x2x2x16_d2) : (⟨S524288x2x1x16, .f32⟩ : BufTy).Contents (Elt F) → (⟨S524288x2x1x16, .f32⟩ : BufTy).Contents (Elt F) → (⟨S524288x2x2x16, .f32⟩ : BufTy).Contents (Elt F)),
    reshape main_v59 main_v60 rfl shapeCasts_S524288x2x2x16_S524288x64 ]

/-- The first transform's stage at stride 32: recast, the two halves cut out, their sum and difference, put side by side, recast back. -/
abbrev opsA6 : List (HloOp τ sig (Elt F)) :=
  [ reshape main_v60 main_v61 rfl shapeCasts_S524288x64_S524288x1x2x32,
    unary main_v61 main_v62 ((extractStridedSlice S524288x1x1x32 ![0, 0, 0, 0] · slices_S524288x1x2x32_S524288x1x1x32_0_0_0_0) : (⟨S524288x1x2x32, .f32⟩ : BufTy).Contents (Elt F) → (⟨S524288x1x1x32, .f32⟩ : BufTy).Contents (Elt F)),
    reshape main_v62 main_v63 rfl shapeCasts_S524288x1x1x32_S524288x1x32,
    unary main_v61 main_v64 ((extractStridedSlice S524288x1x1x32 ![0, 0, 1, 0] · slices_S524288x1x2x32_S524288x1x1x32_0_0_1_0) : (⟨S524288x1x2x32, .f32⟩ : BufTy).Contents (Elt F) → (⟨S524288x1x1x32, .f32⟩ : BufTy).Contents (Elt F)),
    reshape main_v64 main_v65 rfl shapeCasts_S524288x1x1x32_S524288x1x32,
    binary main_v63 main_v65 main_v66 (addf : (⟨S524288x1x32, .f32⟩ : BufTy).Contents (Elt F) → (⟨S524288x1x32, .f32⟩ : BufTy).Contents (Elt F) → (⟨S524288x1x32, .f32⟩ : BufTy).Contents (Elt F)),
    binary main_v63 main_v65 main_v67 (subf : (⟨S524288x1x32, .f32⟩ : BufTy).Contents (Elt F) → (⟨S524288x1x32, .f32⟩ : BufTy).Contents (Elt F) → (⟨S524288x1x32, .f32⟩ : BufTy).Contents (Elt F)),
    unary main_v66 main_v68 (broadcastInDim S524288x1x1x32 ![0, 1, 3] bcast_S524288x1x32_S524288x1x1x32_0_1_3 : (⟨S524288x1x32, .f32⟩ : BufTy).Contents (Elt F) → (⟨S524288x1x1x32, .f32⟩ : BufTy).Contents (Elt F)),
    unary main_v67 main_v69 (broadcastInDim S524288x1x1x32 ![0, 1, 3] bcast_S524288x1x32_S524288x1x1x32_0_1_3 : (⟨S524288x1x32, .f32⟩ : BufTy).Contents (Elt F) → (⟨S524288x1x1x32, .f32⟩ : BufTy).Contents (Elt F)),
    binary main_v68 main_v69 main_v70 ((fun a b => concatenate S524288x1x2x32 2 [⟨S524288x1x1x32, a⟩, ⟨S524288x1x1x32, b⟩] concatenates_S524288x1x1x32_S524288x1x1x32_S524288x1x2x32_d2) : (⟨S524288x1x1x32, .f32⟩ : BufTy).Contents (Elt F) → (⟨S524288x1x1x32, .f32⟩ : BufTy).Contents (Elt F) → (⟨S524288x1x2x32, .f32⟩ : BufTy).Contents (Elt F)),
    reshape main_v70 main_v71 rfl shapeCasts_S524288x1x2x32_S524288x64 ]

/-- The middle operations: the index vector with its negative words wrapped by 64, as a column; the gather of columns; `G` copied down the rows; the product. -/
abbrev opsMid : List (HloOp τ sig (Elt F)) :=
  [ nullary main_c (constantI S_ 32 0#32),
    unary main_c main_v72 (broadcastInDim S64 ![] bcast_S_S64 : (⟨S_, .i32⟩ : BufTy).Contents (Elt F) → (⟨S64, .i32⟩ : BufTy).Contents (Elt F)),
    binary main_arg4 main_v72 main_v73 (cmpi .slt : (⟨S64, .i32⟩ : BufTy).Contents (Elt F) → (⟨S64, .i32⟩ : BufTy).Contents (Elt F) → (⟨S64, .i1⟩ : BufTy).Contents (Elt F)),
    nullary main_c_0 (constantI S_ 32 64#32),
    unary main_c_0 main_v74 (broadcastInDim S64 ![] bcast_S_S64 : (⟨S_, .i32⟩ : BufTy).Contents (Elt F) → (⟨S64, .i32⟩ : BufTy).Contents (Elt F)),
    binary main_arg4 main_v74 main_v75 (addi : (⟨S64, .i32⟩ : BufTy).Contents (Elt F) → (⟨S64, .i32⟩ : BufTy).Contents (Elt F) → (⟨S64, .i32⟩ : BufTy).Contents (Elt F)),
    ternary main_v73 main_v75 main_arg4 main_v76 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v76 main_v77 (broadcastInDim S64x1 ![0] bcast_S64_S64x1_0 : (⟨S64, .i32⟩ : BufTy).Contents (Elt F) → (⟨S64x1, .i32⟩ : BufTy).Contents (Elt F)),
    binary main_v71 main_v77 main_v78 ((fun x i => Host.gather gather_S524288x64_S64x1_S524288x64_0_1_n_n_1_1_5242881 x i) : (⟨S524288x64, .f32⟩ : BufTy).Contents (Elt F) → (⟨S64x1, .i32⟩ : BufTy).Contents (Elt F) → (⟨S524288x64, .f32⟩ : BufTy).Contents (Elt F)),
    unary main_arg2 main_v79 (broadcastInDim S1x64 ![1] bcast_S64_S1x64_1 : (⟨S64, .f32⟩ : BufTy).Contents (Elt F) → (⟨S1x64, .f32⟩ : BufTy).Contents (Elt F)),
    unary main_v79 main_v80 (broadcastInDim S524288x64 ![0, 1] bcast_S1x64_S524288x64_0_1 : (⟨S1x64, .f32⟩ : BufTy).Contents (Elt F) → (⟨S524288x64, .f32⟩ : BufTy).Contents (Elt F)),
    binary main_v78 main_v80 main_v81 (mulf : (⟨S524288x64, .f32⟩ : BufTy).Contents (Elt F) → (⟨S524288x64, .f32⟩ : BufTy).Contents (Elt F) → (⟨S524288x64, .f32⟩ : BufTy).Contents (Elt F)) ]

/-- The second transform's stage at stride 1: recast, the two halves cut out, their sum and difference, put side by side, recast back. -/
abbrev opsB1 : List (HloOp τ sig (Elt F)) :=
  [ reshape main_v81 main_v82 rfl shapeCasts_S524288x64_S524288x32x2x1,
    unary main_v82 main_v83 ((extractStridedSlice S524288x32x1x1 ![0, 0, 0, 0] · slices_S524288x32x2x1_S524288x32x1x1_0_0_0_0) : (⟨S524288x32x2x1, .f32⟩ : BufTy).Contents (Elt F) → (⟨S524288x32x1x1, .f32⟩ : BufTy).Contents (Elt F)),
    reshape main_v83 main_v84 rfl shapeCasts_S524288x32x1x1_S524288x32x1,
    unary main_v82 main_v85 ((extractStridedSlice S524288x32x1x1 ![0, 0, 1, 0] · slices_S524288x32x2x1_S524288x32x1x1_0_0_1_0) : (⟨S524288x32x2x1, .f32⟩ : BufTy).Contents (Elt F) → (⟨S524288x32x1x1, .f32⟩ : BufTy).Contents (Elt F)),
    reshape main_v85 main_v86 rfl shapeCasts_S524288x32x1x1_S524288x32x1,
    binary main_v84 main_v86 main_v87 (addf : (⟨S524288x32x1, .f32⟩ : BufTy).Contents (Elt F) → (⟨S524288x32x1, .f32⟩ : BufTy).Contents (Elt F) → (⟨S524288x32x1, .f32⟩ : BufTy).Contents (Elt F)),
    binary main_v84 main_v86 main_v88 (subf : (⟨S524288x32x1, .f32⟩ : BufTy).Contents (Elt F) → (⟨S524288x32x1, .f32⟩ : BufTy).Contents (Elt F) → (⟨S524288x32x1, .f32⟩ : BufTy).Contents (Elt F)),
    unary main_v87 main_v89 (broadcastInDim S524288x32x1x1 ![0, 1, 3] bcast_S524288x32x1_S524288x32x1x1_0_1_3 : (⟨S524288x32x1, .f32⟩ : BufTy).Contents (Elt F) → (⟨S524288x32x1x1, .f32⟩ : BufTy).Contents (Elt F)),
    unary main_v88 main_v90 (broadcastInDim S524288x32x1x1 ![0, 1, 3] bcast_S524288x32x1_S524288x32x1x1_0_1_3 : (⟨S524288x32x1, .f32⟩ : BufTy).Contents (Elt F) → (⟨S524288x32x1x1, .f32⟩ : BufTy).Contents (Elt F)),
    binary main_v89 main_v90 main_v91 ((fun a b => concatenate S524288x32x2x1 2 [⟨S524288x32x1x1, a⟩, ⟨S524288x32x1x1, b⟩] concatenates_S524288x32x1x1_S524288x32x1x1_S524288x32x2x1_d2) : (⟨S524288x32x1x1, .f32⟩ : BufTy).Contents (Elt F) → (⟨S524288x32x1x1, .f32⟩ : BufTy).Contents (Elt F) → (⟨S524288x32x2x1, .f32⟩ : BufTy).Contents (Elt F)),
    reshape main_v91 main_v92 rfl shapeCasts_S524288x32x2x1_S524288x64 ]

/-- The second transform's stage at stride 2: recast, the two halves cut out, their sum and difference, put side by side, recast back. -/
abbrev opsB2 : List (HloOp τ sig (Elt F)) :=
  [ reshape main_v92 main_v93 rfl shapeCasts_S524288x64_S524288x16x2x2,
    unary main_v93 main_v94 ((extractStridedSlice S524288x16x1x2 ![0, 0, 0, 0] · slices_S524288x16x2x2_S524288x16x1x2_0_0_0_0) : (⟨S524288x16x2x2, .f32⟩ : BufTy).Contents (Elt F) → (⟨S524288x16x1x2, .f32⟩ : BufTy).Contents (Elt F)),
    reshape main_v94 main_v95 rfl shapeCasts_S524288x16x1x2_S524288x16x2,
    unary main_v93 main_v96 ((extractStridedSlice S524288x16x1x2 ![0, 0, 1, 0] · slices_S524288x16x2x2_S524288x16x1x2_0_0_1_0) : (⟨S524288x16x2x2, .f32⟩ : BufTy).Contents (Elt F) → (⟨S524288x16x1x2, .f32⟩ : BufTy).Contents (Elt F)),
    reshape main_v96 main_v97 rfl shapeCasts_S524288x16x1x2_S524288x16x2,
    binary main_v95 main_v97 main_v98 (addf : (⟨S524288x16x2, .f32⟩ : BufTy).Contents (Elt F) → (⟨S524288x16x2, .f32⟩ : BufTy).Contents (Elt F) → (⟨S524288x16x2, .f32⟩ : BufTy).Contents (Elt F)),
    binary main_v95 main_v97 main_v99 (subf : (⟨S524288x16x2, .f32⟩ : BufTy).Contents (Elt F) → (⟨S524288x16x2, .f32⟩ : BufTy).Contents (Elt F) → (⟨S524288x16x2, .f32⟩ : BufTy).Contents (Elt F)),
    unary main_v98 main_v100 (broadcastInDim S524288x16x1x2 ![0, 1, 3] bcast_S524288x16x2_S524288x16x1x2_0_1_3 : (⟨S524288x16x2, .f32⟩ : BufTy).Contents (Elt F) → (⟨S524288x16x1x2, .f32⟩ : BufTy).Contents (Elt F)),
    unary main_v99 main_v101 (broadcastInDim S524288x16x1x2 ![0, 1, 3] bcast_S524288x16x2_S524288x16x1x2_0_1_3 : (⟨S524288x16x2, .f32⟩ : BufTy).Contents (Elt F) → (⟨S524288x16x1x2, .f32⟩ : BufTy).Contents (Elt F)),
    binary main_v100 main_v101 main_v102 ((fun a b => concatenate S524288x16x2x2 2 [⟨S524288x16x1x2, a⟩, ⟨S524288x16x1x2, b⟩] concatenates_S524288x16x1x2_S524288x16x1x2_S524288x16x2x2_d2) : (⟨S524288x16x1x2, .f32⟩ : BufTy).Contents (Elt F) → (⟨S524288x16x1x2, .f32⟩ : BufTy).Contents (Elt F) → (⟨S524288x16x2x2, .f32⟩ : BufTy).Contents (Elt F)),
    reshape main_v102 main_v103 rfl shapeCasts_S524288x16x2x2_S524288x64 ]

/-- The second transform's stage at stride 4: recast, the two halves cut out, their sum and difference, put side by side, recast back. -/
abbrev opsB3 : List (HloOp τ sig (Elt F)) :=
  [ reshape main_v103 main_v104 rfl shapeCasts_S524288x64_S524288x8x2x4,
    unary main_v104 main_v105 ((extractStridedSlice S524288x8x1x4 ![0, 0, 0, 0] · slices_S524288x8x2x4_S524288x8x1x4_0_0_0_0) : (⟨S524288x8x2x4, .f32⟩ : BufTy).Contents (Elt F) → (⟨S524288x8x1x4, .f32⟩ : BufTy).Contents (Elt F)),
    reshape main_v105 main_v106 rfl shapeCasts_S524288x8x1x4_S524288x8x4,
    unary main_v104 main_v107 ((extractStridedSlice S524288x8x1x4 ![0, 0, 1, 0] · slices_S524288x8x2x4_S524288x8x1x4_0_0_1_0) : (⟨S524288x8x2x4, .f32⟩ : BufTy).Contents (Elt F) → (⟨S524288x8x1x4, .f32⟩ : BufTy).Contents (Elt F)),
    reshape main_v107 main_v108 rfl shapeCasts_S524288x8x1x4_S524288x8x4,
    binary main_v106 main_v108 main_v109 (addf : (⟨S524288x8x4, .f32⟩ : BufTy).Contents (Elt F) → (⟨S524288x8x4, .f32⟩ : BufTy).Contents (Elt F) → (⟨S524288x8x4, .f32⟩ : BufTy).Contents (Elt F)),
    binary main_v106 main_v108 main_v110 (subf : (⟨S524288x8x4, .f32⟩ : BufTy).Contents (Elt F) → (⟨S524288x8x4, .f32⟩ : BufTy).Contents (Elt F) → (⟨S524288x8x4, .f32⟩ : BufTy).Contents (Elt F)),
    unary main_v109 main_v111 (broadcastInDim S524288x8x1x4 ![0, 1, 3] bcast_S524288x8x4_S524288x8x1x4_0_1_3 : (⟨S524288x8x4, .f32⟩ : BufTy).Contents (Elt F) → (⟨S524288x8x1x4, .f32⟩ : BufTy).Contents (Elt F)),
    unary main_v110 main_v112 (broadcastInDim S524288x8x1x4 ![0, 1, 3] bcast_S524288x8x4_S524288x8x1x4_0_1_3 : (⟨S524288x8x4, .f32⟩ : BufTy).Contents (Elt F) → (⟨S524288x8x1x4, .f32⟩ : BufTy).Contents (Elt F)),
    binary main_v111 main_v112 main_v113 ((fun a b => concatenate S524288x8x2x4 2 [⟨S524288x8x1x4, a⟩, ⟨S524288x8x1x4, b⟩] concatenates_S524288x8x1x4_S524288x8x1x4_S524288x8x2x4_d2) : (⟨S524288x8x1x4, .f32⟩ : BufTy).Contents (Elt F) → (⟨S524288x8x1x4, .f32⟩ : BufTy).Contents (Elt F) → (⟨S524288x8x2x4, .f32⟩ : BufTy).Contents (Elt F)),
    reshape main_v113 main_v114 rfl shapeCasts_S524288x8x2x4_S524288x64 ]

/-- The second transform's stage at stride 8: recast, the two halves cut out, their sum and difference, put side by side, recast back. -/
abbrev opsB4 : List (HloOp τ sig (Elt F)) :=
  [ reshape main_v114 main_v115 rfl shapeCasts_S524288x64_S524288x4x2x8,
    unary main_v115 main_v116 ((extractStridedSlice S524288x4x1x8 ![0, 0, 0, 0] · slices_S524288x4x2x8_S524288x4x1x8_0_0_0_0) : (⟨S524288x4x2x8, .f32⟩ : BufTy).Contents (Elt F) → (⟨S524288x4x1x8, .f32⟩ : BufTy).Contents (Elt F)),
    reshape main_v116 main_v117 rfl shapeCasts_S524288x4x1x8_S524288x4x8,
    unary main_v115 main_v118 ((extractStridedSlice S524288x4x1x8 ![0, 0, 1, 0] · slices_S524288x4x2x8_S524288x4x1x8_0_0_1_0) : (⟨S524288x4x2x8, .f32⟩ : BufTy).Contents (Elt F) → (⟨S524288x4x1x8, .f32⟩ : BufTy).Contents (Elt F)),
    reshape main_v118 main_v119 rfl shapeCasts_S524288x4x1x8_S524288x4x8,
    binary main_v117 main_v119 main_v120 (addf : (⟨S524288x4x8, .f32⟩ : BufTy).Contents (Elt F) → (⟨S524288x4x8, .f32⟩ : BufTy).Contents (Elt F) → (⟨S524288x4x8, .f32⟩ : BufTy).Contents (Elt F)),
    binary main_v117 main_v119 main_v121 (subf : (⟨S524288x4x8, .f32⟩ : BufTy).Contents (Elt F) → (⟨S524288x4x8, .f32⟩ : BufTy).Contents (Elt F) → (⟨S524288x4x8, .f32⟩ : BufTy).Contents (Elt F)),
    unary main_v120 main_v122 (broadcastInDim S524288x4x1x8 ![0, 1, 3] bcast_S524288x4x8_S524288x4x1x8_0_1_3 : (⟨S524288x4x8, .f32⟩ : BufTy).Contents (Elt F) → (⟨S524288x4x1x8, .f32⟩ : BufTy).Contents (Elt F)),
    unary main_v121 main_v123 (broadcastInDim S524288x4x1x8 ![0, 1, 3] bcast_S524288x4x8_S524288x4x1x8_0_1_3 : (⟨S524288x4x8, .f32⟩ : BufTy).Contents (Elt F) → (⟨S524288x4x1x8, .f32⟩ : BufTy).Contents (Elt F)),
    binary main_v122 main_v123 main_v124 ((fun a b => concatenate S524288x4x2x8 2 [⟨S524288x4x1x8, a⟩, ⟨S524288x4x1x8, b⟩] concatenates_S524288x4x1x8_S524288x4x1x8_S524288x4x2x8_d2) : (⟨S524288x4x1x8, .f32⟩ : BufTy).Contents (Elt F) → (⟨S524288x4x1x8, .f32⟩ : BufTy).Contents (Elt F) → (⟨S524288x4x2x8, .f32⟩ : BufTy).Contents (Elt F)),
    reshape main_v124 main_v125 rfl shapeCasts_S524288x4x2x8_S524288x64 ]

/-- The second transform's stage at stride 16: recast, the two halves cut out, their sum and difference, put side by side, recast back. -/
abbrev opsB5 : List (HloOp τ sig (Elt F)) :=
  [ reshape main_v125 main_v126 rfl shapeCasts_S524288x64_S524288x2x2x16,
    unary main_v126 main_v127 ((extractStridedSlice S524288x2x1x16 ![0, 0, 0, 0] · slices_S524288x2x2x16_S524288x2x1x16_0_0_0_0) : (⟨S524288x2x2x16, .f32⟩ : BufTy).Contents (Elt F) → (⟨S524288x2x1x16, .f32⟩ : BufTy).Contents (Elt F)),
    reshape main_v127 main_v128 rfl shapeCasts_S524288x2x1x16_S524288x2x16,
    unary main_v126 main_v129 ((extractStridedSlice S524288x2x1x16 ![0, 0, 1, 0] · slices_S524288x2x2x16_S524288x2x1x16_0_0_1_0) : (⟨S524288x2x2x16, .f32⟩ : BufTy).Contents (Elt F) → (⟨S524288x2x1x16, .f32⟩ : BufTy).Contents (Elt F)),
    reshape main_v129 main_v130 rfl shapeCasts_S524288x2x1x16_S524288x2x16,
    binary main_v128 main_v130 main_v131 (addf : (⟨S524288x2x16, .f32⟩ : BufTy).Contents (Elt F) → (⟨S524288x2x16, .f32⟩ : BufTy).Contents (Elt F) → (⟨S524288x2x16, .f32⟩ : BufTy).Contents (Elt F)),
    binary main_v128 main_v130 main_v132 (subf : (⟨S524288x2x16, .f32⟩ : BufTy).Contents (Elt F) → (⟨S524288x2x16, .f32⟩ : BufTy).Contents (Elt F) → (⟨S524288x2x16, .f32⟩ : BufTy).Contents (Elt F)),
    unary main_v131 main_v133 (broadcastInDim S524288x2x1x16 ![0, 1, 3] bcast_S524288x2x16_S524288x2x1x16_0_1_3 : (⟨S524288x2x16, .f32⟩ : BufTy).Contents (Elt F) → (⟨S524288x2x1x16, .f32⟩ : BufTy).Contents (Elt F)),
    unary main_v132 main_v134 (broadcastInDim S524288x2x1x16 ![0, 1, 3] bcast_S524288x2x16_S524288x2x1x16_0_1_3 : (⟨S524288x2x16, .f32⟩ : BufTy).Contents (Elt F) → (⟨S524288x2x1x16, .f32⟩ : BufTy).Contents (Elt F)),
    binary main_v133 main_v134 main_v135 ((fun a b => concatenate S524288x2x2x16 2 [⟨S524288x2x1x16, a⟩, ⟨S524288x2x1x16, b⟩] concatenates_S524288x2x1x16_S524288x2x1x16_S524288x2x2x16_d2) : (⟨S524288x2x1x16, .f32⟩ : BufTy).Contents (Elt F) → (⟨S524288x2x1x16, .f32⟩ : BufTy).Contents (Elt F) → (⟨S524288x2x2x16, .f32⟩ : BufTy).Contents (Elt F)),
    reshape main_v135 main_v136 rfl shapeCasts_S524288x2x2x16_S524288x64 ]

/-- The second transform's stage at stride 32: recast, the two halves cut out, their sum and difference, put side by side, recast back. -/
abbrev opsB6 : List (HloOp τ sig (Elt F)) :=
  [ reshape main_v136 main_v137 rfl shapeCasts_S524288x64_S524288x1x2x32,
    unary main_v137 main_v138 ((extractStridedSlice S524288x1x1x32 ![0, 0, 0, 0] · slices_S524288x1x2x32_S524288x1x1x32_0_0_0_0) : (⟨S524288x1x2x32, .f32⟩ : BufTy).Contents (Elt F) → (⟨S524288x1x1x32, .f32⟩ : BufTy).Contents (Elt F)),
    reshape main_v138 main_v139 rfl shapeCasts_S524288x1x1x32_S524288x1x32,
    unary main_v137 main_v140 ((extractStridedSlice S524288x1x1x32 ![0, 0, 1, 0] · slices_S524288x1x2x32_S524288x1x1x32_0_0_1_0) : (⟨S524288x1x2x32, .f32⟩ : BufTy).Contents (Elt F) → (⟨S524288x1x1x32, .f32⟩ : BufTy).Contents (Elt F)),
    reshape main_v140 main_v141 rfl shapeCasts_S524288x1x1x32_S524288x1x32,
    binary main_v139 main_v141 main_v142 (addf : (⟨S524288x1x32, .f32⟩ : BufTy).Contents (Elt F) → (⟨S524288x1x32, .f32⟩ : BufTy).Contents (Elt F) → (⟨S524288x1x32, .f32⟩ : BufTy).Contents (Elt F)),
    binary main_v139 main_v141 main_v143 (subf : (⟨S524288x1x32, .f32⟩ : BufTy).Contents (Elt F) → (⟨S524288x1x32, .f32⟩ : BufTy).Contents (Elt F) → (⟨S524288x1x32, .f32⟩ : BufTy).Contents (Elt F)),
    unary main_v142 main_v144 (broadcastInDim S524288x1x1x32 ![0, 1, 3] bcast_S524288x1x32_S524288x1x1x32_0_1_3 : (⟨S524288x1x32, .f32⟩ : BufTy).Contents (Elt F) → (⟨S524288x1x1x32, .f32⟩ : BufTy).Contents (Elt F)),
    unary main_v143 main_v145 (broadcastInDim S524288x1x1x32 ![0, 1, 3] bcast_S524288x1x32_S524288x1x1x32_0_1_3 : (⟨S524288x1x32, .f32⟩ : BufTy).Contents (Elt F) → (⟨S524288x1x1x32, .f32⟩ : BufTy).Contents (Elt F)),
    binary main_v144 main_v145 main_v146 ((fun a b => concatenate S524288x1x2x32 2 [⟨S524288x1x1x32, a⟩, ⟨S524288x1x1x32, b⟩] concatenates_S524288x1x1x32_S524288x1x1x32_S524288x1x2x32_d2) : (⟨S524288x1x1x32, .f32⟩ : BufTy).Contents (Elt F) → (⟨S524288x1x1x32, .f32⟩ : BufTy).Contents (Elt F) → (⟨S524288x1x2x32, .f32⟩ : BufTy).Contents (Elt F)),
    reshape main_v146 main_v147 rfl shapeCasts_S524288x1x2x32_S524288x64 ]

/-- The closing operations: `S` copied down the rows, the product, the second constant copied everywhere, the product, the recast to the result's shape. -/
abbrev opsOut : List (HloOp τ sig (Elt F)) :=
  [ unary main_arg3 main_v148 (broadcastInDim S1x64 ![1] bcast_S64_S1x64_1 : (⟨S64, .f32⟩ : BufTy).Contents (Elt F) → (⟨S1x64, .f32⟩ : BufTy).Contents (Elt F)),
    unary main_v148 main_v149 (broadcastInDim S524288x64 ![0, 1] bcast_S1x64_S524288x64_0_1 : (⟨S1x64, .f32⟩ : BufTy).Contents (Elt F) → (⟨S524288x64, .f32⟩ : BufTy).Contents (Elt F)),
    binary main_v147 main_v149 main_v150 (mulf : (⟨S524288x64, .f32⟩ : BufTy).Contents (Elt F) → (⟨S524288x64, .f32⟩ : BufTy).Contents (Elt F) → (⟨S524288x64, .f32⟩ : BufTy).Contents (Elt F)),
    nullary main_cst_1 (constant S_ .f32 0x3E000000#32),
    unary main_cst_1 main_v151 (broadcastInDim S524288x64 ![] bcast_S_S524288x64 : (⟨S_, .f32⟩ : BufTy).Contents (Elt F) → (⟨S524288x64, .f32⟩ : BufTy).Contents (Elt F)),
    binary main_v151 main_v150 main_v152 (mulf : (⟨S524288x64, .f32⟩ : BufTy).Contents (Elt F) → (⟨S524288x64, .f32⟩ : BufTy).Contents (Elt F) → (⟨S524288x64, .f32⟩ : BufTy).Contents (Elt F)),
    reshape main_v152 main_v153 rfl shapeCasts_S524288x64_S8x8192x8x64 ]

/-- @main's 158 operations, in order. -/
abbrev ops : List (HloOp τ sig (Elt F)) :=
  opsIn ++ (opsA1 ++ (opsA2 ++ (opsA3 ++ (opsA4 ++ (opsA5 ++ (opsA6 ++ (opsMid ++ (opsB1 ++ (opsB2 ++ (opsB3 ++ (opsB4 ++ (opsB5 ++ (opsB6 ++ (opsOut))))))))))))))

end Lists

/-- The contents after two lines in a row. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

theorem forall_app {p : HloOp τ sig (Elt Ideal) → Prop} {l₁ l₂ : List (HloOp τ sig (Elt Ideal))}
    (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem fresh_app {l₁ l₂ : List (HloOp τ sig (Elt Ideal))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-! ## @main is the line; the line touches TensorCore references only and determines its results -/

set_option maxHeartbeats 4000000 in
theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsIn_sub : (opsIn : List (HloOp τ sig (Elt Ideal))).Forall fun op => op.bufs ⊆ tcRefs τ sig :=
  ⟨nullary_bufs_sub .., unary_bufs_sub .., binary_bufs_sub .., reshape_bufs_sub .., unary_bufs_sub .., unary_bufs_sub .., binary_bufs_sub ..⟩
theorem opsA1_sub : (opsA1 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsA2_sub : (opsA2 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsA3_sub : (opsA3 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsA4_sub : (opsA4 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsA5_sub : (opsA5 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsA6_sub : (opsA6 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsMid_sub : (opsMid : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩
theorem opsB1_sub : (opsB1 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsB2_sub : (opsB2 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsB3_sub : (opsB3 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsB4_sub : (opsB4 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsB5_sub : (opsB5 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsB6_sub : (opsB6 : List (HloOp τ sig (Elt Ideal))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem opsOut_sub : (opsOut : List (HloOp τ sig (Elt Ideal))).Forall fun op => op.bufs ⊆ tcRefs τ sig :=
  ⟨unary_bufs_sub .., unary_bufs_sub .., binary_bufs_sub .., nullary_bufs_sub .., unary_bufs_sub .., binary_bufs_sub .., reshape_bufs_sub ..⟩

theorem ops_sub : (ops : List (HloOp τ sig (Elt Ideal))).Forall fun op => op.bufs ⊆ tcRefs τ sig :=
  forall_app opsIn_sub (forall_app opsA1_sub (forall_app opsA2_sub (forall_app opsA3_sub (forall_app opsA4_sub (forall_app opsA5_sub (forall_app opsA6_sub (forall_app opsMid_sub (forall_app opsB1_sub (forall_app opsB2_sub (forall_app opsB3_sub (forall_app opsB4_sub (forall_app opsB5_sub (forall_app opsB6_sub (opsOut_sub))))))))))))))

theorem opsIn_fresh : ∀ op ∈ (opsIn : List (HloOp τ sig (Elt Ideal))), op.fresh = ∅ := by
  intro _ h; (repeat (cases h with | head => rfl | tail _ h => ?_)); exact nomatch h
theorem opsA1_fresh : ∀ op ∈ (opsA1 : List (HloOp τ sig (Elt Ideal))), op.fresh = ∅ := by
  intro _ h; (repeat (cases h with | head => rfl | tail _ h => ?_)); exact nomatch h
theorem opsA2_fresh : ∀ op ∈ (opsA2 : List (HloOp τ sig (Elt Ideal))), op.fresh = ∅ := by
  intro _ h; (repeat (cases h with | head => rfl | tail _ h => ?_)); exact nomatch h
theorem opsA3_fresh : ∀ op ∈ (opsA3 : List (HloOp τ sig (Elt Ideal))), op.fresh = ∅ := by
  intro _ h; (repeat (cases h with | head => rfl | tail _ h => ?_)); exact nomatch h
theorem opsA4_fresh : ∀ op ∈ (opsA4 : List (HloOp τ sig (Elt Ideal))), op.fresh = ∅ := by
  intro _ h; (repeat (cases h with | head => rfl | tail _ h => ?_)); exact nomatch h
theorem opsA5_fresh : ∀ op ∈ (opsA5 : List (HloOp τ sig (Elt Ideal))), op.fresh = ∅ := by
  intro _ h; (repeat (cases h with | head => rfl | tail _ h => ?_)); exact nomatch h
theorem opsA6_fresh : ∀ op ∈ (opsA6 : List (HloOp τ sig (Elt Ideal))), op.fresh = ∅ := by
  intro _ h; (repeat (cases h with | head => rfl | tail _ h => ?_)); exact nomatch h
theorem opsMid_fresh : ∀ op ∈ (opsMid : List (HloOp τ sig (Elt Ideal))), op.fresh = ∅ := by
  intro _ h; (repeat (cases h with | head => rfl | tail _ h => ?_)); exact nomatch h
theorem opsB1_fresh : ∀ op ∈ (opsB1 : List (HloOp τ sig (Elt Ideal))), op.fresh = ∅ := by
  intro _ h; (repeat (cases h with | head => rfl | tail _ h => ?_)); exact nomatch h
theorem opsB2_fresh : ∀ op ∈ (opsB2 : List (HloOp τ sig (Elt Ideal))), op.fresh = ∅ := by
  intro _ h; (repeat (cases h with | head => rfl | tail _ h => ?_)); exact nomatch h
theorem opsB3_fresh : ∀ op ∈ (opsB3 : List (HloOp τ sig (Elt Ideal))), op.fresh = ∅ := by
  intro _ h; (repeat (cases h with | head => rfl | tail _ h => ?_)); exact nomatch h
theorem opsB4_fresh : ∀ op ∈ (opsB4 : List (HloOp τ sig (Elt Ideal))), op.fresh = ∅ := by
  intro _ h; (repeat (cases h with | head => rfl | tail _ h => ?_)); exact nomatch h
theorem opsB5_fresh : ∀ op ∈ (opsB5 : List (HloOp τ sig (Elt Ideal))), op.fresh = ∅ := by
  intro _ h; (repeat (cases h with | head => rfl | tail _ h => ?_)); exact nomatch h
theorem opsB6_fresh : ∀ op ∈ (opsB6 : List (HloOp τ sig (Elt Ideal))), op.fresh = ∅ := by
  intro _ h; (repeat (cases h with | head => rfl | tail _ h => ?_)); exact nomatch h
theorem opsOut_fresh : ∀ op ∈ (opsOut : List (HloOp τ sig (Elt Ideal))), op.fresh = ∅ := by
  intro _ h; (repeat (cases h with | head => rfl | tail _ h => ?_)); exact nomatch h

theorem ops_fresh : ∀ op ∈ (ops : List (HloOp τ sig (Elt Ideal))), op.fresh = ∅ :=
  fresh_app opsIn_fresh (fresh_app opsA1_fresh (fresh_app opsA2_fresh (fresh_app opsA3_fresh (fresh_app opsA4_fresh (fresh_app opsA5_fresh (fresh_app opsA6_fresh (fresh_app opsMid_fresh (fresh_app opsB1_fresh (fresh_app opsB2_fresh (fresh_app opsB3_fresh (fresh_app opsB4_fresh (fresh_app opsB5_fresh (fresh_app opsB6_fresh (opsOut_fresh))))))))))))))

/-! ## What each chunk writes -/

/-- An operation writes its result reference, which is in the chunk's list. -/
local macro "wr" : term =>
  `(by simp only [nullary_writes, unary_writes, binary_writes, ternary_writes, reshape_writes, Finset.singleton_subset_iff,
      List.mem_toFinset]; exact List.mem_map_of_mem (by decide))

/-- The references `opsIn` writes. -/
abbrev opsIn_W : List (Ref sig .tc) := [main_cst, main_v0, main_v1, main_v2, main_v3, main_v4, main_v5]
theorem opsIn_writes : (opsIn : List (HloOp τ sig (Elt Ideal))).Forall fun op => op.writes ⊆ (opsIn_W.map (Proc.devRef (τ := τ) .tc)).toFinset := by
  simp only [List.Forall]
  exact ⟨wr, wr, wr, wr, wr, wr, wr⟩

/-- The references `opsA1` writes. -/
abbrev opsA1_W : List (Ref sig .tc) := [main_v6, main_v7, main_v8, main_v9, main_v10, main_v11, main_v12, main_v13, main_v14, main_v15, main_v16]
theorem opsA1_writes : (opsA1 : List (HloOp τ sig (Elt Ideal))).Forall fun op => op.writes ⊆ (opsA1_W.map (Proc.devRef (τ := τ) .tc)).toFinset := by
  simp only [List.Forall]
  exact ⟨wr, wr, wr, wr, wr, wr, wr, wr, wr, wr, wr⟩

/-- The references `opsA2` writes. -/
abbrev opsA2_W : List (Ref sig .tc) := [main_v17, main_v18, main_v19, main_v20, main_v21, main_v22, main_v23, main_v24, main_v25, main_v26, main_v27]
theorem opsA2_writes : (opsA2 : List (HloOp τ sig (Elt Ideal))).Forall fun op => op.writes ⊆ (opsA2_W.map (Proc.devRef (τ := τ) .tc)).toFinset := by
  simp only [List.Forall]
  exact ⟨wr, wr, wr, wr, wr, wr, wr, wr, wr, wr, wr⟩

/-- The references `opsA3` writes. -/
abbrev opsA3_W : List (Ref sig .tc) := [main_v28, main_v29, main_v30, main_v31, main_v32, main_v33, main_v34, main_v35, main_v36, main_v37, main_v38]
theorem opsA3_writes : (opsA3 : List (HloOp τ sig (Elt Ideal))).Forall fun op => op.writes ⊆ (opsA3_W.map (Proc.devRef (τ := τ) .tc)).toFinset := by
  simp only [List.Forall]
  exact ⟨wr, wr, wr, wr, wr, wr, wr, wr, wr, wr, wr⟩

/-- The references `opsA4` writes. -/
abbrev opsA4_W : List (Ref sig .tc) := [main_v39, main_v40, main_v41, main_v42, main_v43, main_v44, main_v45, main_v46, main_v47, main_v48, main_v49]
theorem opsA4_writes : (opsA4 : List (HloOp τ sig (Elt Ideal))).Forall fun op => op.writes ⊆ (opsA4_W.map (Proc.devRef (τ := τ) .tc)).toFinset := by
  simp only [List.Forall]
  exact ⟨wr, wr, wr, wr, wr, wr, wr, wr, wr, wr, wr⟩

/-- The references `opsA5` writes. -/
abbrev opsA5_W : List (Ref sig .tc) := [main_v50, main_v51, main_v52, main_v53, main_v54, main_v55, main_v56, main_v57, main_v58, main_v59, main_v60]
theorem opsA5_writes : (opsA5 : List (HloOp τ sig (Elt Ideal))).Forall fun op => op.writes ⊆ (opsA5_W.map (Proc.devRef (τ := τ) .tc)).toFinset := by
  simp only [List.Forall]
  exact ⟨wr, wr, wr, wr, wr, wr, wr, wr, wr, wr, wr⟩

/-- The references `opsA6` writes. -/
abbrev opsA6_W : List (Ref sig .tc) := [main_v61, main_v62, main_v63, main_v64, main_v65, main_v66, main_v67, main_v68, main_v69, main_v70, main_v71]
theorem opsA6_writes : (opsA6 : List (HloOp τ sig (Elt Ideal))).Forall fun op => op.writes ⊆ (opsA6_W.map (Proc.devRef (τ := τ) .tc)).toFinset := by
  simp only [List.Forall]
  exact ⟨wr, wr, wr, wr, wr, wr, wr, wr, wr, wr, wr⟩

/-- The references `opsMid` writes. -/
abbrev opsMid_W : List (Ref sig .tc) := [main_c, main_v72, main_v73, main_c_0, main_v74, main_v75, main_v76, main_v77, main_v78, main_v79, main_v80, main_v81]
theorem opsMid_writes : (opsMid : List (HloOp τ sig (Elt Ideal))).Forall fun op => op.writes ⊆ (opsMid_W.map (Proc.devRef (τ := τ) .tc)).toFinset := by
  simp only [List.Forall]
  exact ⟨wr, wr, wr, wr, wr, wr, wr, wr, wr, wr, wr, wr⟩

/-- The references `opsB1` writes. -/
abbrev opsB1_W : List (Ref sig .tc) := [main_v82, main_v83, main_v84, main_v85, main_v86, main_v87, main_v88, main_v89, main_v90, main_v91, main_v92]
theorem opsB1_writes : (opsB1 : List (HloOp τ sig (Elt Ideal))).Forall fun op => op.writes ⊆ (opsB1_W.map (Proc.devRef (τ := τ) .tc)).toFinset := by
  simp only [List.Forall]
  exact ⟨wr, wr, wr, wr, wr, wr, wr, wr, wr, wr, wr⟩

/-- The references `opsB2` writes. -/
abbrev opsB2_W : List (Ref sig .tc) := [main_v93, main_v94, main_v95, main_v96, main_v97, main_v98, main_v99, main_v100, main_v101, main_v102, main_v103]
theorem opsB2_writes : (opsB2 : List (HloOp τ sig (Elt Ideal))).Forall fun op => op.writes ⊆ (opsB2_W.map (Proc.devRef (τ := τ) .tc)).toFinset := by
  simp only [List.Forall]
  exact ⟨wr, wr, wr, wr, wr, wr, wr, wr, wr, wr, wr⟩

/-- The references `opsB3` writes. -/
abbrev opsB3_W : List (Ref sig .tc) := [main_v104, main_v105, main_v106, main_v107, main_v108, main_v109, main_v110, main_v111, main_v112, main_v113, main_v114]
theorem opsB3_writes : (opsB3 : List (HloOp τ sig (Elt Ideal))).Forall fun op => op.writes ⊆ (opsB3_W.map (Proc.devRef (τ := τ) .tc)).toFinset := by
  simp only [List.Forall]
  exact ⟨wr, wr, wr, wr, wr, wr, wr, wr, wr, wr, wr⟩

/-- The references `opsB4` writes. -/
abbrev opsB4_W : List (Ref sig .tc) := [main_v115, main_v116, main_v117, main_v118, main_v119, main_v120, main_v121, main_v122, main_v123, main_v124, main_v125]
theorem opsB4_writes : (opsB4 : List (HloOp τ sig (Elt Ideal))).Forall fun op => op.writes ⊆ (opsB4_W.map (Proc.devRef (τ := τ) .tc)).toFinset := by
  simp only [List.Forall]
  exact ⟨wr, wr, wr, wr, wr, wr, wr, wr, wr, wr, wr⟩

/-- The references `opsB5` writes. -/
abbrev opsB5_W : List (Ref sig .tc) := [main_v126, main_v127, main_v128, main_v129, main_v130, main_v131, main_v132, main_v133, main_v134, main_v135, main_v136]
theorem opsB5_writes : (opsB5 : List (HloOp τ sig (Elt Ideal))).Forall fun op => op.writes ⊆ (opsB5_W.map (Proc.devRef (τ := τ) .tc)).toFinset := by
  simp only [List.Forall]
  exact ⟨wr, wr, wr, wr, wr, wr, wr, wr, wr, wr, wr⟩

/-- The references `opsB6` writes. -/
abbrev opsB6_W : List (Ref sig .tc) := [main_v137, main_v138, main_v139, main_v140, main_v141, main_v142, main_v143, main_v144, main_v145, main_v146, main_v147]
theorem opsB6_writes : (opsB6 : List (HloOp τ sig (Elt Ideal))).Forall fun op => op.writes ⊆ (opsB6_W.map (Proc.devRef (τ := τ) .tc)).toFinset := by
  simp only [List.Forall]
  exact ⟨wr, wr, wr, wr, wr, wr, wr, wr, wr, wr, wr⟩

/-- The references `opsOut` writes. -/
abbrev opsOut_W : List (Ref sig .tc) := [main_v148, main_v149, main_v150, main_cst_1, main_v151, main_v152, main_v153]
theorem opsOut_writes : (opsOut : List (HloOp τ sig (Elt Ideal))).Forall fun op => op.writes ⊆ (opsOut_W.map (Proc.devRef (τ := τ) .tc)).toFinset := by
  simp only [List.Forall]
  exact ⟨wr, wr, wr, wr, wr, wr, wr⟩

/-! ## What each chunk leaves in its last buffer -/

theorem opsIn_res (V : Valuation τ sig (Elt Ideal)) :
    @Eq (FVec Ideal S524288x64 .f32) (after opsIn V (Proc.devRef .tc main_v5))
      (scaleIn (V (Proc.devRef .tc main_arg0)) (V (Proc.devRef .tc main_arg1))) := by
  simp only [opsIn]
  after_results_simp <;> rfl

theorem opsA1_res (V : Valuation τ sig (Elt Ideal)) :
    @Eq (FVec Ideal S524288x64 .f32) (after opsA1 V (Proc.devRef .tc main_v16)) (st1 (V (Proc.devRef .tc main_v5))) := by
  simp only [opsA1]
  after_results_simp <;> rfl

theorem opsA2_res (V : Valuation τ sig (Elt Ideal)) :
    @Eq (FVec Ideal S524288x64 .f32) (after opsA2 V (Proc.devRef .tc main_v27)) (st2 (V (Proc.devRef .tc main_v16))) := by
  simp only [opsA2]
  after_results_simp <;> rfl

theorem opsA3_res (V : Valuation τ sig (Elt Ideal)) :
    @Eq (FVec Ideal S524288x64 .f32) (after opsA3 V (Proc.devRef .tc main_v38)) (st4 (V (Proc.devRef .tc main_v27))) := by
  simp only [opsA3]
  after_results_simp <;> rfl

theorem opsA4_res (V : Valuation τ sig (Elt Ideal)) :
    @Eq (FVec Ideal S524288x64 .f32) (after opsA4 V (Proc.devRef .tc main_v49)) (st8 (V (Proc.devRef .tc main_v38))) := by
  simp only [opsA4]
  after_results_simp <;> rfl

theorem opsA5_res (V : Valuation τ sig (Elt Ideal)) :
    @Eq (FVec Ideal S524288x64 .f32) (after opsA5 V (Proc.devRef .tc main_v60)) (st16 (V (Proc.devRef .tc main_v49))) := by
  simp only [opsA5]
  after_results_simp <;> rfl

theorem opsA6_res (V : Valuation τ sig (Elt Ideal)) :
    @Eq (FVec Ideal S524288x64 .f32) (after opsA6 V (Proc.devRef .tc main_v71)) (st32 (V (Proc.devRef .tc main_v60))) := by
  simp only [opsA6]
  after_results_simp <;> rfl

theorem opsB1_res (V : Valuation τ sig (Elt Ideal)) :
    @Eq (FVec Ideal S524288x64 .f32) (after opsB1 V (Proc.devRef .tc main_v92)) (st1 (V (Proc.devRef .tc main_v81))) := by
  simp only [opsB1]
  after_results_simp <;> rfl

theorem opsB2_res (V : Valuation τ sig (Elt Ideal)) :
    @Eq (FVec Ideal S524288x64 .f32) (after opsB2 V (Proc.devRef .tc main_v103)) (st2 (V (Proc.devRef .tc main_v92))) := by
  simp only [opsB2]
  after_results_simp <;> rfl

theorem opsB3_res (V : Valuation τ sig (Elt Ideal)) :
    @Eq (FVec Ideal S524288x64 .f32) (after opsB3 V (Proc.devRef .tc main_v114)) (st4 (V (Proc.devRef .tc main_v103))) := by
  simp only [opsB3]
  after_results_simp <;> rfl

theorem opsB4_res (V : Valuation τ sig (Elt Ideal)) :
    @Eq (FVec Ideal S524288x64 .f32) (after opsB4 V (Proc.devRef .tc main_v125)) (st8 (V (Proc.devRef .tc main_v114))) := by
  simp only [opsB4]
  after_results_simp <;> rfl

theorem opsB5_res (V : Valuation τ sig (Elt Ideal)) :
    @Eq (FVec Ideal S524288x64 .f32) (after opsB5 V (Proc.devRef .tc main_v136)) (st16 (V (Proc.devRef .tc main_v125))) := by
  simp only [opsB5]
  after_results_simp <;> rfl

theorem opsB6_res (V : Valuation τ sig (Elt Ideal)) :
    @Eq (FVec Ideal S524288x64 .f32) (after opsB6 V (Proc.devRef .tc main_v147)) (st32 (V (Proc.devRef .tc main_v136))) := by
  simp only [opsB6]
  after_results_simp <;> rfl

theorem opsMid_res (V : Valuation τ sig (Elt Ideal)) :
    @Eq (FVec Ideal S524288x64 .f32) (after opsMid V (Proc.devRef .tc main_v81))
      (gatherMul (V (Proc.devRef .tc main_v71)) (V (Proc.devRef .tc main_arg4)) (V (Proc.devRef .tc main_arg2))) := by
  simp only [opsMid]
  after_results_simp <;> rfl

theorem opsOut_res (V : Valuation τ sig (Elt Ideal)) :
    @Eq (FVec Ideal S8x8192x8x64 .f32) (after opsOut V (Proc.devRef .tc main_v153))
      (shapeCast S8x8192x8x64 (scaleOut (V (Proc.devRef .tc main_v147)) (V (Proc.devRef .tc main_arg3))) shapeCasts_S524288x64_S8x8192x8x64) := by
  simp only [opsOut]
  after_results_simp <;> rfl

/-! ## The contents chunk after chunk -/

/-- The contents after the opening operations. -/
def q1 (V0 : Valuation τ sig (Elt Ideal)) : Valuation τ sig (Elt Ideal) := after opsIn V0
/-- The contents after the first 2 chunks. -/
def q2 (V0 : Valuation τ sig (Elt Ideal)) : Valuation τ sig (Elt Ideal) := after opsA1 (q1 V0)
/-- The contents after the first 3 chunks. -/
def q3 (V0 : Valuation τ sig (Elt Ideal)) : Valuation τ sig (Elt Ideal) := after opsA2 (q2 V0)
/-- The contents after the first 4 chunks. -/
def q4 (V0 : Valuation τ sig (Elt Ideal)) : Valuation τ sig (Elt Ideal) := after opsA3 (q3 V0)
/-- The contents after the first 5 chunks. -/
def q5 (V0 : Valuation τ sig (Elt Ideal)) : Valuation τ sig (Elt Ideal) := after opsA4 (q4 V0)
/-- The contents after the first 6 chunks. -/
def q6 (V0 : Valuation τ sig (Elt Ideal)) : Valuation τ sig (Elt Ideal) := after opsA5 (q5 V0)
/-- The contents after the first 7 chunks. -/
def q7 (V0 : Valuation τ sig (Elt Ideal)) : Valuation τ sig (Elt Ideal) := after opsA6 (q6 V0)
/-- The contents after the first 8 chunks. -/
def q8 (V0 : Valuation τ sig (Elt Ideal)) : Valuation τ sig (Elt Ideal) := after opsMid (q7 V0)
/-- The contents after the first 9 chunks. -/
def q9 (V0 : Valuation τ sig (Elt Ideal)) : Valuation τ sig (Elt Ideal) := after opsB1 (q8 V0)
/-- The contents after the first 10 chunks. -/
def q10 (V0 : Valuation τ sig (Elt Ideal)) : Valuation τ sig (Elt Ideal) := after opsB2 (q9 V0)
/-- The contents after the first 11 chunks. -/
def q11 (V0 : Valuation τ sig (Elt Ideal)) : Valuation τ sig (Elt Ideal) := after opsB3 (q10 V0)
/-- The contents after the first 12 chunks. -/
def q12 (V0 : Valuation τ sig (Elt Ideal)) : Valuation τ sig (Elt Ideal) := after opsB4 (q11 V0)
/-- The contents after the first 13 chunks. -/
def q13 (V0 : Valuation τ sig (Elt Ideal)) : Valuation τ sig (Elt Ideal) := after opsB5 (q12 V0)
/-- The contents after the first 14 chunks. -/
def q14 (V0 : Valuation τ sig (Elt Ideal)) : Valuation τ sig (Elt Ideal) := after opsB6 (q13 V0)
/-- The contents after the first 15 chunks. -/
def q15 (V0 : Valuation τ sig (Elt Ideal)) : Valuation τ sig (Elt Ideal) := after opsOut (q14 V0)

theorem after_ops (V0 : Valuation τ sig (Elt Ideal)) : after ops V0 = q15 V0 := by
  simp only [ops, after_app, q1, q2, q3, q4, q5, q6, q7, q8, q9, q10, q11, q12, q13, q14, q15]

/-! ## The argument references: no chunk writes them, so they keep their launch contents throughout -/

/-- @main's five argument references. -/
abbrev argRefs : List (Ref sig .tc) := [main_arg0, main_arg1, main_arg2, main_arg3, main_arg4]

theorem opsIn_args : ∀ r ∈ argRefs, r ∉ opsIn_W := by decide
theorem opsA1_args : ∀ r ∈ argRefs, r ∉ opsA1_W := by decide
theorem opsA2_args : ∀ r ∈ argRefs, r ∉ opsA2_W := by decide
theorem opsA3_args : ∀ r ∈ argRefs, r ∉ opsA3_W := by decide
theorem opsA4_args : ∀ r ∈ argRefs, r ∉ opsA4_W := by decide
theorem opsA5_args : ∀ r ∈ argRefs, r ∉ opsA5_W := by decide
theorem opsA6_args : ∀ r ∈ argRefs, r ∉ opsA6_W := by decide
theorem opsMid_args : ∀ r ∈ argRefs, r ∉ opsMid_W := by decide
theorem opsB1_args : ∀ r ∈ argRefs, r ∉ opsB1_W := by decide
theorem opsB2_args : ∀ r ∈ argRefs, r ∉ opsB2_W := by decide
theorem opsB3_args : ∀ r ∈ argRefs, r ∉ opsB3_W := by decide
theorem opsB4_args : ∀ r ∈ argRefs, r ∉ opsB4_W := by decide
theorem opsB5_args : ∀ r ∈ argRefs, r ∉ opsB5_W := by decide
theorem opsB6_args : ∀ r ∈ argRefs, r ∉ opsB6_W := by decide
theorem opsOut_args : ∀ r ∈ argRefs, r ∉ opsOut_W := by decide

theorem k1 (V0 : Valuation τ sig (Elt Ideal)) (r : Ref sig .tc) (h : r ∈ argRefs) :
    q1 V0 (Proc.devRef .tc r) = V0 (Proc.devRef .tc r) :=
  after_of_writes_sub opsIn V0 opsIn_writes (opsIn_args r h)
theorem k2 (V0 : Valuation τ sig (Elt Ideal)) (r : Ref sig .tc) (h : r ∈ argRefs) :
    q2 V0 (Proc.devRef .tc r) = V0 (Proc.devRef .tc r) :=
  (after_of_writes_sub opsA1 (q1 V0) opsA1_writes (opsA1_args r h)).trans (k1 V0 r h)
theorem k3 (V0 : Valuation τ sig (Elt Ideal)) (r : Ref sig .tc) (h : r ∈ argRefs) :
    q3 V0 (Proc.devRef .tc r) = V0 (Proc.devRef .tc r) :=
  (after_of_writes_sub opsA2 (q2 V0) opsA2_writes (opsA2_args r h)).trans (k2 V0 r h)
theorem k4 (V0 : Valuation τ sig (Elt Ideal)) (r : Ref sig .tc) (h : r ∈ argRefs) :
    q4 V0 (Proc.devRef .tc r) = V0 (Proc.devRef .tc r) :=
  (after_of_writes_sub opsA3 (q3 V0) opsA3_writes (opsA3_args r h)).trans (k3 V0 r h)
theorem k5 (V0 : Valuation τ sig (Elt Ideal)) (r : Ref sig .tc) (h : r ∈ argRefs) :
    q5 V0 (Proc.devRef .tc r) = V0 (Proc.devRef .tc r) :=
  (after_of_writes_sub opsA4 (q4 V0) opsA4_writes (opsA4_args r h)).trans (k4 V0 r h)
theorem k6 (V0 : Valuation τ sig (Elt Ideal)) (r : Ref sig .tc) (h : r ∈ argRefs) :
    q6 V0 (Proc.devRef .tc r) = V0 (Proc.devRef .tc r) :=
  (after_of_writes_sub opsA5 (q5 V0) opsA5_writes (opsA5_args r h)).trans (k5 V0 r h)
theorem k7 (V0 : Valuation τ sig (Elt Ideal)) (r : Ref sig .tc) (h : r ∈ argRefs) :
    q7 V0 (Proc.devRef .tc r) = V0 (Proc.devRef .tc r) :=
  (after_of_writes_sub opsA6 (q6 V0) opsA6_writes (opsA6_args r h)).trans (k6 V0 r h)
theorem k8 (V0 : Valuation τ sig (Elt Ideal)) (r : Ref sig .tc) (h : r ∈ argRefs) :
    q8 V0 (Proc.devRef .tc r) = V0 (Proc.devRef .tc r) :=
  (after_of_writes_sub opsMid (q7 V0) opsMid_writes (opsMid_args r h)).trans (k7 V0 r h)
theorem k9 (V0 : Valuation τ sig (Elt Ideal)) (r : Ref sig .tc) (h : r ∈ argRefs) :
    q9 V0 (Proc.devRef .tc r) = V0 (Proc.devRef .tc r) :=
  (after_of_writes_sub opsB1 (q8 V0) opsB1_writes (opsB1_args r h)).trans (k8 V0 r h)
theorem k10 (V0 : Valuation τ sig (Elt Ideal)) (r : Ref sig .tc) (h : r ∈ argRefs) :
    q10 V0 (Proc.devRef .tc r) = V0 (Proc.devRef .tc r) :=
  (after_of_writes_sub opsB2 (q9 V0) opsB2_writes (opsB2_args r h)).trans (k9 V0 r h)
theorem k11 (V0 : Valuation τ sig (Elt Ideal)) (r : Ref sig .tc) (h : r ∈ argRefs) :
    q11 V0 (Proc.devRef .tc r) = V0 (Proc.devRef .tc r) :=
  (after_of_writes_sub opsB3 (q10 V0) opsB3_writes (opsB3_args r h)).trans (k10 V0 r h)
theorem k12 (V0 : Valuation τ sig (Elt Ideal)) (r : Ref sig .tc) (h : r ∈ argRefs) :
    q12 V0 (Proc.devRef .tc r) = V0 (Proc.devRef .tc r) :=
  (after_of_writes_sub opsB4 (q11 V0) opsB4_writes (opsB4_args r h)).trans (k11 V0 r h)
theorem k13 (V0 : Valuation τ sig (Elt Ideal)) (r : Ref sig .tc) (h : r ∈ argRefs) :
    q13 V0 (Proc.devRef .tc r) = V0 (Proc.devRef .tc r) :=
  (after_of_writes_sub opsB5 (q12 V0) opsB5_writes (opsB5_args r h)).trans (k12 V0 r h)
theorem k14 (V0 : Valuation τ sig (Elt Ideal)) (r : Ref sig .tc) (h : r ∈ argRefs) :
    q14 V0 (Proc.devRef .tc r) = V0 (Proc.devRef .tc r) :=
  (after_of_writes_sub opsB6 (q13 V0) opsB6_writes (opsB6_args r h)).trans (k13 V0 r h)
theorem k15 (V0 : Valuation τ sig (Elt Ideal)) (r : Ref sig .tc) (h : r ∈ argRefs) :
    q15 V0 (Proc.devRef .tc r) = V0 (Proc.devRef .tc r) :=
  (after_of_writes_sub opsOut (q14 V0) opsOut_writes (opsOut_args r h)).trans (k14 V0 r h)

/-! ## The array each chunk leaves, in terms of the launch contents -/

theorem v1 (V0 : Valuation τ sig (Elt Ideal)) :
    @Eq (FVec Ideal S524288x64 .f32) (q1 V0 (Proc.devRef .tc main_v5)) (scaleIn (V0 (Proc.devRef .tc main_arg0)) (V0 (Proc.devRef .tc main_arg1))) :=
  opsIn_res V0
theorem v2 (V0 : Valuation τ sig (Elt Ideal)) :
    @Eq (FVec Ideal S524288x64 .f32) (q2 V0 (Proc.devRef .tc main_v16)) (st1 (scaleIn (V0 (Proc.devRef .tc main_arg0)) (V0 (Proc.devRef .tc main_arg1)))) :=
  (opsA1_res (q1 V0)).trans (congrArg st1 (v1 V0))
theorem v3 (V0 : Valuation τ sig (Elt Ideal)) :
    @Eq (FVec Ideal S524288x64 .f32) (q3 V0 (Proc.devRef .tc main_v27)) (st2 (st1 (scaleIn (V0 (Proc.devRef .tc main_arg0)) (V0 (Proc.devRef .tc main_arg1))))) :=
  (opsA2_res (q2 V0)).trans (congrArg st2 (v2 V0))
theorem v4 (V0 : Valuation τ sig (Elt Ideal)) :
    @Eq (FVec Ideal S524288x64 .f32) (q4 V0 (Proc.devRef .tc main_v38)) (st4 (st2 (st1 (scaleIn (V0 (Proc.devRef .tc main_arg0)) (V0 (Proc.devRef .tc main_arg1)))))) :=
  (opsA3_res (q3 V0)).trans (congrArg st4 (v3 V0))
theorem v5 (V0 : Valuation τ sig (Elt Ideal)) :
    @Eq (FVec Ideal S524288x64 .f32) (q5 V0 (Proc.devRef .tc main_v49)) (st8 (st4 (st2 (st1 (scaleIn (V0 (Proc.devRef .tc main_arg0)) (V0 (Proc.devRef .tc main_arg1))))))) :=
  (opsA4_res (q4 V0)).trans (congrArg st8 (v4 V0))
theorem v6 (V0 : Valuation τ sig (Elt Ideal)) :
    @Eq (FVec Ideal S524288x64 .f32) (q6 V0 (Proc.devRef .tc main_v60)) (st16 (st8 (st4 (st2 (st1 (scaleIn (V0 (Proc.devRef .tc main_arg0)) (V0 (Proc.devRef .tc main_arg1)))))))) :=
  (opsA5_res (q5 V0)).trans (congrArg st16 (v5 V0))
theorem v7 (V0 : Valuation τ sig (Elt Ideal)) :
    @Eq (FVec Ideal S524288x64 .f32) (q7 V0 (Proc.devRef .tc main_v71)) (six (scaleIn (V0 (Proc.devRef .tc main_arg0)) (V0 (Proc.devRef .tc main_arg1)))) :=
  (opsA6_res (q6 V0)).trans (congrArg st32 (v6 V0))
theorem v8 (V0 : Valuation τ sig (Elt Ideal)) :
    @Eq (FVec Ideal S524288x64 .f32) (q8 V0 (Proc.devRef .tc main_v81)) (gatherMul (six (scaleIn (V0 (Proc.devRef .tc main_arg0)) (V0 (Proc.devRef .tc main_arg1)))) (V0 (Proc.devRef .tc main_arg4)) (V0 (Proc.devRef .tc main_arg2))) := by
  refine (opsMid_res (q7 V0)).trans ?_
  rw [v7 V0, k7 V0 main_arg4 (by decide), k7 V0 main_arg2 (by decide)]
theorem v9 (V0 : Valuation τ sig (Elt Ideal)) :
    @Eq (FVec Ideal S524288x64 .f32) (q9 V0 (Proc.devRef .tc main_v92)) (st1 (gatherMul (six (scaleIn (V0 (Proc.devRef .tc main_arg0)) (V0 (Proc.devRef .tc main_arg1)))) (V0 (Proc.devRef .tc main_arg4)) (V0 (Proc.devRef .tc main_arg2)))) :=
  (opsB1_res (q8 V0)).trans (congrArg st1 (v8 V0))
theorem v10 (V0 : Valuation τ sig (Elt Ideal)) :
    @Eq (FVec Ideal S524288x64 .f32) (q10 V0 (Proc.devRef .tc main_v103)) (st2 (st1 (gatherMul (six (scaleIn (V0 (Proc.devRef .tc main_arg0)) (V0 (Proc.devRef .tc main_arg1)))) (V0 (Proc.devRef .tc main_arg4)) (V0 (Proc.devRef .tc main_arg2))))) :=
  (opsB2_res (q9 V0)).trans (congrArg st2 (v9 V0))
theorem v11 (V0 : Valuation τ sig (Elt Ideal)) :
    @Eq (FVec Ideal S524288x64 .f32) (q11 V0 (Proc.devRef .tc main_v114)) (st4 (st2 (st1 (gatherMul (six (scaleIn (V0 (Proc.devRef .tc main_arg0)) (V0 (Proc.devRef .tc main_arg1)))) (V0 (Proc.devRef .tc main_arg4)) (V0 (Proc.devRef .tc main_arg2)))))) :=
  (opsB3_res (q10 V0)).trans (congrArg st4 (v10 V0))
theorem v12 (V0 : Valuation τ sig (Elt Ideal)) :
    @Eq (FVec Ideal S524288x64 .f32) (q12 V0 (Proc.devRef .tc main_v125)) (st8 (st4 (st2 (st1 (gatherMul (six (scaleIn (V0 (Proc.devRef .tc main_arg0)) (V0 (Proc.devRef .tc main_arg1)))) (V0 (Proc.devRef .tc main_arg4)) (V0 (Proc.devRef .tc main_arg2))))))) :=
  (opsB4_res (q11 V0)).trans (congrArg st8 (v11 V0))
theorem v13 (V0 : Valuation τ sig (Elt Ideal)) :
    @Eq (FVec Ideal S524288x64 .f32) (q13 V0 (Proc.devRef .tc main_v136)) (st16 (st8 (st4 (st2 (st1 (gatherMul (six (scaleIn (V0 (Proc.devRef .tc main_arg0)) (V0 (Proc.devRef .tc main_arg1)))) (V0 (Proc.devRef .tc main_arg4)) (V0 (Proc.devRef .tc main_arg2)))))))) :=
  (opsB5_res (q12 V0)).trans (congrArg st16 (v12 V0))
theorem v14 (V0 : Valuation τ sig (Elt Ideal)) :
    @Eq (FVec Ideal S524288x64 .f32) (q14 V0 (Proc.devRef .tc main_v147)) (six (gatherMul (six (scaleIn (V0 (Proc.devRef .tc main_arg0)) (V0 (Proc.devRef .tc main_arg1)))) (V0 (Proc.devRef .tc main_arg4)) (V0 (Proc.devRef .tc main_arg2)))) :=
  (opsB6_res (q13 V0)).trans (congrArg st32 (v13 V0))
theorem v15 (V0 : Valuation τ sig (Elt Ideal)) :
    @Eq (FVec Ideal S8x8192x8x64 .f32) (q15 V0 (Proc.devRef .tc main_v153))
      (shapeCast S8x8192x8x64 (refFun (V0 (Proc.devRef .tc main_arg0)) (V0 (Proc.devRef .tc main_arg1)) (V0 (Proc.devRef .tc main_arg2))
        (V0 (Proc.devRef .tc main_arg3)) (V0 (Proc.devRef .tc main_arg4))) shapeCasts_S524288x64_S8x8192x8x64) := by
  refine (opsOut_res (q14 V0)).trans ?_
  rw [v14 V0, k14 V0 main_arg3 (by decide)]
  rfl

/-! ## The run -/

/-- THE REFERENCE'S RUN: on every device, from any memory with zero counters, every weakly fair execution of @main ends with the
    result buffer at the recast of `refFun` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v153)
          = shapeCast S8x8192x8x64 (refFun (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
            shapeCasts_S524288x64_S8x8192x8x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h c main_v153).trans ((congrFun (after_ops (launchContents m c)) _).trans (v15 (launchContents m c))),
       (h c main_arg0).trans ((congrFun (after_ops (launchContents m c)) _).trans (k15 (launchContents m c) main_arg0 (by decide))),
       (h c main_arg1).trans ((congrFun (after_ops (launchContents m c)) _).trans (k15 (launchContents m c) main_arg1 (by decide))),
       (h c main_arg2).trans ((congrFun (after_ops (launchContents m c)) _).trans (k15 (launchContents m c) main_arg2 (by decide))),
       (h c main_arg3).trans ((congrFun (after_ops (launchContents m c)) _).trans (k15 (launchContents m c) main_arg3 (by decide))),
       (h c main_arg4).trans ((congrFun (after_ops (launchContents m c)) _).trans (k15 (launchContents m c) main_arg4 (by decide)))⟩)
    (run_seq scopedRefs_eq scopedSems_eq defs main (fun _ => ops) main_eq (fun _ => ops_sub) m ρ (fun _ => ops_fresh))

end Cert.ReferenceIdeal.RRun

end
-- ==== Proof.Gather.lean ====
/-
  The reference's column gather read at an index: `y[:, idx]` on a [524288, 64] array with 64 start indices takes, for
  result column `k`, the operand's column named by the `k`-th start index, read as a signed word and clamped into [0, 63];
  the row is the result's row.
-/
import proofs.«413175_j7078106103911_1_alg».proof.ReferenceIdeal
import proofs.«413175_j7078106103911_1_alg».proof.Proof.Gen.ReferenceIdeal
import Idealize.ShloMosaic.Lib.ValueIdx
import Idealize.ShloMosaic.Lib.Pipeline.Value

noncomputable section

namespace Cert.Fastfood

open Idealize.ShloMosaic Idealize.ShloMosaic.ValueIdx Cert.ReferenceIdeal Cert.ReferenceIdeal.Facts Cert.ReferenceIdeal.Facts₀

/-- THE GATHER READ AT `(row, k)`: the operand at row `row` and the column the `k`-th start index names, clamped into [0, 63]. -/
theorem gather_cols_apply {α : Type} (y : S524288x64.Idx → α) (idx : IVec S64x1 32) (row : Fin 524288) (k : Fin 64) :
    Host.gather gather_S524288x64_S64x1_S524288x64_0_1_n_n_1_1_5242881 y idx (ix2 row k)
      = y (ix2 row ⟨min (idx (ix2 k (0 : Fin 1))).toInt.toNat 63, by omega⟩) := by
  -- The gather reads the operand at the operand index; two indices agree when they agree on each axis as naturals.
  unfold Host.gather
  congr 1
  funext a
  refine Fin.ext ?_
  -- On every operand axis the coordinate is (clamped start) + (batching coordinate) + (offset coordinate).
  show gather_S524288x64_S64x1_S524288x64_0_1_n_n_1_1_5242881.start (ix2 row k) idx a
      + gather_S524288x64_S64x1_S524288x64_0_1_n_n_1_1_5242881.batchCoord (ix2 row k) a
      + gather_S524288x64_S64x1_S524288x64_0_1_n_n_1_1_5242881.offCoord (ix2 row k) a = _
  -- There are no batching axes, so the batching coordinate vanishes on both axes.
  rw [GatherDims.batchCoord_eq_zero _ _ _ List.not_mem_nil]
  match a with
  | ⟨0, _⟩ =>
    -- Rows: the start index map does not name axis 0, so the start is 0; axis 0 is the only kept axis and the
    -- result's only offset axis reads it, so the offset coordinate is the result's row: 0 + 0 + row = row.
    have hs : gather_S524288x64_S64x1_S524288x64_0_1_n_n_1_1_5242881.start (ix2 row k) idx ⟨0, by decide⟩ = 0 := by
      unfold GatherDims.start
      rw [dif_neg (by decide)]
    rw [hs]
    simp only [Nat.add_zero, Nat.zero_add]
    rfl
  | ⟨1, _⟩ =>
    -- Columns: axis 1 is collapsed, so it has no offset coordinate; it is the one axis the start index map names, so
    -- the start is the start index's single component, read signed and clamped to [0, 64 - 1].
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S524288x64.rank) ∈ gather_S524288x64_S64x1_S524288x64_0_1_n_n_1_1_5242881.startIndexMap from List.mem_singleton.mpr rfl)]
    -- Result index (row, k) reads that component at start-indices index [k, 0]: its batch coordinate k on axis 0, and
    -- component 0 on the index vector's axis.
    have hsi : gather_S524288x64_S64x1_S524288x64_0_1_n_n_1_1_5242881.siIdx (ix2 row k)
        ⟨List.idxOf (⟨1, by decide⟩ : Fin S524288x64.rank) gather_S524288x64_S64x1_S524288x64_0_1_n_n_1_1_5242881.startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

end Cert.Fastfood

end
-- ==== Proof.RefPieces.lean ====
/-
  Small readings of the reference's host operations at an index: a vector of 64 copied down the rows, a scalar constant copied
  everywhere, the recast of the input scaled by a constant, and the start index the column gather uses when the index
  vector is in range (a non-negative word is not wrapped, and a word below 64 is not clamped).
-/
import proofs.«413175_j7078106103911_1_alg».proof.ReferenceIdeal
import proofs.«413175_j7078106103911_1_alg».proof.Proof.Gen.ReferenceIdeal
import proofs.«413175_j7078106103911_1_alg».proof.Proof.Index
import Idealize.ShloMosaic.Lib.ValueIdx
import Idealize.ShloMosaic.Lib.Pipeline.Value
import Idealize.ShloMosaic.Lib.IdealHost
import Idealize.ShloMosaic.Lib.StableHlo.Predicate

noncomputable section

namespace Cert.Fastfood

open Idealize.ShloMosaic Idealize.ShloMosaic.ValueIdx Cert.ReferenceIdeal Cert.ReferenceIdeal.Gen

/-- A vector of 64 copied down the rows of a [524288, 64] array (through [1, 64]) reads, at `(row, i)`, its entry `i`. -/
theorem rowBcast_apply {α : Type} (v : S64.Idx → α) (row : Fin 524288) (i : Fin 64) :
    broadcastInDim S524288x64 ![0, 1] bcast_S1x64_S524288x64_0_1 (broadcastInDim S1x64 ![1] bcast_S64_S1x64_1 v) (ix2 row i)
      = v (ix1 i) := by
  -- The outer copy reads the [1, 64] row at (0, i) (its unit axis reads 0, its other axis the result's column); the inner
  -- copy reads the vector at the column.
  rw [broadcastInDim_apply ![0, 1] bcast_S1x64_S524288x64_0_1 _ (ix2 row i) (ix2 (0 : Fin 1) i)
        (fun a => match a with | ⟨0, _⟩ => rfl | ⟨1, _⟩ => rfl),
      broadcastInDim_apply ![1] bcast_S64_S1x64_1 v (ix2 (0 : Fin 1) i) (ix1 i)
        (fun a => match a with | ⟨0, _⟩ => rfl)]

/-- A scalar constant copied over a [524288, 64] array reads everywhere as its value. -/
theorem scalarBcast2_apply (w : BitVec 32) (j : S524288x64.Idx) :
    broadcastInDim S524288x64 ![] bcast_S_S524288x64 (constant (F := Ideal) S_ .f32 w) j = Ideal.ofBits .f32 w := by
  -- A rank-0 operand has no axis to read: every result index reads its one element, the constant's value.
  rw [broadcastInDim_scalar_apply]
  rfl

/-- The input scaled by a constant and recast to [524288, 64] is the recast input, scaled. -/
theorem xScaled_apply (x : FVec Ideal S8x8192x8x64 .f32) (w : BitVec 32) (row : Fin 524288) (i : Fin 64) :
    shapeCast S524288x64 (mulf x (broadcastInDim S8x8192x8x64 ![] bcast_S_S8x8192x8x64 (constant (F := Ideal) S_ .f32 w)))
        shapeCasts_S8x8192x8x64_S524288x64 (ix2 row i)
      = shapeCast S524288x64 x shapeCasts_S8x8192x8x64_S524288x64 (ix2 row i) * Ideal.ofBits .f32 w := by
  -- Both recasts read their operand at the same source index; there the product is the input's element times the
  -- constant, which reads the same everywhere.
  unfold shapeCast
  rw [mulf_apply, broadcastInDim_scalar_apply]
  rfl

/-- With the index vector in range, the gather's `k`-th start index (negatives wrapped by 64, then read signed and clamped into
    [0, 63]) is the column the `k`-th word names. -/
theorem sel_index (P : IVec S64 32) (hP : InRange P) (k : Fin 64) :
    min ((broadcastInDim S64x1 ![0] bcast_S64_S64x1_0
        (select (cmpi .slt P (broadcastInDim S64 ![] bcast_S_S64 (constantI S_ 32 0#32)))
          (addi P (broadcastInDim S64 ![] bcast_S_S64 (constantI S_ 32 64#32))) P)) (ix2 k (0 : Fin 1))).toInt.toNat 63
      = (pOf P k).val := by
  -- The [64, 1] column reads the selected vector at entry k.
  rw [broadcastInDim_apply ![0] bcast_S64_S64x1_0 _ (ix2 k (0 : Fin 1)) (ix1 k)
        (fun a => match a with | ⟨0, _⟩ => rfl)]
  -- At entry k everything is pointwise on the word w = P k, the two constants reading 0 and 64.
  have hw : (P (ix1 k)).toNat < 64 := hP k
  show min (Scalar.select (IntOp.cmpi .slt (P (ix1 k)) 0#32) (IntOp.addi (P (ix1 k)) 64#32) (P (ix1 k))).toInt.toNat 63
      = (pOf P k).val
  -- w < 64 < 2^31, so read signed it is not below 0: the select keeps w itself.
  have hc : ¬ IntOp.cmpi .slt (P (ix1 k)) 0#32 = 1#1 := by
    rw [StableHlo.Predicate.slt_iff_toNat (by omega) (by decide)]
    exact Nat.not_lt_zero _
  unfold Scalar.select
  rw [if_neg (show ¬ IntOp.cmpi .slt (P (ix1 k)) 0#32 = 1 from hc), StableHlo.Predicate.toInt_eq_toNat_of_lt (by omega), Int.toNat_natCast, pOf_val P hP k]
  -- and w ≤ 63 is not clamped.
  exact Nat.min_eq_left (by omega)

end Cert.Fastfood

end
-- ==== Proof.RefValue.lean ====
/-
  The reference's run with its result named, and the result read at an index.

  The reference scales the input by its first constant and recasts it to [524288, 64]; multiplies each row by `B`; applies six
  butterfly stages (strides 1 to 32); gathers the columns the index vector names and multiplies by `G`; applies the six
  stages again; multiplies by `S` and by its second constant; and recasts to the result's shape. Entry `(row, j)` of the
  [524288, 64] array before the last recast is the specification's `refRow` of row `row` of the recast input.
-/
import proofs.«413175_j7078106103911_1_alg».proof.Proof.RefRun
import proofs.«413175_j7078106103911_1_alg».proof.Proof.Spec
import proofs.«413175_j7078106103911_1_alg».proof.Proof.Index
import proofs.«413175_j7078106103911_1_alg».proof.Proof.RefStage
import proofs.«413175_j7078106103911_1_alg».proof.Proof.Gather
import proofs.«413175_j7078106103911_1_alg».proof.Proof.RefPieces
import Idealize.ShloMosaic.Lib.IdealHost

set_option maxRecDepth 8192

noncomputable section

namespace Cert.ReferenceIdeal.RValue

open Idealize.ShloMosaic Idealize.ShloMosaic.TcCoe Idealize.ShloMosaic.ValueIdx Idealize.SL.Sem Idealize.ShloMosaic.StableHlo
open Cert.ReferenceIdeal Cert.ReferenceIdeal.Gen Cert.Fastfood
open Cert.ReferenceIdeal.RRun (st1 st2 st4 st8 st16 st32 six scaleIn gatherMul scaleOut refFun)

variable (m : (ℓ : Loc nD τ sig) → Buf (Elt Ideal) ℓ)

/-- The argument arrays as launched, each with its literal type. -/
abbrev b0 (c : Dev nD) : FVec Ideal S8x8192x8x64 .f32 := m ((c.tc : Thread nD τ).loc main_arg0)
abbrev b1 (c : Dev nD) : FVec Ideal S64 .f32 := m ((c.tc : Thread nD τ).loc main_arg1)
abbrev b2 (c : Dev nD) : FVec Ideal S64 .f32 := m ((c.tc : Thread nD τ).loc main_arg2)
abbrev b3 (c : Dev nD) : FVec Ideal S64 .f32 := m ((c.tc : Thread nD τ).loc main_arg3)
abbrev b4 (c : Dev nD) : IVec S64 32 := m ((c.tc : Thread nD τ).loc main_arg4)

/-- The reference's [524288, 64] result before the last recast: the reference's map of the five launched arguments. -/
def refOut2 (c : Dev nD) : FVec Ideal S524288x64 .f32 :=
  refFun (b0 m c) (b1 m c) (b2 m c) (b3 m c) (b4 m c)

/-- THE REFERENCE'S RUN: every weakly fair execution ends with the result the recast of `refOut2` and the arguments unchanged. -/
theorem ref_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v153) = shapeCast S8x8192x8x64 (refOut2 m c) shapeCasts_S524288x64_S8x8192x8x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.ReferenceIdeal.RRun.run m ρ

/-! ## Rows: a stage acts on each row as the butterfly stage of the specification -/

theorem st1_row (u : FVec Ideal S524288x64 .f32) (row : Fin 524288) :
    (fun i : Fin 64 => st1 u (ix2 row i)) = bfly 1 (fun i : Fin 64 => u (ix2 row i)) :=
  funext fun col => stage_apply 524288 32 1 (Or.inl ⟨rfl, rfl⟩) u _ _ _ _ _ _ _ row col

theorem st2_row (u : FVec Ideal S524288x64 .f32) (row : Fin 524288) :
    (fun i : Fin 64 => st2 u (ix2 row i)) = bfly 2 (fun i : Fin 64 => u (ix2 row i)) :=
  funext fun col => stage_apply 524288 16 2 (Or.inr (Or.inl ⟨rfl, rfl⟩)) u _ _ _ _ _ _ _ row col

theorem st4_row (u : FVec Ideal S524288x64 .f32) (row : Fin 524288) :
    (fun i : Fin 64 => st4 u (ix2 row i)) = bfly 4 (fun i : Fin 64 => u (ix2 row i)) :=
  funext fun col => stage_apply 524288 8 4 (Or.inr (Or.inr (Or.inl ⟨rfl, rfl⟩))) u _ _ _ _ _ _ _ row col

theorem st8_row (u : FVec Ideal S524288x64 .f32) (row : Fin 524288) :
    (fun i : Fin 64 => st8 u (ix2 row i)) = bfly 8 (fun i : Fin 64 => u (ix2 row i)) :=
  funext fun col => stage_apply 524288 4 8 (Or.inr (Or.inr (Or.inr (Or.inl ⟨rfl, rfl⟩)))) u _ _ _ _ _ _ _ row col

theorem st16_row (u : FVec Ideal S524288x64 .f32) (row : Fin 524288) :
    (fun i : Fin 64 => st16 u (ix2 row i)) = bfly 16 (fun i : Fin 64 => u (ix2 row i)) :=
  funext fun col => stage_apply 524288 2 16 (Or.inr (Or.inr (Or.inr (Or.inr (Or.inl ⟨rfl, rfl⟩))))) u _ _ _ _ _ _ _ row col

theorem st32_row (u : FVec Ideal S524288x64 .f32) (row : Fin 524288) :
    (fun i : Fin 64 => st32 u (ix2 row i)) = bfly 32 (fun i : Fin 64 => u (ix2 row i)) :=
  funext fun col => stage_apply 524288 1 32 (Or.inr (Or.inr (Or.inr (Or.inr (Or.inr ⟨rfl, rfl⟩))))) u _ _ _ _ _ _ _ row col

/-- On each row the six stages are the transform of the specification. -/
theorem six_row (u : FVec Ideal S524288x64 .f32) (row : Fin 524288) :
    (fun i : Fin 64 => six u (ix2 row i)) = fwht (fun i : Fin 64 => u (ix2 row i)) := by
  unfold six fwht
  rw [st32_row, st16_row, st8_row, st4_row, st2_row, st1_row]

theorem six_apply (u : FVec Ideal S524288x64 .f32) (row : Fin 524288) (j : Fin 64) :
    six u (ix2 row j) = fwht (fun i : Fin 64 => u (ix2 row i)) j :=
  congrFun (six_row u row) j

/-! ## The three maps around the transforms, read at an index -/

/-- Entry (row, i) of the scaled input: the recast input at (row, i), times the first constant, times `B i`. -/
theorem scaleIn_apply (x : FVec Ideal S8x8192x8x64 .f32) (B : FVec Ideal S64 .f32) (row : Fin 524288) (i : Fin 64) :
    scaleIn x B (ix2 row i)
      = shapeCast S524288x64 x shapeCasts_S8x8192x8x64_S524288x64 (ix2 row i) * Ideal.ofBits .f32 0x3EB504F3#32 * B (ix1 i) := by
  unfold scaleIn
  rw [mulf_apply, rowBcast_apply, xScaled_apply]

/-- Entry (row, k) of the gathered array, with the index vector in range: `y` at row `row` and the column the k-th word names,
    times `G k`. -/
theorem gatherMul_apply (y : FVec Ideal S524288x64 .f32) (P : IVec S64 32) (G : FVec Ideal S64 .f32) (hP : InRange P)
    (row : Fin 524288) (k : Fin 64) :
    gatherMul y P G (ix2 row k) = y (ix2 row (pOf P k)) * G (ix1 k) := by
  unfold gatherMul
  rw [mulf_apply, rowBcast_apply, gather_cols_apply]
  exact congrArg (fun t : Fin 64 => y (ix2 row t) * G (ix1 k)) (Fin.ext (sel_index P hP k))

/-- Entry (row, j) of the last scalings: the second constant times (`y` at (row, j) times `S j`). -/
theorem scaleOut_apply (y : FVec Ideal S524288x64 .f32) (S : FVec Ideal S64 .f32) (row : Fin 524288) (j : Fin 64) :
    scaleOut y S (ix2 row j) = Ideal.ofBits .f32 0x3E000000#32 * (y (ix2 row j) * S (ix1 j)) := by
  unfold scaleOut
  rw [mulf_apply, mulf_apply, scalarBcast2_apply, rowBcast_apply]

/-- THE RESULT AT AN INDEX: with the index vector in range, entry `(row, j)` is the specification's row function of row `row`
    of the recast input. -/
theorem refOut2_apply (c : Dev nD) (hP : InRange (b4 m c)) (row : Fin 524288) (j : Fin 64) :
    refOut2 m c (ix2 row j)
      = refRow (fun i => shapeCast S524288x64 (b0 m c) shapeCasts_S8x8192x8x64_S524288x64 (ix2 row i))
          (fun a => b1 m c (ix1 a)) (fun a => b2 m c (ix1 a)) (fun a => b3 m c (ix1 a)) (pOf (b4 m c))
          (Ideal.ofBits .f32 0x3EB504F3#32) (Ideal.ofBits .f32 0x3E000000#32) j := by
  unfold refOut2 refFun
  rw [scaleOut_apply, six_apply]
  have hu : (fun i : Fin 64 => scaleIn (b0 m c) (b1 m c) (ix2 row i))
      = fun i => shapeCast S524288x64 (b0 m c) shapeCasts_S8x8192x8x64_S524288x64 (ix2 row i)
          * Ideal.ofBits .f32 0x3EB504F3#32 * b1 m c (ix1 i) :=
    funext fun i => scaleIn_apply (b0 m c) (b1 m c) row i
  have hg : (fun k : Fin 64 => gatherMul (six (scaleIn (b0 m c) (b1 m c))) (b4 m c) (b2 m c) (ix2 row k))
      = fun k => fwht (fun i : Fin 64 => shapeCast S524288x64 (b0 m c) shapeCasts_S8x8192x8x64_S524288x64 (ix2 row i)
          * Ideal.ofBits .f32 0x3EB504F3#32 * b1 m c (ix1 i)) (pOf (b4 m c) k) * b2 m c (ix1 k) := by
    funext k
    rw [gatherMul_apply _ _ _ hP row k, six_apply, hu]
  rw [hg]
  rfl

end Cert.ReferenceIdeal.RValue

end
-- ==== Proof.lean ====
/-
  The certificate's claims.

  Both programs map each row `x` of the input, recast to [524288, 64], to the same row of 64 numbers. The reference scales
  `x` by a constant `r` and by the signs `B`, applies the Walsh-Hadamard transform (six butterfly stages), permutes by the
  index vector, scales by `G`, transforms again, scales by `S` and by an eighth. The kernel multiplies `x` by one 64 x 64
  matrix that its host operations build from `B`, `G`, `S`, the index vector, a literal table of +1 / -1 and one scale
  constant. The table is the transform's matrix, the kernel's scale is `r` times an eighth exactly, and under the
  precondition every float entry is a real number and every index word is in [0, 64); so both rows are the same finite sum
  of products of real numbers, rearranged (`Cert.Fastfood.bridge`). The frames of the two kernel programs are the
  generated ones; the reference's frame is its run (read back stage by stage) with the result dropped; nothing was rewritten by the ideal pass.
-/
import proofs.«413175_j7078106103911_1_alg».proof.Defs
import proofs.«413175_j7078106103911_1_alg».proof.Proof.Gen.Kernel
import proofs.«413175_j7078106103911_1_alg».proof.Proof.Gen.Kernel.Frame
import proofs.«413175_j7078106103911_1_alg».proof.Proof.Gen.KernelIdeal
import proofs.«413175_j7078106103911_1_alg».proof.Proof.Gen.KernelIdeal.Frame
import proofs.«413175_j7078106103911_1_alg».proof.Proof.Gen.ReferenceIdeal
import proofs.«413175_j7078106103911_1_alg».proof.Proof.Gen.Pre_finite_inputs
import proofs.«413175_j7078106103911_1_alg».proof.Proof.Spec
import proofs.«413175_j7078106103911_1_alg».proof.Proof.Index
import proofs.«413175_j7078106103911_1_alg».proof.Proof.Table
import proofs.«413175_j7078106103911_1_alg».proof.Proof.Pre
import proofs.«413175_j7078106103911_1_alg».proof.Proof.KNames
import proofs.«413175_j7078106103911_1_alg».proof.Proof.KernelW
import proofs.«413175_j7078106103911_1_alg».proof.Proof.KernelBlocks
import proofs.«413175_j7078106103911_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.Fastfood

open Cert.KernelIdeal.KValue in
/-- One row: with finite floats and the index vector in range, the kernel's output entry is the reference's row function
    of the same row of the recast input. -/
theorem kerOut2_eq_refRow (m : (ℓ : Loc Cert.KernelIdeal.nD Cert.KernelIdeal.τ Cert.KernelIdeal.sig) → Buf (Elt Ideal) ℓ)
    (c : Dev Cert.KernelIdeal.nD)
    (hx : ∀ i, ∃ a : ℝ, a0 m c i = (a : EReal)) (hB : ∀ i, ∃ a : ℝ, a1 m c i = (a : EReal))
    (hG : ∀ i, ∃ a : ℝ, a2 m c i = (a : EReal)) (hS : ∀ i, ∃ a : ℝ, a3 m c i = (a : EReal)) (hP : InRange (a4 m c))
    (row : Fin 524288) (j : Fin 64) :
    kerOut2 m c (ix2 row j)
      = refRow (fun i => shapeCast Cert.KernelIdeal.S524288x64 (a0 m c) Cert.KernelIdeal.Gen.shapeCasts_S8x8192x8x64_S524288x64 (ix2 row i))
          (fun a => a1 m c (ix1 a)) (fun a => a2 m c (ix1 a)) (fun a => a3 m c (ix1 a)) (pOf (a4 m c))
          (Ideal.ofBits .f32 0x3EB504F3#32) (Ideal.ofBits .f32 0x3E000000#32) j := by
  rw [kerOut2_apply, Xarr_eq]
  have hW : (fun i j => Warr m c (ix2 i j))
      = wEntry (fun i j => (((T i j : ℤ) : ℝ) : EReal)) (fun a => a1 m c (ix1 a)) (fun a => a2 m c (ix1 a)) (fun a => a3 m c (ix1 a))
          (fun l k => if l = pOf (a4 m c) k then (1 : EReal) else 0) (Ideal.ofBits .f32 0x3D3504F3#32) := by
    funext i j
    rw [W_entry m c hP i j]
    congr 1
    funext i j
    exact hm_eq i j
  have hb := bridge T T_spec
    (fun i => shapeCast Cert.KernelIdeal.S524288x64 (a0 m c) Cert.KernelIdeal.Gen.shapeCasts_S8x8192x8x64_S524288x64 (ix2 row i))
    (fun a => a1 m c (ix1 a)) (fun a => a2 m c (ix1 a)) (fun a => a3 m c (ix1 a))
    (fun i => by unfold shapeCast; exact hx _) (fun i => hB _) (fun i => hG _) (fun i => hS _)
    (pOf (a4 m c)) (Ideal.ofBits .f32 0x3EB504F3#32) (Ideal.ofBits .f32 0x3E000000#32) (Ideal.ofBits .f32 0x3D3504F3#32)
    rR c8R r_eq c8_eq c_eq j
  rw [← hb]
  unfold kerRow
  exact Finset.sum_congr rfl fun i _ => by rw [← hW]

/-- The whole arrays: from memories that agree on the arguments and satisfy the precondition, the reference's result array
    before its last recast is the kernel's. -/
theorem refOut2_eq_kerOut2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RValue.refOut2 m' c = Cert.KernelIdeal.KValue.kerOut2 m c := by
  obtain ⟨hx, hB, hG, hS, hP⟩ := pre_decode _ _ _ _ _ (hpre c)
  have e0 : Cert.ReferenceIdeal.RValue.b0 m' c = Cert.KernelIdeal.KValue.a0 m c := h0
  have e1 : Cert.ReferenceIdeal.RValue.b1 m' c = Cert.KernelIdeal.KValue.a1 m c := h1
  have e2 : Cert.ReferenceIdeal.RValue.b2 m' c = Cert.KernelIdeal.KValue.a2 m c := h2
  have e3 : Cert.ReferenceIdeal.RValue.b3 m' c = Cert.KernelIdeal.KValue.a3 m c := h3
  have e4 : Cert.ReferenceIdeal.RValue.b4 m' c = Cert.KernelIdeal.KValue.a4 m c := h4
  have hP' : InRange (Cert.ReferenceIdeal.RValue.b4 m' c) := by rw [e4]; exact hP
  funext idx
  obtain ⟨row, j, rfl⟩ : ∃ (row : Fin 524288) (j : Fin 64), idx = ix2 row j := ⟨idx 0, idx 1, eq_ix2 idx⟩
  rw [Cert.ReferenceIdeal.RValue.refOut2_apply m' c hP' row j, kerOut2_eq_refRow m c hx hB hG hS hP row j, e0, e1, e2, e3, e4]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RValue.ref_run m ρ)

/-- The ideal pass rewrote nothing, so there is nothing to preserve. -/
theorem preserves : Cert.preserves_Kernel_KernelIdeal := trivial

/-- Both idealized programs end with the recast of one [524288, 64] array. -/
theorem algebraic : Cert.algebraic_KernelIdeal_ReferenceIdeal := by
  intro m ρ m' ρ' hpre hagree
  refine ⟨fun c => shapeCast Cert.KernelIdeal.S8x8192x8x64 (Cert.KernelIdeal.KValue.kerOut2 m c) Cert.KernelIdeal.Gen.shapeCasts_S524288x64_S8x8192x8x64,
    Cert.KernelIdeal.KValue.kernel_run m ρ, ?_⟩
  refine (θ_run Cert.ReferenceIdeal.defs _ _).mono (fun _ h c => ⟨(h c).1.trans ?_, (h c).2⟩)
    (Cert.ReferenceIdeal.RValue.ref_run m' ρ')
  rw [refOut2_eq_kerOut2 m m' hpre c (hagree c).1 (hagree c).2.1 (hagree c).2.2.1 (hagree c).2.2.2.1 (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
